-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x16x32 : Shape := ⟨3, ![2, 16, 32]⟩
abbrev S2x128x160 : Shape := ⟨3, ![2, 128, 160]⟩
abbrev S2x128 : Shape := ⟨2, ![2, 128]⟩
abbrev S2x128x128 : Shape := ⟨3, ![2, 128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x16x32 : S_.BroadcastsInDim S2x16x32 (![] : Fin 0 → Fin S2x16x32.rank)
  reducesTo_S2x16x32_S_d0_1_2 : S2x16x32.ReducesTo [0, 1, 2] S_
  bcast_S_S2x128x160 : S_.BroadcastsInDim S2x128x160 (![] : Fin 0 → Fin S2x128x160.rank)
  reducesTo_S2x128x160_S_d0_1_2 : S2x128x160.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg10 : IVec S800000 32) (main_arg12 : IVec S800000 32) (main_v48 : IVec S_ 1) (main_v50 : IVec S800000 1) : IVec S_ 1 :=
  let main_c_19 : IVec S_ 32 := constantI S_ 32 50000#32
  let main_v51 : IVec S800000 32 := broadcastInDim S800000 ![] bcast_S_S800000 main_c_19
  let main_v52 : IVec S800000 1 := cmpi .slt main_arg10 main_v51
  let main_v53 : IVec S800000 1 := andi main_v50 main_v52
  let main_c_20 : IVec S_ 1 := constantI S_ 1 1#1
  let main_v54 : IVec S_ 1 := (fun x v => Host.reduce IntOp.andi x v reducesTo_S800000_S_d0 h_S_) main_v53 main_c_20
  let main_v55 : IVec S_ 1 := andi main_v48 main_v54
  let main_c_21 : IVec S_ 32 := constantI S_ 32 0#32
  let main_v56 : IVec S800000 32 := broadcastInDim S800000 ![] bcast_S_S800000 main_c_21
  let main_v57 : IVec S800000 1 := cmpi .sge main_arg12 main_v56
  let main_c_22 : IVec S_ 32 := constantI S_ 32 16#32
  let main_v58 : IVec S800000 32 := broadcastInDim S800000 ![] bcast_S_S800000 main_c_22
  let main_v59 : IVec S800000 1 := cmpi .slt main_arg12 main_v58
  let main_v60 : IVec S800000 1 := andi main_v57 main_v59
  let main_c_23 : IVec S_ 1 := constantI S_ 1 1#1
  let main_v61 : IVec S_ 1 := (fun x v => Host.reduce IntOp.andi x v reducesTo_S800000_S_d0 h_S_) main_v60 main_c_23
  let main_v62 : IVec S_ 1 := andi main_v55 main_v61
  main_v62

def fn_part2 {F : FTy → Type} [FloatOps F] (main_arg7 : FVec F S2x128 .f32) (main_arg8 : FVec F S2x128x128 .f32) (main_arg9 : FVec F S2x128 .f32) (main_arg10 : IVec S800000 32) (main_arg12 : IVec S800000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg10 main_v49
  fn_part3 (F := F) main_arg10 main_arg12 main_v48 main_v50

def fn_part1 {F : FTy → Type} [FloatOps F] (main_arg4 : FVec F S2x128x160 .f32) (main_arg5 : FVec F S2x128 .f32) (main_arg6 : FVec F S2x128x128 .f32) (main_arg7 : FVec F S2x128 .f32) (main_arg8 : FVec F S2x128x128 .f32) (main_arg9 : FVec F S2x128 .f32) (main_arg10 : IVec S800000 32) (main_arg12 : IVec S800000 32) (main_v13 : IVec S_ 1) (main_v16 : IVec S2x16x32 1) : IVec S_ 1 :=
  let main_c_5 : IVec S_ 1 := constantI S_ 1 1#1
  let main_v17 : IVec S_ 1 := (fun x v => Host.reduce IntOp.andi x v reducesTo_S2x16x32_S_d0_1_2 h_S_) main_v16 main_c_5
  let main_v18 : IVec S_ 1 := andi main_v13 main_v17
  let main_v19 : FVec F S2x128x160 .f32 := Host.absf main_arg4
  let main_cst_6 : FVec F S_ .f32 := constant S_ .f32 0x7F800000#32
  let main_v20 : FVec F S2x128x160 .f32 := broadcastInDim S2x128x160 ![] bcast_S_S2x128x160 main_cst_6
  let main_v21 : IVec S2x128x160 1 := cmpf .olt main_v19 main_v20
  let main_c_7 : IVec S_ 1 := constantI S_ 1 1#1
  let main_v22 : IVec S_ 1 := (fun x v => Host.reduce IntOp.andi x v reducesTo_S2x128x160_S_d0_1_2 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_arg9 main_arg10 main_arg12 main_v33

def fn {F : FTy → Type} [FloatOps F] (main_arg0 : FVec F S50000x128 .f32) (main_arg1 : FVec F S128x128 .f32) (main_arg2 : FVec F S128 .f32) (main_arg3 : FVec F S2x16x32 .f32) (main_arg4 : FVec F S2x128x160 .f32) (main_arg5 : FVec F S2x128 .f32) (main_arg6 : FVec F S2x128x128 .f32) (main_arg7 : FVec F S2x128 .f32) (main_arg8 : FVec F S2x128x128 .f32) (main_arg9 : FVec F S2x128 .f32) (main_arg10 : IVec S800000 32) (main_arg11 : IVec S800000 32) (main_arg12 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x16x32 .f32 := Host.absf main_arg3
  let main_cst_4 : FVec F S_ .f32 := constant S_ .f32 0x7F800000#32
  let main_v15 : FVec F S2x16x32 .f32 := broadcastInDim S2x16x32 ![] bcast_S_S2x16x32 main_cst_4
  let main_v16 : IVec S2x16x32 1 := cmpf .olt main_v14 main_v15
  fn_part1 (F := F) main_arg4 main_arg5 main_arg6 main_arg7 main_arg8 main_arg9 main_arg10 main_arg12 main_v13 main_v16
-- ==== Kernel.lean ====
abbrev S50000x128 : Shape := ⟨2, ![50000, 128]⟩
abbrev S128x128 : Shape := ⟨2, ![128, 128]⟩
abbrev S128 : Shape := ⟨1, ![128]⟩
abbrev S2x16x32 : Shape := ⟨3, ![2, 16, 32]⟩
abbrev S2x128x160 : Shape := ⟨3, ![2, 128, 160]⟩
abbrev S2x128 : Shape := ⟨2, ![2, 128]⟩
abbrev S2x128x128 : Shape := ⟨3, ![2, 128, 128]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x16 : Shape := ⟨2, ![1, 16]⟩
abbrev S800000x16 : Shape := ⟨2, ![800000, 16]⟩
abbrev S50000x16 : Shape := ⟨2, ![50000, 16]⟩
abbrev S1x128x160 : Shape := ⟨3, ![1, 128, 160]⟩
abbrev S128x160 : Shape := ⟨2, ![128, 160]⟩
abbrev S1x128 : Shape := ⟨2, ![1, 128]⟩
abbrev S2000x128 : Shape := ⟨2, ![2000, 128]⟩
abbrev S1 : Shape := ⟨1, ![1]⟩
abbrev S1x1 : Shape := ⟨2, ![1, 1]⟩
abbrev S800000x128 : Shape := ⟨2, ![800000, 128]⟩
abbrev S128x32 : Shape := ⟨2, ![128, 32]⟩
abbrev S32x128 : Shape := ⟨2, ![32, 128]⟩
abbrev S1x16x32 : Shape := ⟨3, ![1, 16, 32]⟩
abbrev S16x32 : Shape := ⟨2, ![16, 32]⟩
abbrev S16x128 : Shape := ⟨2, ![16, 128]⟩
abbrev S1x128x128 : Shape := ⟨3, ![1, 128, 128]⟩
abbrev S2000x16 : Shape := ⟨2, ![2000, 16]⟩
abbrev S2000x1 : Shape := ⟨2, ![2000, 1]⟩

abbrev nBuf : Space → Nat
  | .hbm => 148
  | .vmem => 44
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S2x16x32, .f32⟩
  | 4 => ⟨S2x128x160, .f32⟩
  | 5 => ⟨S2x128, .f32⟩
  | 6 => ⟨S2x128x128, .f32⟩
  | 7 => ⟨S2x128, .f32⟩
  | 8 => ⟨S2x128x128, .f32⟩
  | 9 => ⟨S2x128, .f32⟩
  | 10 => ⟨S800000, .i32⟩
  | 11 => ⟨S800000, .i32⟩
  | 12 => ⟨S800000, .i32⟩
  | 13 => ⟨S_, .f32⟩
  | 14 => ⟨S800000x1, .f32⟩
  | 15 => ⟨S_, .f32⟩
  | 16 => ⟨S50000x1, .f32⟩
  | 17 => ⟨S800000x1, .i32⟩
  | 18 => ⟨S50000x1, .f32⟩
  | 19 => ⟨S_, .f32⟩
  | 20 => ⟨S50000x1, .f32⟩
  | 21 => ⟨S50000x1, .f32⟩
  | 22 => ⟨S_, .f32⟩
  | 23 => ⟨S50000x1, .f32⟩
  | 24 => ⟨S50000x1, .f32⟩
  | 25 => ⟨S800000x1, .i32⟩
  | 26 => ⟨S1x16, .i32⟩
  | 27 => ⟨S800000x16, .i32⟩
  | 28 => ⟨S800000x16, .i32⟩
  | 29 => ⟨S800000x16, .i1⟩
  | 30 => ⟨S800000x16, .f32⟩
  | 31 => ⟨S_, .f32⟩
  | 32 => ⟨S50000x16, .f32⟩
  | 33 => ⟨S800000x1, .i32⟩
  | 34 => ⟨S50000x16, .f32⟩
  | 35 => ⟨S1x128x160, .f32⟩
  | 36 => ⟨S128x160, .f32⟩
  | 37 => ⟨S128x128, .f32⟩
  | 38 => ⟨S128x128, .f32⟩
  | 39 => ⟨S128x128, .f32⟩
  | 40 => ⟨S1x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x128, .f32⟩
  | 65 => ⟨S800000x128, .i1⟩
  | 66 => ⟨S_, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S1x128x160, .f32⟩
  | 74 => ⟨S128x160, .f32⟩
  | 75 => ⟨S128x32, .f32⟩
  | 76 => ⟨S32x128, .f32⟩
  | 77 => ⟨S1x16x32, .f32⟩
  | 78 => ⟨S16x32, .f32⟩
  | 79 => ⟨S16x128, .f32⟩
  | 80 => ⟨S1x128x128, .f32⟩
  | 81 => ⟨S128x128, .f32⟩
  | 82 => ⟨S128x128, .f32⟩
  | 83 => ⟨S1x128x128, .f32⟩
  | 84 => ⟨S128x128, .f32⟩
  | 85 => ⟨S128x128, .f32⟩
  | 86 => ⟨S1x128x160, .f32⟩
  | 87 => ⟨S128x160, .f32⟩
  | 88 => ⟨S128x128, .f32⟩
  | 89 => ⟨S128x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S1, .i32⟩
  | 110 => ⟨S_, .i32⟩
  | 111 => ⟨S800000x1, .i32⟩
  | 112 => ⟨S800000x1, .i1⟩
  | 113 => ⟨S1x1, .i32⟩
  | 114 => ⟨S800000x1, .i32⟩
  | 115 => ⟨S800000x1, .i1⟩
  | 116 => ⟨S800000x1, .i1⟩
  | 117 => ⟨S_, .i1⟩
  | 118 => ⟨S800000, .i1⟩
  | 119 => ⟨S800000x128, .f32⟩
  | 120 => ⟨S800000x128, .i1⟩
  | 121 => ⟨S_, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S1x128x160, .f32⟩
  | 1 => ⟨S128x160, .f32⟩
  | 2 => ⟨S128x32, .f32⟩
  | 3 => ⟨S32x128, .f32⟩
  | 4 => ⟨S1x16x32, .f32⟩
  | 5 => ⟨S16x32, .f32⟩
  | 6 => ⟨S16x128, .f32⟩
  | 7 => ⟨S1x128x128, .f32⟩
  | 8 => ⟨S128x128, .f32⟩
  | 9 => ⟨S128x128, .f32⟩
  | 10 => ⟨S1x128x128, .f32⟩
  | 11 => ⟨S128x128, .f32⟩
  | 12 => ⟨S128x128, .f32⟩
  | 13 => ⟨S1x128, .f32⟩
  | 14 => ⟨S128, .f32⟩
  | 15 => ⟨S1x128, .f32⟩
  | 16 => ⟨S1x128, .f32⟩
  | 17 => ⟨S128, .f32⟩
  | 18 => ⟨S1x128, .f32⟩
  | 19 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x16, .f32⟩
  | .local _ .vmem, ⟨15, _⟩ => ⟨S2000x16, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S16x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x16, .f32⟩
  | .local _ .vmem, ⟨34, _⟩ => ⟨S2000x16, .f32⟩
  | .local _ .vmem, ⟨35, _⟩ => ⟨S2000x1, .f32⟩
  | .local _ .vmem, ⟨36, _⟩ => ⟨S2000x1, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S16x128, .f32⟩
  | .local _ .vmem, ⟨42, _⟩ => ⟨S2000x128, .f32⟩
  | .local _ .vmem, ⟨43, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v8 : Ref sig .tc := ⟨.hbm, 30, rfl⟩
abbrev main_cst_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52_0 : Ref sig .tc := ⟨.hbm, 99, rfl⟩
abbrev main_v52_1 : Ref sig .tc := ⟨.hbm, 100, rfl⟩
abbrev main_call2_c : Ref sig .tc := ⟨.hbm, 101, rfl⟩
abbrev main_call2_v0 : Ref sig .tc := ⟨.hbm, 102, rfl⟩
abbrev main_call2_v1 : Ref sig .tc := ⟨.hbm, 103, rfl⟩
abbrev main_call2_c_0 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_c_1 : Ref sig .tc := ⟨.hbm, 109, rfl⟩
abbrev main_call2_c_2 : Ref sig .tc := ⟨.hbm, 110, rfl⟩
abbrev main_call2_v6 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_3 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_cst : Ref sig .tc := ⟨.hbm, 121, rfl⟩
abbrev main_call2_v15 : Ref sig .tc := ⟨.hbm, 122, rfl⟩
abbrev main_v53 : Ref sig .tc := ⟨.hbm, 123, rfl⟩
abbrev main_cst_5 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg9_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem11_1 : DmaSem sig := 26
abbrev cc1_sem12_0 : DmaSem sig := 27
abbrev cc1_sem12_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem9_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S800000x1_S800000x16_0_1 : S800000x1.BroadcastsInDim S800000x16 (![0, 1] : Fin 2 → Fin S800000x16.rank)
  bcast_S1x16_S800000x16_0_1 : S1x16.BroadcastsInDim S800000x16 (![0, 1] : Fin 2 → Fin S800000x16.rank)
  bcast_S_S50000x16 : S_.BroadcastsInDim S50000x16 (![] : Fin 0 → Fin S50000x16.rank)
  slices_S2x128x160_S1x128x160_0_0_0 : S2x128x160.Slices ![0, 0, 0] S1x128x160
  shapeCasts_S1x128x160_S128x160 : S1x128x160.ShapeCasts S128x160
  slices_S128x160_S128x128_0_0 : S128x160.Slices ![0, 0] S128x128
  transposes_S128x128_S128x128_1_0 : S128x128.Transposes [1, 0] S128x128
  shapeCasts_S128_S1x128 : S128.ShapeCasts S1x128
  slices_S2x128_S1x128_0_0 : S2x128.Slices ![0, 0] S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  slices_S128x160_S128x32_0_128 : S128x160.Slices ![0, 128] S128x32
  transposes_S128x32_S32x128_1_0 : S128x32.Transposes [1, 0] S32x128
  slices_S2x16x32_S1x16x32_0_0_0 : S2x16x32.Slices ![0, 0, 0] S1x16x32
  shapeCasts_S1x16x32_S16x32 : S1x16x32.ShapeCasts S16x32
  slices_S2x128x128_S1x128x128_0_0_0 : S2x128x128.Slices ![0, 0, 0] S1x128x128
  shapeCasts_S1x128x128_S128x128 : S1x128x128.ShapeCasts S128x128
  slices_S2x128x160_S1x128x160_1_0_0 : S2x128x160.Slices ![1, 0, 0] S1x128x160
  slices_S2x128_S1x128_1_0 : S2x128.Slices ![1, 0] S1x128
  shapeCasts_S2000x128_S2000x128 : S2000x128.ShapeCasts S2000x128
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  slices_S2x16x32_S1x16x32_1_0_0 : S2x16x32.Slices ![1, 0, 0] S1x16x32
  slices_S2x128x128_S1x128x128_1_0_0 : S2x128x128.Slices ![1, 0, 0] S1x128x128
  scatter_S50000x1_S800000x1_S800000x1_1_0_0_1_wf : ScatterDims.WF S50000x1 S800000x1 S800000x1 [1] [0] [0] 1
  scatter_S50000x16_S800000x1_S800000x16_1_0_0_1_wf : ScatterDims.WF S50000x16 S800000x1 S800000x16 [1] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S16x32_S32x128_S16x128_1_0_0_1_n_n_wf : DotDims.WF S16x32 S32x128 S16x128 [1] [0] [0] [1] [] []
  dot_S2000x16_S16x128_S2000x128_1_0_0_1_n_n_wf : DotDims.WF S2000x16 S16x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S50000x16.size a
  hwx1_2 : ∀ i : grid1.Coords, EltTy.bits .f32 = 32 ∨ (Rect.block (s := S50000x16) S2000x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x128.size a ≤ S16x128.size a
  hwx1_8 : ∀ i : grid1.Coords, EltTy.bits .f32 = 32 ∨ (Rect.block (s := S16x128) S16x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S50000x16.size a
  hwx2_2 : ∀ i : grid2.Coords, EltTy.bits .f32 = 32 ∨ (Rect.block (s := S50000x16) S2000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16x128.size a ≤ S16x128.size a
  hwx2_8 : ∀ i : grid2.Coords, EltTy.bits .f32 = 32 ∨ (Rect.block (s := S16x128) S16x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S16x32_S32x128_S16x128_1_0_0_1_n_n : DotDims S16x32 S32x128 S16x128 where
  lhsContracting := [1]
  rhsContracting := [0]
  lhsNonContracting := [0]
  rhsNonContracting := [1]
  lhsBatch := []
  rhsBatch := []
  wf := dot_S16x32_S32x128_S16x128_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S16x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v51) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v52_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v52_1) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v52_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S16x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v76) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x16x32 : Shape := ⟨3, ![2, 16, 32]⟩
abbrev S2x128x160 : Shape := ⟨3, ![2, 128, 160]⟩
abbrev S2x128 : Shape := ⟨2, ![2, 128]⟩
abbrev S2x128x128 : Shape := ⟨3, ![2, 128, 128]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S50000x1 : Shape := ⟨2, ![50000, 1]⟩
abbrev S1x16x32 : Shape := ⟨3, ![1, 16, 32]⟩
abbrev S16x32 : Shape := ⟨2, ![16, 32]⟩
abbrev S800000x32 : Shape := ⟨2, ![800000, 32]⟩
abbrev S800000x128 : Shape := ⟨2, ![800000, 128]⟩
abbrev S800000x160 : Shape := ⟨2, ![800000, 160]⟩
abbrev S1x128x160 : Shape := ⟨3, ![1, 128, 160]⟩
abbrev S128x160 : Shape := ⟨2, ![128, 160]⟩
abbrev S160x128 : Shape := ⟨2, ![160, 128]⟩
abbrev S1x128x128 : Shape := ⟨3, ![1, 128, 128]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S2x16x32, .f32⟩
  | 4 => ⟨S2x128x160, .f32⟩
  | 5 => ⟨S2x128, .f32⟩
  | 6 => ⟨S2x128x128, .f32⟩
  | 7 => ⟨S2x128, .f32⟩
  | 8 => ⟨S2x128x128, .f32⟩
  | 9 => ⟨S2x128, .f32⟩
  | 10 => ⟨S800000, .i32⟩
  | 11 => ⟨S800000, .i32⟩
  | 12 => ⟨S800000, .i32⟩
  | 13 => ⟨S128x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S800000x1, .f32⟩
  | 20 => ⟨S_, .f32⟩
  | 21 => ⟨S50000x1, .f32⟩
  | 22 => ⟨S800000x1, .i32⟩
  | 23 => ⟨S50000x1, .f32⟩
  | 24 => ⟨S_, .f32⟩
  | 25 => ⟨S50000x1, .f32⟩
  | 26 => ⟨S50000x1, .f32⟩
  | 27 => ⟨S1x16x32, .f32⟩
  | 28 => ⟨S16x32, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x32, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x160, .f32⟩
  | 48 => ⟨S1x128x160, .f32⟩
  | 49 => ⟨S128x160, .f32⟩
  | 50 => ⟨S160x128, .f32⟩
  | 51 => ⟨S800000x128, .f32⟩
  | 52 => ⟨S1x128, .f32⟩
  | 53 => ⟨S128, .f32⟩
  | 54 => ⟨S1x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128x128, .f32⟩
  | 73 => ⟨S128x128, .f32⟩
  | 74 => ⟨S128x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x16x32, .f32⟩
  | 86 => ⟨S16x32, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x32, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x160, .f32⟩
  | 106 => ⟨S1x128x160, .f32⟩
  | 107 => ⟨S128x160, .f32⟩
  | 108 => ⟨S160x128, .f32⟩
  | 109 => ⟨S800000x128, .f32⟩
  | 110 => ⟨S1x128, .f32⟩
  | 111 => ⟨S128, .f32⟩
  | 112 => ⟨S1x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S128x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S128x128, .f32⟩
  | 5 => ⟨S50000x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call0_cst : Ref sig .tc := ⟨.hbm, 82, rfl⟩
abbrev main_call0_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_6 : Ref sig .tc := ⟨.hbm, 87, rfl⟩
abbrev main_v64 : Ref sig .tc := ⟨.hbm, 88, rfl⟩
abbrev main_v65 : Ref sig .tc := ⟨.hbm, 89, rfl⟩
abbrev main_c_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_8 : Ref sig .tc := ⟨.hbm, 96, rfl⟩
abbrev main_v71 : Ref sig .tc := ⟨.hbm, 97, rfl⟩
abbrev main_v72 : Ref sig .tc := ⟨.hbm, 98, rfl⟩
abbrev main_c_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_10 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_call1_cst : Ref sig .tc := ⟨.hbm, 140, rfl⟩
abbrev main_call1_v0 : Ref sig .tc := ⟨.hbm, 141, rfl⟩
abbrev main_v112 : Ref sig .tc := ⟨.hbm, 142, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  slices_S2x16x32_S1x16x32_0_0_0 : S2x16x32.Slices ![0, 0, 0] S1x16x32
  shapeCasts_S1x16x32_S16x32 : S1x16x32.ShapeCasts S16x32
  bcast_S_S800000 : S_.BroadcastsInDim S800000 (![] : Fin 0 → Fin S800000.rank)
  concatenates_S800000x128_S800000x32_S800000x160_d1 : Shape.Concatenates [S800000x128, S800000x32] S800000x160 1
  slices_S2x128x160_S1x128x160_0_0_0 : S2x128x160.Slices ![0, 0, 0] S1x128x160
  shapeCasts_S1x128x160_S128x160 : S1x128x160.ShapeCasts S128x160
  transposes_S128x160_S160x128_1_0 : S128x160.Transposes [1, 0] S160x128
  slices_S2x128_S1x128_0_0 : S2x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x16x32_S1x16x32_1_0_0 : S2x16x32.Slices ![1, 0, 0] S1x16x32
  slices_S2x128x160_S1x128x160_1_0_0 : S2x128x160.Slices ![1, 0, 0] S1x128x160
  slices_S2x128_S1x128_1_0 : S2x128.Slices ![1, 0] S1x128
  slices_S2x128x128_S1x128x128_1_0_0 : S2x128x128.Slices ![1, 0, 0] S1x128x128
  dot_S50000x128_S128x128_S50000x128_1_0_0_1_n_n_wf : DotDims.WF S50000x128 S128x128 S50000x128 [1] [0] [0] [1] [] []
  scatter_S50000x1_S800000x1_S800000x1_1_0_0_1_wf : ScatterDims.WF S50000x1 S800000x1 S800000x1 [1] [0] [0] 1
  gather_S16x32_S800000x1_S800000x32_1_0_n_n_0_1_132_wf : GatherDims.WF S16x32 S800000x1 S800000x32 [1] [0] [] [0] [] 1 ![1, 32]
  gather_S50000x128_S800000x1_S800000x128_1_0_n_n_0_1_1128_wf : GatherDims.WF S50000x128 S800000x1 S800000x128 [1] [0] [] [0] [] 1 ![1, 128]
  dot_S800000x160_S160x128_S800000x128_1_0_0_1_n_n_wf : DotDims.WF S800000x160 S160x128 S800000x128 [1] [0] [0] [1] [] []
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S16x32_S800000x1_S800000x32_1_0_n_n_0_1_132 : GatherDims S16x32 S800000x1 S800000x32 where
  offsetDims := [1]
  collapsedSliceDims := [0]
  operandBatchingDims := []
  startIndicesBatchingDims := []
  startIndexMap := [0]
  indexVectorDim := 1
  sliceSizes := ![1, 32]
  wf := gather_S16x32_S800000x1_S800000x32_1_0_n_n_0_1_132_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.GnnSpec.lean ====
/-
  One message-passing layer over a directed multigraph, written twice as plain functions on the extended reals.

  Nodes carry a feature row `h n : Fin 128 → EReal`; edge `e` reads node `src e`, carries relation `rid e` and lands on
  the nodes `n` with `e ∈ into n`. The PER-EDGE form builds each edge's message from the 160-wide row
  `[h (src e) | rel (rid e)]` through the message matrix `MW` and bias `mb`, sums the messages landing on a node and
  divides by the node's in-degree (at least one). The PER-NODE form first projects every node's row through the first 128
  columns of `MW` (adding the bias once per row), sums the projected rows of the in-neighbours, adds the relation part as
  `∑ r, (number of in-edges of relation r) · (rel r through the last 32 columns of MW)`, and multiplies by the reciprocal
  in-degree. The two agree on all extended reals: splitting a 160-term sum at 128, regrouping finite sums (an additive
  commutative monoid), distributing a product over a sum whose summands are 0 or 1 (nonnegative), and
  `x / d = x · (1/d)` for a real `d ≠ 0`.
-/
import Idealize.ShloMosaic.PureOps.Ideal

noncomputable section

open scoped BigOperators

namespace Cert.GnnSpec

open Idealize.ShloMosaic

/-- A float array of a literal shape, read as a function from its index type into the extended reals. -/
abbrev rd (s : Shape) (f : s.Idx → EReal) : s.Idx → EReal := f

variable (MW : Fin 128 → Fin 160 → EReal) (mb : Fin 128 → EReal)
  (SW : Fin 128 → Fin 128 → EReal) (sb : Fin 128 → EReal)
  (NW : Fin 128 → Fin 128 → EReal) (nb : Fin 128 → EReal)
  (rel : Fin 16 → Fin 32 → EReal)
  (src : Fin 800000 → Fin 50000) (rid : Fin 800000 → Fin 16) (into : Fin 50000 → Finset (Fin 800000))
  (h : Fin 50000 → Fin 128 → EReal)

/-- Column `k` of the first 128 of a 160-wide row. -/
abbrev lo (k : Fin 128) : Fin 160 := ⟨k.val, by omega⟩
/-- Column `128 + k` of a 160-wide row. -/
abbrev hi (k : Fin 32) : Fin 160 := ⟨128 + k.val, by omega⟩

/-- `x @ W.T + b` at row `n`, column `j`: the input projection. -/
def proj (x : Fin 50000 → Fin 128 → EReal) (W : Fin 128 → Fin 128 → EReal) (b : Fin 128 → EReal)
    (n : Fin 50000) (j : Fin 128) : EReal :=
  (∑ k : Fin 128, x n k * W j k) + b j

/-- Edge `e`'s 160-wide message input: the source node's row, then the relation's embedding. -/
def msgIn (e : Fin 800000) (k : Fin 160) : EReal :=
  if hk : k.val < 128 then h (src e) ⟨k.val, hk⟩ else rel (rid e) ⟨k.val - 128, by omega⟩

/-- Edge `e`'s message at column `j`. -/
def msgRef (e : Fin 800000) (j : Fin 128) : EReal :=
  (∑ k : Fin 160, msgIn rel src rid h e k * MW j k) + mb j

/-- The messages landing on node `n`, summed (onto zeros). -/
def segRef (n : Fin 50000) (j : Fin 128) : EReal :=
  0 + ∑ e ∈ into n, msgRef MW mb rel src rid h e j

/-- Node `n`'s in-degree as a sum of ones (onto zero). -/
def cnt (n : Fin 50000) : EReal := 0 + ∑ _e ∈ into n, (1 : EReal)

/-- The degree normaliser: at least one. -/
def deg (n : Fin 50000) : EReal := max (cnt into n) 1

/-- Mean aggregation, per-edge form. -/
def aggRef (n : Fin 50000) (j : Fin 128) : EReal :=
  Ideal.div (segRef MW mb rel src rid into h n j) (deg into n)

/-- The node update from an aggregate: `relu(h @ SW.T + sb + agg @ NW.T + nb)`, summed in that order. -/
def combine (agg : Fin 50000 → Fin 128 → EReal) (n : Fin 50000) (j : Fin 128) : EReal :=
  max ((((∑ k : Fin 128, h n k * SW j k) + sb j) + ∑ k : Fin 128, agg n k * NW j k) + nb j) 0

/-- The layer, per-edge form. -/
def nextRef : Fin 50000 → Fin 128 → EReal :=
  combine SW sb NW nb h (aggRef MW mb rel src rid into h)

/-- Every node's row through the first 128 message columns, bias added. -/
def hwb (n : Fin 50000) (j : Fin 128) : EReal :=
  (∑ k : Fin 128, h n k * MW j (lo k)) + mb j

/-- The projected rows of node `n`'s in-neighbours, summed (onto zeros). -/
def sum1 (n : Fin 50000) (j : Fin 128) : EReal :=
  0 + ∑ e ∈ into n, hwb MW mb h (src e) j

/-- How many in-edges of node `n` carry relation `r`, as a sum of zeros and ones (onto zero). -/
def cntRel (n : Fin 50000) (r : Fin 16) : EReal :=
  0 + ∑ e ∈ into n, (if rid e = r then (1 : EReal) else 0)

/-- Relation `r`'s embedding through the last 32 message columns. -/
def relTab (r : Fin 16) (j : Fin 128) : EReal :=
  ∑ k : Fin 32, rel r k * MW j (hi k)

/-- The relation part of the aggregate. -/
def term2 (n : Fin 50000) (j : Fin 128) : EReal :=
  ∑ r : Fin 16, cntRel rid into n r * relTab MW rel r j

/-- The reciprocal degree normaliser. -/
def dinv (n : Fin 50000) : EReal := Ideal.div 1 (max (cnt into n) 1)

/-- Mean aggregation, per-node form. -/
def aggKer (n : Fin 50000) (j : Fin 128) : EReal :=
  (sum1 MW mb src into h n j + term2 MW rel rid into n j) * dinv into n

/-- The layer, per-node form. -/
def nextKer : Fin 50000 → Fin 128 → EReal :=
  combine SW sb NW nb h (aggKer MW mb rel src rid into h)

/-- A sum of ones over a finite set is the set's size, a real number. -/
theorem sum_one_eq_card {ι : Type*} (S : Finset ι) :
    (∑ _e ∈ S, (1 : EReal)) = ((S.card : ℝ) : EReal) := by
  classical
  induction S using Finset.induction_on with
  | empty => simp
  | insert a s ha ih =>
    rw [Finset.sum_insert ha, ih, Finset.card_insert_of_notMem ha, Nat.cast_add, Nat.cast_one,
      EReal.coe_add, EReal.coe_one, add_comm]

/-- The inclusion of the reals commutes with `max` (it is monotone). -/
theorem coe_max_real (a b : ℝ) : ((max a b : ℝ) : EReal) = max (a : EReal) (b : EReal) :=
  Monotone.map_max (f := fun x : ℝ => (x : EReal)) (fun _ _ hxy => EReal.coe_le_coe_iff.2 hxy)

/-- The degree normaliser is a real number: the larger of the in-degree and one. -/
theorem deg_eq_coe (n : Fin 50000) :
    max (cnt into n) 1 = (((max ((into n).card : ℝ) 1 : ℝ)) : EReal) := by
  rw [cnt, zero_add, sum_one_eq_card, coe_max_real, EReal.coe_one]

/-- That real number is at least one, so it is not zero. -/
theorem deg_real_ne_zero (n : Fin 50000) : (max ((into n).card : ℝ) 1 : ℝ) ≠ 0 :=
  (lt_of_lt_of_le one_pos (le_max_right _ _)).ne'

/-- The 160-term message sum splits at column 128: the source row through the first 128 columns,
    the relation embedding through the last 32. -/
theorem msg_split (e : Fin 800000) (j : Fin 128) :
    (∑ k : Fin 160, msgIn rel src rid h e k * MW j k)
      = (∑ k : Fin 128, h (src e) k * MW j (lo k)) + ∑ k : Fin 32, rel (rid e) k * MW j (hi k) := by
  have key := Fin.sum_univ_add (a := 128) (b := 32)
    (fun k : Fin (128 + 32) => msgIn rel src rid h e k * MW j k)
  refine key.trans ?_
  refine congrArg₂ (· + ·) ?_ ?_
  · refine Finset.sum_congr rfl fun k _ => ?_
    have hk : (Fin.castAdd 32 k).val < 128 := k.isLt
    simp only [msgIn, dif_pos hk]
    rfl
  · refine Finset.sum_congr rfl fun k _ => ?_
    have hk : ¬ (Fin.natAdd 128 k).val < 128 := by simp
    simp only [msgIn, dif_neg hk]
    have h1 : (⟨(Fin.natAdd 128 k).val - 128, by simp⟩ : Fin 32) = k := by
      apply Fin.ext; simp
    rw [h1]
    rfl

/-- Regrouping a finite sum of `(A + B) + b` as the sum of `A + b` plus the sum of `B`:
    only commutativity and associativity of addition. -/
theorem sum_regroup {ι : Type*} (S : Finset ι) (A B : ι → EReal) (b : EReal) :
    ∑ e ∈ S, ((A e + B e) + b) = (∑ e ∈ S, (A e + b)) + ∑ e ∈ S, B e := by
  rw [← Finset.sum_add_distrib]
  refine Finset.sum_congr rfl fun e _ => ?_
  rw [add_right_comm]

/-- A product distributes over a finite sum of nonnegative extended reals. -/
theorem sum_mul_of_nonneg {ι : Type*} (S : Finset ι) (a : ι → EReal) (ha : ∀ e, 0 ≤ a e)
    (c : EReal) : (∑ e ∈ S, a e) * c = ∑ e ∈ S, a e * c := by
  classical
  induction S using Finset.induction_on with
  | empty => simp
  | insert x s hx ih =>
    rw [Finset.sum_insert hx, Finset.sum_insert hx,
      EReal.right_distrib_of_nonneg (ha x) (Finset.sum_nonneg fun e _ => ha e), ih]

/-- The relation part, edge by edge: counting the in-edges of each relation and weighting the
    relation's row by the count is the sum over the in-edges of their relations' rows. -/
theorem term2_eq (n : Fin 50000) (j : Fin 128) :
    term2 MW rel rid into n j = ∑ e ∈ into n, relTab MW rel (rid e) j := by
  unfold term2 cntRel
  have hd : ∀ r : Fin 16,
      (0 + ∑ e ∈ into n, (if rid e = r then (1 : EReal) else 0)) * relTab MW rel r j
        = ∑ e ∈ into n, (if rid e = r then (1 : EReal) else 0) * relTab MW rel r j := by
    intro r
    rw [zero_add]
    refine sum_mul_of_nonneg _ _ (fun e => ?_) _
    split_ifs
    · exact zero_le_one
    · exact le_rfl
  simp only [hd]
  rw [Finset.sum_comm]
  refine Finset.sum_congr rfl fun e _ => ?_
  simp only [ite_mul, one_mul, zero_mul, Finset.sum_ite_eq, Finset.mem_univ, if_true]

/-- The summed messages are the summed projected rows plus the relation part. -/
theorem segRef_eq (n : Fin 50000) (j : Fin 128) :
    segRef MW mb rel src rid into h n j
      = sum1 MW mb src into h n j + term2 MW rel rid into n j := by
  rw [term2_eq]
  unfold segRef sum1 msgRef hwb relTab
  simp only [msg_split]
  rw [sum_regroup, add_assoc]

/-- The two aggregates agree at every node and column. -/
theorem agg_eq (n : Fin 50000) (j : Fin 128) :
    aggRef MW mb rel src rid into h n j = aggKer MW mb rel src rid into h n j := by
  unfold aggRef aggKer dinv deg
  rw [deg_eq_coe, Ideal.div_coe (deg_real_ne_zero into n), Ideal.div_coe (deg_real_ne_zero into n),
    one_mul, segRef_eq]

/-- So do the two forms of the layer. -/
theorem next_eq : nextRef MW mb SW sb NW nb rel src rid into h = nextKer MW mb SW sb NW nb rel src rid into h := by
  unfold nextRef nextKer
  congr 1
  funext n j
  exact agg_eq MW mb rel src rid into h n j

end Cert.GnnSpec

end
-- ==== Proof.Region0.lean ====
/-
  The first kernel region read as whole arrays. Each grid point handles 2000 consecutive node rows; over the 25 points the
  two outputs are, row by row, `h = x @ W + b` (the weight arrives already transposed: `W[k, j]`) and `hwb = h @ Wh + mb`.

  In order: a block product and a spread bias read at an entry; the two stored blocks at an entry; the two outputs as
  whole-array functions of the entry arrays; each block a point reads or writes placed in its array; what a point writes
  back as its block of the whole-array function; every row written by the point `row / 2000`; the arrays entry by entry.
-/
import proofs.«412633_j14216341749899_2_alg».proof.Proof.Gen.KernelIdeal.Frame
import proofs.«412633_j14216341749899_2_alg».proof.Proof.GnnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block arithmetic at an index -/

/-- The product's left operand is read at the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the summation index's column; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the summation index's row … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block product onto zeros, entry `(p, q)`: `∑ k, a[p,k] · b[k,q]`. -/
theorem matmul_zero_apply {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- A one-row block spread over 2000 rows, entry `(p, q)`: the row's entry `q`. -/
theorem spread_row_apply {α : Type} (x : S1x128.Idx → α) (p : Fin 2000) (q : Fin 128) :
    broadcastTo S2000x128 x broadcasts_S1x128_S2000x128 (ix2 p q) = x (ix2 0 q) := by
  refine broadcastTo_apply x broadcasts_S1x128_S2000x128 (ix2 p q) (ix2 0 q) fun a => ?_
  match a with
  | ⟨0, _⟩ => rfl
  | ⟨1, _⟩ => rfl

/-- The first stored block, entry `(p, q)`: `∑ k, x[p,k] · w[k,q] + b[0,q]`. -/
theorem pay1_apply (x : Vec Ideal S2000x128 .f32) (w : Vec Ideal S128x128 .f32) (b : Vec Ideal S1x128 .f32) (p : Fin 2000) (q : Fin 128) :
    k0_pay1 x w b (ix2 p q) = (∑ k : Fin 128, x (ix2 p k) * w (ix2 k q)) + b (ix2 0 q) := by
  unfold k0_pay1
  rw [addf_apply, matmul_zero_apply, spread_row_apply, shapeCast_self, shapeCast_self]
  rfl

/-- The second stored block, entry `(p, q)`: the first block's row `p` through the second matrix, plus its bias. -/
theorem pay2_apply (x : Vec Ideal S2000x128 .f32) (w : Vec Ideal S128x128 .f32) (b : Vec Ideal S1x128 .f32)
    (w' : Vec Ideal S128x128 .f32) (b' : Vec Ideal S1x128 .f32) (p : Fin 2000) (q : Fin 128) :
    k0_pay2 x w b w' b' (ix2 p q) = (∑ k : Fin 128, k0_pay1 x w b (ix2 p k) * w' (ix2 k q)) + b' (ix2 0 q) := by
  unfold k0_pay2
  rw [addf_apply, matmul_zero_apply, spread_row_apply, shapeCast_self, shapeCast_self]
  rfl

/-! ## The two outputs as whole arrays -/

-- the TensorCore's buffer contents when the region is entered
variable (V : (c : Dev nD) → (b : Ref sig .tc) → Buf (Elt Ideal) ((c : Thread nD τ).loc b))

/-- Row `n`, column `j` of `x @ w + b`, over arrays read by coordinates. -/
def affine (x : S50000x128.Idx → EReal) (w : S128x128.Idx → EReal) (b : S1x128.Idx → EReal)
    (n : Fin 50000) (j : Fin 128) : EReal :=
  (∑ k : Fin 128, x (ix2 n k) * w (ix2 k j)) + b (ix2 0 j)

/-- The first output as one function of the entry arrays: the node features through the first matrix, plus its bias. -/
def first (c : Dev nD) : S50000x128.Idx → EReal := fun i =>
  affine (GnnSpec.rd S50000x128 (V c main_arg0)) (GnnSpec.rd S128x128 (V c main_v16)) (GnnSpec.rd S1x128 (V c main_v17)) (i 0) (i 1)

/-- The second output: the first through the second matrix, plus its bias. -/
def second (c : Dev nD) : S50000x128.Idx → EReal := fun i =>
  affine (first V c) (GnnSpec.rd S128x128 (V c main_v15)) (GnnSpec.rd S1x128 (V c main_v20)) (i 0) (i 1)

/-! ## The blocks a grid point reads and writes -/

theorem zero_offsets : (![0, 0] : Fin 2 → Nat) = fun _ => 0 := funext fun a => by fin_cases a <;> rfl

/-- The printed index maps over the grid: the row-blocked windows sit at block row `t`, the others at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature block at point `t`, entry `(p, k)`: the feature array at row `2000·t + p`. -/
theorem blk_x (c : Dev nD) (t : Fin cfg0.N) (p : Fin 2000) (k : Fin 128) (n : Fin 50000) (hn : n.val = 2000 * t.val + p.val) :
    (iblk0 V c 0 t : Vec Ideal S2000x128 .f32) (ix2 p k) = GnnSpec.rd S50000x128 (V c main_arg0) (ix2 n k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- The first matrix's block is the whole matrix. -/
theorem blk_w (c : Dev nD) (t : Fin cfg0.N) (k q : Fin 128) :
    (iblk0 V c 1 t : Vec Ideal S128x128 .f32) (ix2 k q) = GnnSpec.rd S128x128 (V c main_v16) (ix2 k q) := by
  obtain ⟨-, -, e0, e1, -⟩ := block_indices t
  unfold iblk0
  rw [View.read_apply]
  show V c main_v16 _ = V c main_v16 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The first bias's block is the whole row. -/
theorem blk_b (c : Dev nD) (t : Fin cfg0.N) (q : Fin 128) :
    (iblk0 V c 2 t : Vec Ideal S1x128 .f32) (ix2 0 q) = GnnSpec.rd S1x128 (V c main_v17) (ix2 0 q) := by
  obtain ⟨-, -, -, -, e0, e1, -⟩ := block_indices t
  unfold iblk0
  rw [View.read_apply]
  show V c main_v17 _ = V c main_v17 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- The second matrix's block is the whole matrix. -/
theorem blk_w' (c : Dev nD) (t : Fin cfg0.N) (k q : Fin 128) :
    (iblk0 V c 3 t : Vec Ideal S128x128 .f32) (ix2 k q) = GnnSpec.rd S128x128 (V c main_v15) (ix2 k q) := by
  obtain ⟨-, -, -, -, -, -, e0, e1, -⟩ := block_indices t
  unfold iblk0
  rw [View.read_apply]
  show V c main_v15 _ = V c main_v15 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second bias's block is the whole row. -/
theorem blk_b' (c : Dev nD) (t : Fin cfg0.N) (q : Fin 128) :
    (iblk0 V c 4 t : Vec Ideal S1x128 .f32) (ix2 0 q) = GnnSpec.rd S1x128 (V c main_v20) (ix2 0 q) := by
  obtain ⟨-, -, -, -, -, -, -, -, e0, e1, -⟩ := block_indices t
  unfold iblk0
  rw [View.read_apply]
  show V c main_v20 _ = V c main_v20 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- Where entry `(p, q)` of point `t`'s block of the first output lies in the array: row `2000·t + p`. -/
theorem emb_first (t : Fin cfg0.N) (p : Fin 2000) (q : Fin 128) (n : Fin 50000) (hn : n.val = 2000 * t.val + p.val) :
    ((cfg0.win 5).blk t).view.emb (ix2 p q) = (ix2 n q : S50000x128.Idx) := by
  obtain ⟨-, -, -, -, -, -, -, -, -, -, e0, e1, -⟩ := block_indices t
  funext a
  apply Fin.ext
  match a with
  | ⟨0, _⟩ => show win0_5.index t (0 : Fin 2) * 2000 + 1 * p.val = n.val; rw [e0, hn]; omega
  | ⟨1, _⟩ => show win0_5.index t (1 : Fin 2) * 128 + 1 * q.val = q.val; rw [e1]; omega

/-- The same for the second output. -/
theorem emb_second (t : Fin cfg0.N) (p : Fin 2000) (q : Fin 128) (n : Fin 50000) (hn : n.val = 2000 * t.val + p.val) :
    ((cfg0.win 6).blk t).view.emb (ix2 p q) = (ix2 n q : S50000x128.Idx) := by
  obtain ⟨-, -, -, -, -, -, -, -, -, -, -, -, e0, e1⟩ := block_indices t
  funext a
  apply Fin.ext
  match a with
  | ⟨0, _⟩ => show win0_6.index t (0 : Fin 2) * 2000 + 1 * p.val = n.val; rw [e0, hn]; omega
  | ⟨1, _⟩ => show win0_6.index t (1 : Fin 2) * 128 + 1 * q.val = q.val; rw [e1]; omega

/-- The row of the array that entry `p` of point `t`'s block is. -/
def rowOf (t : Fin cfg0.N) (p : Fin 2000) : Fin 50000 :=
  ⟨2000 * t.val + p.val, by have := t.isLt; have hN : cfg0.N = 25 := rfl; have := p.isLt; omega⟩

/-- What point `t` computes for the first output, entry `(p, q)`, is the whole-array function at row `2000·t + p`. -/
theorem first_at (c : Dev nD) (t : Fin cfg0.N) (p : Fin 2000) (q : Fin 128) :
    k0_pay1 (iblk0 V c 0 t) (iblk0 V c 1 t) (iblk0 V c 2 t) (ix2 p q) = first V c (ix2 (rowOf t p) q) := by
  refine (pay1_apply (iblk0 V c 0 t) (iblk0 V c 1 t) (iblk0 V c 2 t) p q).trans ?_
  show _ = affine _ _ _ (rowOf t p) q
  unfold affine
  refine congrArg₂ (· + ·) (Finset.sum_congr rfl fun k _ => congrArg₂ (· * ·) ?_ ?_) ?_
  · exact blk_x V c t p k (rowOf t p) rfl
  · exact blk_w V c t k q
  · exact blk_b V c t q

/-- The same for the second output. -/
theorem second_at (c : Dev nD) (t : Fin cfg0.N) (p : Fin 2000) (q : Fin 128) :
    k0_pay2 (iblk0 V c 0 t) (iblk0 V c 1 t) (iblk0 V c 2 t) (iblk0 V c 3 t) (iblk0 V c 4 t) (ix2 p q) = second V c (ix2 (rowOf t p) q) := by
  refine (pay2_apply (iblk0 V c 0 t) (iblk0 V c 1 t) (iblk0 V c 2 t) (iblk0 V c 3 t) (iblk0 V c 4 t) p q).trans ?_
  show _ = affine _ _ _ (rowOf t p) q
  unfold affine
  refine congrArg₂ (· + ·) (Finset.sum_congr rfl fun k _ => congrArg₂ (· * ·) ?_ ?_) ?_
  · exact first_at V c t p k
  · exact blk_w' V c t k q
  · exact blk_b' V c t q

/-! ## From the blocks to the arrays -/

/-- What point `t` writes back to the first output is block `t` of `first`. -/
theorem flushed_first (c : Dev nD) (t : Fin cfg0.N) :
    (dat0 (F := Ideal) V c).flushed 5 t = ((cfg0.win 5).blk t).view.read (Elt Ideal) (first V c) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  refine (first_at V c t p q).trans ?_
  show _ = first V c (((cfg0.win 5).blk t).view.emb (ix2 p q))
  rw [emb_first t p q (rowOf t p) rfl]

/-- What point `t` writes back to the second output is block `t` of `second`. -/
theorem flushed_second (c : Dev nD) (t : Fin cfg0.N) :
    (dat0 (F := Ideal) V c).flushed 6 t = ((cfg0.win 6).blk t).view.read (Elt Ideal) (second V c) := by
  show (cfg0.win 6).cut (grid0.coords t) ((dat0 (F := Ideal) V c).after 6 t) = _
  rw [after0_6]
  unfold out0_6
  rw [View.canon_unit_zero zero_offsets]
  simp only [View.ld_unit_zero (S := S2000x128) zero_offsets, View.ld_unit_zero (S := S128x128) zero_offsets,
    View.ld_unit_zero (S := S1x128) zero_offsets]
  funext j
  obtain ⟨p, q, rfl⟩ : ∃ (p : Fin 2000) (q : Fin 128), j = ix2 p q := ⟨j 0, j 1, eq_ix2 j⟩
  refine (second_at V c t p q).trans ?_
  show _ = second V c (((cfg0.win 6).blk t).view.emb (ix2 p q))
  rw [emb_second t p q (rowOf t p) rfl]

/-- An index of the first output array is in point `t`'s block iff each coordinate is in the block's range. -/
theorem mem_blk_first (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21_0).slice (win0_5.rect t)).set ↔ _
  rw [View.set_slice_whole, Rect.mem_set_unit]
  exact Iff.rfl

/-- The same for the second output array. -/
theorem mem_blk_second (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v21_1).slice (win0_6.rect t)).set ↔ _
  rw [View.set_slice_whole, Rect.mem_set_unit]
  exact Iff.rfl

/-- Row `r` of the first output is written by point `r / 2000`. -/
theorem covered_first (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < 25; omega⟩, rfl⟩
  obtain ⟨-, -, -, -, -, -, -, -, -, -, e0, e1, -⟩ := block_indices t
  refine ⟨t, flush0_5 t, ?_⟩
  rw [mem_blk_first]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- Row `r` of the second output is written by point `r / 2000`. -/
theorem covered_second (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show _ < 25; omega⟩, rfl⟩
  obtain ⟨-, -, -, -, -, -, -, -, -, -, -, -, e0, e1⟩ := block_indices t
  refine ⟨t, flush0_6 t, ?_⟩
  rw [mem_blk_second]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- After the 25 points the first output array is `first`. -/
theorem first_array (c : Dev nD) : (dat0 (F := Ideal) V c).arrAt 5 cfg0.N = first V c :=
  (dat0 (F := Ideal) V c).arrAt_eq_of_cover 5 (first V c) (fun t _ => flushed_first V c t) covered_first

/-- After the 25 points the second output array is `second`. -/
theorem second_array (c : Dev nD) : (dat0 (F := Ideal) V c).arrAt 6 cfg0.N = second V c :=
  (dat0 (F := Ideal) V c).arrAt_eq_of_cover 6 (second V c) (fun t _ => flushed_second V c t) covered_second

/-! ## The two arrays, entry by entry -/

/-- Row `n`, column `j` of the first output array: `∑ k, x[n,k] · W[k,j] + b[0,j]`. -/
theorem reg0_out5 (c : Dev nD) (n : Fin 50000) (j : Fin 128) :
    GnnSpec.rd S50000x128 ((dat0 (F := Ideal) V c).arrAt 5 cfg0.N) (ix2 n j)
      = (∑ k : Fin 128, GnnSpec.rd S50000x128 (V c main_arg0) (ix2 n k) * GnnSpec.rd S128x128 (V c main_v16) (ix2 k j))
        + GnnSpec.rd S1x128 (V c main_v17) (ix2 0 j) :=
  congrFun (first_array V c) (ix2 n j)

/-- Row `n`, column `j` of the second output array: the first output's row through `Wh`, plus `mb`. -/
theorem reg0_out6 (c : Dev nD) (n : Fin 50000) (j : Fin 128) :
    GnnSpec.rd S50000x128 ((dat0 (F := Ideal) V c).arrAt 6 cfg0.N) (ix2 n j)
      = (∑ k : Fin 128, GnnSpec.rd S50000x128 ((dat0 (F := Ideal) V c).arrAt 5 cfg0.N) (ix2 n k)
            * GnnSpec.rd S128x128 (V c main_v15) (ix2 k j))
        + GnnSpec.rd S1x128 (V c main_v20) (ix2 0 j) := by
  rw [first_array V c]
  exact congrFun (second_array V c) (ix2 n j)

end Cert.KernelIdeal.RegVal

end
-- ==== Proof.Region1.lean ====
/-
  The second kernel region read as whole arrays. Each grid point handles 2000 consecutive node rows; over the 25 points
  the first output is the node update `relu(h @ Ws + bs + agg @ Wn + bn)` with `agg = (sum1 + C @ relt) · dinv` row by row
  (the weights arrive already transposed), and the second is that update's rows through the next layer's `Wh`, plus `mb`.

  In order: the two contractions read at an index; the body's two values read at an index; each window's block as
  entries of its array; the node update of a block whose rows are rows of whole arrays; the two outputs as whole arrays
  (what each point writes back, the cover by rows, the arrays after the last point); the two stated equations.
-/
import proofs.«412633_j14216341749899_2_alg».proof.Proof.Gen.KernelIdeal.Frame
import proofs.«412633_j14216341749899_2_alg».proof.Proof.GnnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegVal.Update1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two contractions read at an index -/

section Contractions

/-- The 128-wide contraction: the left operand keeps the output's row. -/
theorem lhs_wide_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the summation index. -/
theorem lhs_wide_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the summation index. -/
theorem rhs_wide_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column is the output's column. -/
theorem rhs_wide_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times a square matrix, accumulated onto zeros, at row `p` and column `q`: the row's inner product
    with the matrix's column. -/
theorem rows_mul_wide (a : FVec Ideal S2000x128 .bf16) (b : FVec Ideal S128x128 .bf16) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_wide_0 _ _).trans hk
    | ⟨1, _⟩ => exact rhs_wide_1 _ _)
  rw [el, er]

/-- The 16-wide contraction: the left operand keeps the output's row. -/
theorem lhs_narrow_0 (i : S2000x128.Idx) (q : dot_S2000x16_S16x128_S2000x128_1_0_0_1_n_n.contr.Idx) :
    (dot_S2000x16_S16x128_S2000x128_1_0_0_1_n_n.lhsIdx i q 0).val = (i 0).val := by
  unfold DotDims.lhsIdx
  rw [dif_neg (show ¬(0 : Fin S2000x16.rank) ∈ dot_S2000x16_S16x128_S2000x128_1_0_0_1_n_n.lhsBatch by decide), dif_pos (show (0 : Fin S2000x16.rank) ∈ dot_S2000x16_S16x128_S2000x128_1_0_0_1_n_n.lhsNonContracting by decide)]
  rfl
/-- Its column is the summation index. -/
theorem lhs_narrow_1 (i : S2000x128.Idx) (q : dot_S2000x16_S16x128_S2000x128_1_0_0_1_n_n.contr.Idx) :
    (dot_S2000x16_S16x128_S2000x128_1_0_0_1_n_n.lhsIdx i q 1).val = (q ⟨0, by decide⟩).val :=
  dot_S2000x16_S16x128_S2000x128_1_0_0_1_n_n.lhsIdx_val_of_single rfl i q
/-- The right operand's row is the summation index. -/
theorem rhs_narrow_0 (i : S2000x128.Idx) (q : dot_S2000x16_S16x128_S2000x128_1_0_0_1_n_n.contr.Idx) :
    (dot_S2000x16_S16x128_S2000x128_1_0_0_1_n_n.rhsIdx i q 0).val = (q ⟨0, by decide⟩).val :=
  dot_S2000x16_S16x128_S2000x128_1_0_0_1_n_n.rhsIdx_val_of_single rfl i q
/-- Its column is the output's column. -/
theorem rhs_narrow_1 (i : S2000x128.Idx) (q : dot_S2000x16_S16x128_S2000x128_1_0_0_1_n_n.contr.Idx) :
    (dot_S2000x16_S16x128_S2000x128_1_0_0_1_n_n.rhsIdx i q 1).val = (i 1).val := by
  unfold DotDims.rhsIdx
  rw [dif_neg (show ¬(1 : Fin S16x128.rank) ∈ dot_S2000x16_S16x128_S2000x128_1_0_0_1_n_n.rhsBatch by decide), dif_pos (show (1 : Fin S16x128.rank) ∈ dot_S2000x16_S16x128_S2000x128_1_0_0_1_n_n.rhsNonContracting by decide)]
  rfl

/-- A block of 16-wide rows times a 16-row matrix, accumulated onto zeros, at row `p` and column `q`. -/
theorem rows_mul_narrow (a : FVec Ideal S2000x16 .bf16) (b : FVec Ideal S16x128 .bf16) (p : Fin 2000) (q : Fin 128) :
    matmul (F := Ideal) dot_S2000x16_S16x128_S2000x128_1_0_0_1_n_n none a b (constant (F := Ideal) S2000x128 .f32 0x00000000#32) (ix2 p q)
      = ∑ r : Fin 16, a (ix2 p r) * b (ix2 r q) := by
  simp only [matmul]
  rw [Ideal.matmul_constant_zero_apply, ← Equiv.sum_comp (ValueIdx.contrEquiv1 dot_S2000x16_S16x128_S2000x128_1_0_0_1_n_n 16 rfl rfl).symm]
  refine Finset.sum_congr rfl fun k _ => ?_
  have hk := ValueIdx.contrEquiv1_symm_val dot_S2000x16_S16x128_S2000x128_1_0_0_1_n_n 16 rfl rfl k
  have el : dot_S2000x16_S16x128_S2000x128_1_0_0_1_n_n.lhsIdx (ix2 p q) ((ValueIdx.contrEquiv1 dot_S2000x16_S16x128_S2000x128_1_0_0_1_n_n 16 rfl rfl).symm k) = ix2 p k := funext fun a => Fin.ext (by
    match a with
    | ⟨0, _⟩ => exact lhs_narrow_0 _ _
    | ⟨1, _⟩ => exact (lhs_narrow_1 _ _).trans hk)
  have er : dot_S2000x16_S16x128_S2000x128_1_0_0_1_n_n.rhsIdx (ix2 p q) ((ValueIdx.contrEquiv1 dot_S2000x16_S16x128_S2000x128_1_0_0_1_n_n 16 rfl rfl).symm k) = ix2 k q := funext fun a => Fin.ext (by
    match a with
    | ⟨0, _⟩ => exact (rhs_narrow_0 _ _).trans hk
    | ⟨1, _⟩ => exact rhs_narrow_1 _ _)
  rw [el, er]

end Contractions

/-! ## The body's two values read at an index -/

section Payloads

/-- A column broadcast along the rows reads, at `(p, c)`, the operand's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The node update of a block of rows, at row `p` and column `q`: the rectified sum of the row through the first
    matrix, its bias, the row's aggregate (the neighbour sum plus the relation counts through their table, times the
    reciprocal degree) through the second matrix, and its bias. -/
theorem node_update_apply (v0 : Vec Ideal S2000x128 .f32) (v3 : Vec Ideal S128x128 .f32) (v7 : Vec Ideal S1x128 .f32)
    (v11 : Vec Ideal S2000x16 .f32) (v14 : Vec Ideal S16x128 .f32) (v18 : Vec Ideal S2000x128 .f32) (v21 : Vec Ideal S2000x1 .f32)
    (v26 : Vec Ideal S128x128 .f32) (v31 : Vec Ideal S1x128 .f32) (p : Fin 2000) (q : Fin 128) :
    k1_pay2 (F := Ideal) v0 v3 v7 v11 v14 v18 v21 v26 v31 (ix2 p q)
      = max ((((∑ k : Fin 128, v0 (ix2 p k) * v3 (ix2 k q)) + v7 (ix2 (0 : Fin 1) q))
          + ∑ k : Fin 128, ((v18 (ix2 p k) + ∑ r : Fin 16, v11 (ix2 p r) * v14 (ix2 r k)) * v21 (ix2 p (0 : Fin 1))) * v26 (ix2 k q))
          + v31 (ix2 (0 : Fin 1) q)) 0 := by
  unfold k1_pay2
  simp only [shapeCast_self]
  rw [maximumf_apply, addf_apply, addf_apply, addf_apply, rows_mul_wide, rows_mul_wide, broadcastTo_1b_ab_apply,
    broadcastTo_1b_ab_apply, broadcast_apply]
  show max _ (Ideal.ofBits .f32 0x00000000#32) = _
  rw [Ideal.ofBits_zero_f32]
  refine congrArg (fun x => max x 0) (congrArg₂ (· + ·) (congrArg₂ (· + ·) rfl ?_) rfl)
  refine Finset.sum_congr rfl fun k _ => ?_
  rw [truncf_apply, truncf_apply, mulf_apply, addf_apply, rows_mul_narrow, broadcastTo_a1_ab_apply]
  rfl

/-- The next projection of a block of rows, at row `p` and column `q`: the row through the matrix, plus the bias. -/
theorem next_proj_apply (v36 : FVec Ideal S2000x128 .f32) (v39 : Vec Ideal S128x128 .f32) (v43 : Vec Ideal S1x128 .f32)
    (p : Fin 2000) (q : Fin 128) :
    k1_pay1 (F := Ideal) v36 v39 v43 (ix2 p q) = (∑ k : Fin 128, v36 (ix2 p k) * v39 (ix2 k q)) + v43 (ix2 (0 : Fin 1) q) := by
  unfold k1_pay1
  simp only [shapeCast_self]
  rw [addf_apply, rows_mul_wide, broadcastTo_1b_ab_apply]
  rfl

end Payloads

/-! ## Each window's block as entries of its array -/

section Blocks

-- the TensorCore's buffer contents when the region is entered
variable (V : (c : Dev nD) → (b : Ref sig .tc) → Buf (Elt Ideal) ((c : Thread nD τ).loc b))

/-- The printed index maps over the 25 points: every row window sits at block `(t, 0)`, every weight at block `(0, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- Window 0's block at point `t` is rows `2000 t …` of the node features. -/
theorem blk_feat (c : Dev nD) (t : Fin cfg1.N) (p : Fin 2000) (q : Fin 128) (n : Fin 50000) (hn : n.val = 2000 * t.val + p.val) :
    (iblk1 (F := Ideal) V c 0 t : Vec Ideal S2000x128 .f32) (ix2 p q) = GnnSpec.rd S50000x128 (V c main_v21_0) (ix2 n q) := by
  have e := block_index t
  unfold iblk1
  rw [View.read_apply]
  show V c main_v21_0 _ = V c main_v21_0 _
  congr 1
  funext a
  apply Fin.ext
  match a with
  | ⟨0, _⟩ => show win1_0.index t (0 : Fin 2) * 2000 + 1 * p.val = n.val; rw [hn]; omega
  | ⟨1, _⟩ => show win1_0.index t (1 : Fin 2) * 128 + 1 * q.val = q.val; omega

/-- Window 1's block at point `t` is rows `2000 t …` of the neighbour sums. -/
theorem blk_nbr (c : Dev nD) (t : Fin cfg1.N) (p : Fin 2000) (q : Fin 128) (n : Fin 50000) (hn : n.val = 2000 * t.val + p.val) :
    (iblk1 (F := Ideal) V c 1 t : Vec Ideal S2000x128 .f32) (ix2 p q) = GnnSpec.rd S50000x128 (V c main_v25) (ix2 n q) := by
  have e := block_index t
  unfold iblk1
  rw [View.read_apply]
  show V c main_v25 _ = V c main_v25 _
  congr 1
  funext a
  apply Fin.ext
  match a with
  | ⟨0, _⟩ => show win1_1.index t (0 : Fin 2) * 2000 + 1 * p.val = n.val; rw [hn]; omega
  | ⟨1, _⟩ => show win1_1.index t (1 : Fin 2) * 128 + 1 * q.val = q.val; omega

/-- Window 2's block at point `t` is rows `2000 t …` of the relation counts. -/
theorem blk_cnt (c : Dev nD) (t : Fin cfg1.N) (p : Fin 2000) (q : Fin 16) (n : Fin 50000) (hn : n.val = 2000 * t.val + p.val) :
    (iblk1 (F := Ideal) V c 2 t : Vec Ideal S2000x16 .f32) (ix2 p q) = GnnSpec.rd S50000x16 (V c main_v11) (ix2 n q) := by
  have e := block_index t
  unfold iblk1
  rw [View.read_apply]
  show V c main_v11 _ = V c main_v11 _
  congr 1
  funext a
  apply Fin.ext
  match a with
  | ⟨0, _⟩ => show win1_2.index t (0 : Fin 2) * 2000 + 1 * p.val = n.val; rw [hn]; omega
  | ⟨1, _⟩ => show win1_2.index t (1 : Fin 2) * 16 + 1 * q.val = q.val; omega

/-- Window 3's block at point `t` is rows `2000 t …` of the reciprocal degrees. -/
theorem blk_dinv (c : Dev nD) (t : Fin cfg1.N) (p : Fin 2000) (q : Fin 1) (n : Fin 50000) (hn : n.val = 2000 * t.val + p.val) :
    (iblk1 (F := Ideal) V c 3 t : Vec Ideal S2000x1 .f32) (ix2 p q) = GnnSpec.rd S50000x1 (V c main_v7) (ix2 n q) := by
  have e := block_index t
  unfold iblk1
  rw [View.read_apply]
  show V c main_v7 _ = V c main_v7 _
  congr 1
  funext a
  apply Fin.ext
  match a with
  | ⟨0, _⟩ => show win1_3.index t (0 : Fin 2) * 2000 + 1 * p.val = n.val; rw [hn]; omega
  | ⟨1, _⟩ => show win1_3.index t (1 : Fin 2) * 1 + 1 * q.val = q.val; omega

/-- Window 4's block is the whole first matrix. -/
theorem blk_selfW (c : Dev nD) (t : Fin cfg1.N) (p : Fin 128) (q : Fin 128) :
    (iblk1 (F := Ideal) V c 4 t : Vec Ideal S128x128 .f32) (ix2 p q) = GnnSpec.rd S128x128 (V c main_v35) (ix2 p q) := by
  have e := block_index t
  unfold iblk1
  rw [View.read_apply]
  show V c main_v35 _ = V c main_v35 _
  congr 1
  funext a
  apply Fin.ext
  match a with
  | ⟨0, _⟩ => show win1_4.index t (0 : Fin 2) * 128 + 1 * p.val = p.val; omega
  | ⟨1, _⟩ => show win1_4.index t (1 : Fin 2) * 128 + 1 * q.val = q.val; omega

/-- Window 5's block is the whole first bias. -/
theorem blk_selfB (c : Dev nD) (t : Fin cfg1.N) (p : Fin 1) (q : Fin 128) :
    (iblk1 (F := Ideal) V c 5 t : Vec Ideal S1x128 .f32) (ix2 p q) = GnnSpec.rd S1x128 (V c main_v45) (ix2 p q) := by
  have e := block_index t
  unfold iblk1
  rw [View.read_apply]
  show V c main_v45 _ = V c main_v45 _
  congr 1
  funext a
  apply Fin.ext
  match a with
  | ⟨0, _⟩ => show win1_5.index t (0 : Fin 2) * 1 + 1 * p.val = p.val; omega
  | ⟨1, _⟩ => show win1_5.index t (1 : Fin 2) * 128 + 1 * q.val = q.val; omega

/-- Window 6's block is the whole second matrix. -/
theorem blk_nbrW (c : Dev nD) (t : Fin cfg1.N) (p : Fin 128) (q : Fin 128) :
    (iblk1 (F := Ideal) V c 6 t : Vec Ideal S128x128 .f32) (ix2 p q) = GnnSpec.rd S128x128 (V c main_v38) (ix2 p q) := by
  have e := block_index t
  unfold iblk1
  rw [View.read_apply]
  show V c main_v38 _ = V c main_v38 _
  congr 1
  funext a
  apply Fin.ext
  match a with
  | ⟨0, _⟩ => show win1_6.index t (0 : Fin 2) * 128 + 1 * p.val = p.val; omega
  | ⟨1, _⟩ => show win1_6.index t (1 : Fin 2) * 128 + 1 * q.val = q.val; omega

/-- Window 7's block is the whole second bias. -/
theorem blk_nbrB (c : Dev nD) (t : Fin cfg1.N) (p : Fin 1) (q : Fin 128) :
    (iblk1 (F := Ideal) V c 7 t : Vec Ideal S1x128 .f32) (ix2 p q) = GnnSpec.rd S1x128 (V c main_v48) (ix2 p q) := by
  have e := block_index t
  unfold iblk1
  rw [View.read_apply]
  show V c main_v48 _ = V c main_v48 _
  congr 1
  funext a
  apply Fin.ext
  match a with
  | ⟨0, _⟩ => show win1_7.index t (0 : Fin 2) * 1 + 1 * p.val = p.val; omega
  | ⟨1, _⟩ => show win1_7.index t (1 : Fin 2) * 128 + 1 * q.val = q.val; omega

/-- Window 8's block is the whole relation table. -/
theorem blk_relT (c : Dev nD) (t : Fin cfg1.N) (p : Fin 16) (q : Fin 128) :
    (iblk1 (F := Ideal) V c 8 t : Vec Ideal S16x128 .f32) (ix2 p q) = GnnSpec.rd S16x128 (V c main_v32) (ix2 p q) := by
  have e := block_index t
  unfold iblk1
  rw [View.read_apply]
  show V c main_v32 _ = V c main_v32 _
  congr 1
  funext a
  apply Fin.ext
  match a with
  | ⟨0, _⟩ => show win1_8.index t (0 : Fin 2) * 16 + 1 * p.val = p.val; omega
  | ⟨1, _⟩ => show win1_8.index t (1 : Fin 2) * 128 + 1 * q.val = q.val; omega

/-- Window 9's block is the whole next matrix. -/
theorem blk_nextW (c : Dev nD) (t : Fin cfg1.N) (p : Fin 128) (q : Fin 128) :
    (iblk1 (F := Ideal) V c 9 t : Vec Ideal S128x128 .f32) (ix2 p q) = GnnSpec.rd S128x128 (V c main_v42) (ix2 p q) := by
  have e := block_index t
  unfold iblk1
  rw [View.read_apply]
  show V c main_v42 _ = V c main_v42 _
  congr 1
  funext a
  apply Fin.ext
  match a with
  | ⟨0, _⟩ => show win1_9.index t (0 : Fin 2) * 128 + 1 * p.val = p.val; omega
  | ⟨1, _⟩ => show win1_9.index t (1 : Fin 2) * 128 + 1 * q.val = q.val; omega

/-- Window 10's block is the whole next bias. -/
theorem blk_nextB (c : Dev nD) (t : Fin cfg1.N) (p : Fin 1) (q : Fin 128) :
    (iblk1 (F := Ideal) V c 10 t : Vec Ideal S1x128 .f32) (ix2 p q) = GnnSpec.rd S1x128 (V c main_v51) (ix2 p q) := by
  have e := block_index t
  unfold iblk1
  rw [View.read_apply]
  show V c main_v51 _ = V c main_v51 _
  congr 1
  funext a
  apply Fin.ext
  match a with
  | ⟨0, _⟩ => show win1_10.index t (0 : Fin 2) * 1 + 1 * p.val = p.val; omega
  | ⟨1, _⟩ => show win1_10.index t (1 : Fin 2) * 128 + 1 * q.val = q.val; omega

end Blocks

/-! ## The node update of a block whose rows are rows of whole arrays -/

section Rows

/-- If row `p` of each row block is row `n` of an array, and each weight block is its array, the block's node update at
    row `p` is the node update of row `n` of the arrays. -/
theorem update_of_rows (x0 x1 : Vec Ideal S2000x128 .f32) (x2 : Vec Ideal S2000x16 .f32) (x3 : Vec Ideal S2000x1 .f32)
    (x4 : Vec Ideal S128x128 .f32) (x5 : Vec Ideal S1x128 .f32) (x6 : Vec Ideal S128x128 .f32) (x7 : Vec Ideal S1x128 .f32)
    (x8 : Vec Ideal S16x128 .f32)
    (A0 A1 : S50000x128.Idx → EReal) (A2 : S50000x16.Idx → EReal) (A3 : S50000x1.Idx → EReal)
    (A4 : S128x128.Idx → EReal) (A5 : S1x128.Idx → EReal) (A6 : S128x128.Idx → EReal) (A7 : S1x128.Idx → EReal)
    (A8 : S16x128.Idx → EReal) (n : Fin 50000) (p : Fin 2000)
    (h0 : ∀ k : Fin 128, x0 (ix2 p k) = A0 (ix2 n k)) (h1 : ∀ k : Fin 128, x1 (ix2 p k) = A1 (ix2 n k))
    (h2 : ∀ r : Fin 16, x2 (ix2 p r) = A2 (ix2 n r)) (h3 : ∀ u : Fin 1, x3 (ix2 p u) = A3 (ix2 n u))
    (h4 : ∀ (k j : Fin 128), x4 (ix2 k j) = A4 (ix2 k j)) (h5 : ∀ (u : Fin 1) (j : Fin 128), x5 (ix2 u j) = A5 (ix2 u j))
    (h6 : ∀ (k j : Fin 128), x6 (ix2 k j) = A6 (ix2 k j)) (h7 : ∀ (u : Fin 1) (j : Fin 128), x7 (ix2 u j) = A7 (ix2 u j))
    (h8 : ∀ (r : Fin 16) (k : Fin 128), x8 (ix2 r k) = A8 (ix2 r k)) (q : Fin 128) :
    k1_pay2 (F := Ideal) x0 x4 x5 x2 x8 x1 x3 x6 x7 (ix2 p q)
      = GnnSpec.combine (fun j k => A4 (ix2 k j)) (fun j => A5 (ix2 0 j)) (fun j k => A6 (ix2 k j)) (fun j => A7 (ix2 0 j))
          (fun n k => A0 (ix2 n k))
          (fun n k => (A1 (ix2 n k) + ∑ r : Fin 16, A2 (ix2 n r) * A8 (ix2 r k)) * A3 (ix2 n 0)) n q := by
  rw [node_update_apply]
  unfold GnnSpec.combine
  simp only [h0, h1, h2, h3, h4, h5, h6, h7, h8]

end Rows

/-! ## The two outputs as whole arrays -/

section Arrays

-- the TensorCore's buffer contents when the region is entered
variable (V : (c : Dev nD) → (b : Ref sig .tc) → Buf (Elt Ideal) ((c : Thread nD τ).loc b))

theorem origin_eq : (![0, 0] : Fin 2 → Nat) = fun _ => 0 := funext fun a => by fin_cases a <;> rfl

/-- Row `n`, column `j` of the node update, from the arrays the region finds. -/
def updRow (c : Dev nD) (n : Fin 50000) (j : Fin 128) : EReal :=
  GnnSpec.combine
    (fun j k => GnnSpec.rd S128x128 (V c main_v35) (ix2 k j)) (fun j => GnnSpec.rd S1x128 (V c main_v45) (ix2 0 j))
    (fun j k => GnnSpec.rd S128x128 (V c main_v38) (ix2 k j)) (fun j => GnnSpec.rd S1x128 (V c main_v48) (ix2 0 j))
    (fun n k => GnnSpec.rd S50000x128 (V c main_v21_0) (ix2 n k))
    (fun n k => (GnnSpec.rd S50000x128 (V c main_v25) (ix2 n k)
        + ∑ r : Fin 16, GnnSpec.rd S50000x16 (V c main_v11) (ix2 n r) * GnnSpec.rd S16x128 (V c main_v32) (ix2 r k))
      * GnnSpec.rd S50000x1 (V c main_v7) (ix2 n 0)) n j

/-- The first output as one function of those arrays, index by index. -/
def updArr (c : Dev nD) : S50000x128.Idx → EReal := fun i => updRow V c ⟨(i 0).val, idx2_lt0 i⟩ ⟨(i 1).val, idx2_lt1 i⟩

/-- Row `n`, column `j` of the next projection: the updated row through the next matrix, plus its bias. -/
def nextRow (c : Dev nD) (n : Fin 50000) (j : Fin 128) : EReal :=
  (∑ k : Fin 128, updRow V c n k * GnnSpec.rd S128x128 (V c main_v42) (ix2 k j)) + GnnSpec.rd S1x128 (V c main_v51) (ix2 0 j)

/-- The second output as one function of those arrays, index by index. -/
def nextArr (c : Dev nD) : S50000x128.Idx → EReal := fun i => nextRow V c ⟨(i 0).val, idx2_lt0 i⟩ ⟨(i 1).val, idx2_lt1 i⟩

/-- At point `t` the body's first value at local row `p` is the node update of row `2000 t + p`. -/
theorem update_block (c : Dev nD) (t : Fin cfg1.N) (p : Fin 2000) (q : Fin 128) (n : Fin 50000) (hn : n.val = 2000 * t.val + p.val) :
    k1_pay2 (F := Ideal) (iblk1 V c 0 t) (iblk1 V c 4 t) (iblk1 V c 5 t) (iblk1 V c 2 t) (iblk1 V c 8 t) (iblk1 V c 1 t) (iblk1 V c 3 t) (iblk1 V c 6 t) (iblk1 V c 7 t) (ix2 p q) = updRow V c n q :=
  update_of_rows (iblk1 V c 0 t) (iblk1 V c 1 t) (iblk1 V c 2 t) (iblk1 V c 3 t) (iblk1 V c 4 t) (iblk1 V c 5 t) (iblk1 V c 6 t)
    (iblk1 V c 7 t) (iblk1 V c 8 t)
    (GnnSpec.rd S50000x128 (V c main_v21_0)) (GnnSpec.rd S50000x128 (V c main_v25)) (GnnSpec.rd S50000x16 (V c main_v11))
    (GnnSpec.rd S50000x1 (V c main_v7)) (GnnSpec.rd S128x128 (V c main_v35)) (GnnSpec.rd S1x128 (V c main_v45))
    (GnnSpec.rd S128x128 (V c main_v38)) (GnnSpec.rd S1x128 (V c main_v48)) (GnnSpec.rd S16x128 (V c main_v32)) n p
    (fun k => blk_feat V c t p k n hn) (fun k => blk_nbr V c t p k n hn) (fun r => blk_cnt V c t p r n hn)
    (fun u => blk_dinv V c t p u n hn) (fun k j => blk_selfW V c t k j) (fun u j => blk_selfB V c t u j)
    (fun k j => blk_nbrW V c t k j) (fun u j => blk_nbrB V c t u j) (fun r k => blk_relT V c t r k) q

/-- And its second value there is the next projection of that row. -/
theorem next_block (c : Dev nD) (t : Fin cfg1.N) (p : Fin 2000) (q : Fin 128) (n : Fin 50000) (hn : n.val = 2000 * t.val + p.val) :
    k1_pay1 (F := Ideal) (k1_pay2 (F := Ideal) (iblk1 V c 0 t) (iblk1 V c 4 t) (iblk1 V c 5 t) (iblk1 V c 2 t) (iblk1 V c 8 t) (iblk1 V c 1 t) (iblk1 V c 3 t) (iblk1 V c 6 t) (iblk1 V c 7 t)) (iblk1 V c 9 t) (iblk1 V c 10 t) (ix2 p q) = nextRow V c n q := by
  refine (next_proj_apply (k1_pay2 (F := Ideal) (iblk1 V c 0 t) (iblk1 V c 4 t) (iblk1 V c 5 t) (iblk1 V c 2 t) (iblk1 V c 8 t) (iblk1 V c 1 t) (iblk1 V c 3 t) (iblk1 V c 6 t) (iblk1 V c 7 t)) (iblk1 V c 9 t) (iblk1 V c 10 t) p q).trans ?_
  unfold nextRow
  exact congrArg₂ (· + ·) (Finset.sum_congr rfl fun k _ => congrArg₂ (· * ·) (update_block V c t p k n hn) (blk_nextW V c t k q))
    (blk_nextB V c t 0 q)

/-- A block-local index of an output window, by its coordinates. -/
theorem local_index (t : Fin cfg1.N) (j : (win1_11.xblock (grid1.coords t)).Idx) :
    ∃ (p : Fin 2000) (q : Fin 128), p.val = (j 0).val ∧ q.val = (j 1).val ∧ win1_11.xinj (grid1.coords t) j = ix2 p q :=
  ⟨⟨(j 0).val, (j 0).isLt⟩, ⟨(j 1).val, (j 1).isLt⟩, rfl, rfl, funext fun a => match a with | ⟨0, _⟩ => rfl | ⟨1, _⟩ => rfl⟩

/-- The same for the second output window. -/
theorem local_index12 (t : Fin cfg1.N) (j : (win1_12.xblock (grid1.coords t)).Idx) :
    ∃ (p : Fin 2000) (q : Fin 128), p.val = (j 0).val ∧ q.val = (j 1).val ∧ win1_12.xinj (grid1.coords t) j = ix2 p q :=
  ⟨⟨(j 0).val, (j 0).isLt⟩, ⟨(j 1).val, (j 1).isLt⟩, rfl, rfl, funext fun a => match a with | ⟨0, _⟩ => rfl | ⟨1, _⟩ => rfl⟩

/-- WHAT POINT `t` WRITES BACK to the first output is block `t` of `updArr`. -/
theorem flushed_update (c : Dev nD) (t : Fin cfg1.N) :
    (dat1 (F := Ideal) V c).flushed 11 t = ((cfg1.win 11).blk t).view.read (Elt Ideal) (updArr V c) := by
  show (cfg1.win 11).cut (grid1.coords t) ((dat1 (F := Ideal) V c).after 11 t) = _
  rw [after1_11]
  unfold out1_11
  rw [View.canon_unit_zero origin_eq]
  simp only [View.ld_unit_zero (S := S2000x128) origin_eq, View.ld_unit_zero (S := S128x128) origin_eq,
    View.ld_unit_zero (S := S1x128) origin_eq, View.ld_unit_zero (S := S2000x16) origin_eq,
    View.ld_unit_zero (S := S16x128) origin_eq, View.ld_unit_zero (S := S2000x1) origin_eq]
  have e := block_index t
  funext j
  rw [View.read_apply]
  obtain ⟨p, q, hp, hq, hj⟩ := local_index t j
  show k1_pay2 (F := Ideal) (iblk1 V c 0 t) (iblk1 V c 4 t) (iblk1 V c 5 t) (iblk1 V c 2 t) (iblk1 V c 8 t) (iblk1 V c 1 t) (iblk1 V c 3 t) (iblk1 V c 6 t) (iblk1 V c 7 t) (win1_11.xinj (grid1.coords t) j) = updArr V c (((cfg1.win 11).blk t).view.emb j)
  rw [hj]
  have hi0 : ((((cfg1.win 11).blk t).view.emb j : S50000x128.Idx) 0).val = 2000 * t.val + p.val := by
    show win1_11.index t (0 : Fin 2) * 2000 + 1 * (j 0).val = _; omega
  have hi1 : ((((cfg1.win 11).blk t).view.emb j : S50000x128.Idx) 1).val = q.val := by
    show win1_11.index t (1 : Fin 2) * 128 + 1 * (j 1).val = _; omega
  refine (update_block V c t p q ⟨_, idx2_lt0 (((cfg1.win 11).blk t).view.emb j : S50000x128.Idx)⟩ hi0).trans ?_
  exact congrArg (updRow V c _) (Fin.ext hi1.symm)

/-- WHAT POINT `t` WRITES BACK to the second output is block `t` of `nextArr`. -/
theorem flushed_next (c : Dev nD) (t : Fin cfg1.N) :
    (dat1 (F := Ideal) V c).flushed 12 t = ((cfg1.win 12).blk t).view.read (Elt Ideal) (nextArr V c) := by
  show (cfg1.win 12).cut (grid1.coords t) ((dat1 (F := Ideal) V c).after 12 t) = _
  rw [after1_12]
  unfold out1_12
  rw [View.canon_unit_zero origin_eq]
  simp only [View.ld_unit_zero (S := S2000x128) origin_eq, View.ld_unit_zero (S := S128x128) origin_eq,
    View.ld_unit_zero (S := S1x128) origin_eq, View.ld_unit_zero (S := S2000x16) origin_eq,
    View.ld_unit_zero (S := S16x128) origin_eq, View.ld_unit_zero (S := S2000x1) origin_eq]
  have e := block_index t
  funext j
  rw [View.read_apply]
  obtain ⟨p, q, hp, hq, hj⟩ := local_index12 t j
  show k1_pay1 (F := Ideal) (k1_pay2 (F := Ideal) (iblk1 V c 0 t) (iblk1 V c 4 t) (iblk1 V c 5 t) (iblk1 V c 2 t) (iblk1 V c 8 t) (iblk1 V c 1 t) (iblk1 V c 3 t) (iblk1 V c 6 t) (iblk1 V c 7 t)) (iblk1 V c 9 t) (iblk1 V c 10 t) (win1_12.xinj (grid1.coords t) j)
    = nextArr V c (((cfg1.win 12).blk t).view.emb j)
  rw [hj]
  have hi0 : ((((cfg1.win 12).blk t).view.emb j : S50000x128.Idx) 0).val = 2000 * t.val + p.val := by
    show win1_12.index t (0 : Fin 2) * 2000 + 1 * (j 0).val = _; omega
  have hi1 : ((((cfg1.win 12).blk t).view.emb j : S50000x128.Idx) 1).val = q.val := by
    show win1_12.index t (1 : Fin 2) * 128 + 1 * (j 1).val = _; omega
  refine (next_block V c t p q ⟨_, idx2_lt0 (((cfg1.win 12).blk t).view.emb j : S50000x128.Idx)⟩ hi0).trans ?_
  exact congrArg (nextRow V c _) (Fin.ext hi1.symm)

/-- An index of the first output is in point `t`'s block iff each coordinate is in the block's range on its axis. -/
theorem mem_rows11 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v52_0).slice (win1_11.rect t)).set ↔ _
  rw [View.set_slice_whole, Rect.mem_set_unit]
  exact Iff.rfl

/-- The same for the second output. -/
theorem mem_rows12 (t : Fin cfg1.N) (i : S50000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v52_1).slice (win1_12.rect t)).set ↔ _
  rw [View.set_slice_whole, Rect.mem_set_unit]
  exact Iff.rfl

/-- Row `r` of the first output is covered by point `r / 2000`. -/
theorem covered11 (i : S50000x128.Idx) :
    ∃ t : Fin cfg1.N, (cfg1.win 11).flush t = true ∧ i ∈ ((cfg1.win 11).blk t).view.set := by
  have hi0 : (i 0).val < 50000 := idx2_lt0 i
  have hi1 : (i 1).val < 128 := idx2_lt1 i
  obtain ⟨t, ht⟩ : ∃ t : Fin cfg1.N, t.val = (i 0).val / 2000 := ⟨⟨(i 0).val / 2000, by show _ < 25; omega⟩, rfl⟩
  have e := block_index t
  refine ⟨t, flush1_11 t, ?_⟩
  rw [mem_rows11]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- Row `r` of the second output is covered by point `r / 2000`. -/
theorem covered12 (i : S50000x128.Idx) :
    ∃ t : Fin cfg1.N, (cfg1.win 12).flush t = true ∧ i ∈ ((cfg1.win 12).blk t).view.set := by
  have hi0 : (i 0).val < 50000 := idx2_lt0 i
  have hi1 : (i 1).val < 128 := idx2_lt1 i
  obtain ⟨t, ht⟩ : ∃ t : Fin cfg1.N, t.val = (i 0).val / 2000 := ⟨⟨(i 0).val / 2000, by show _ < 25; omega⟩, rfl⟩
  have e := block_index t
  refine ⟨t, flush1_12 t, ?_⟩
  rw [mem_rows12]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 128 ≤ (i 1).val ∧ (i 1).val < win1_12.index t (1 : Fin 2) * 128 + 128; omega

/-- THE FIRST OUTPUT after the 25 points is `updArr`. -/
theorem update_final (c : Dev nD) : (dat1 (F := Ideal) V c).arrAt 11 cfg1.N = updArr V c :=
  (dat1 (F := Ideal) V c).arrAt_eq_of_cover 11 (updArr V c) (fun t _ => flushed_update V c t) covered11

/-- THE SECOND OUTPUT after the 25 points is `nextArr`. -/
theorem next_final (c : Dev nD) : (dat1 (F := Ideal) V c).arrAt 12 cfg1.N = nextArr V c :=
  (dat1 (F := Ideal) V c).arrAt_eq_of_cover 12 (nextArr V c) (fun t _ => flushed_next V c t) covered12

end Arrays

end Cert.KernelIdeal.RegVal.Update1

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)
open Update1

-- the TensorCore's buffer contents when the region is entered
variable (V : (c : Dev nD) → (b : Ref sig .tc) → Buf (Elt Ideal) ((c : Thread nD τ).loc b))

/-- Row `n`, column `j` of the first output array: the node update. -/
theorem reg1_out11 (c : Dev nD) (n : Fin 50000) (j : Fin 128) :
    GnnSpec.rd S50000x128 ((dat1 (F := Ideal) V c).arrAt 11 cfg1.N) (ix2 n j)
      = GnnSpec.combine
        (fun j k => GnnSpec.rd S128x128 (V c main_v35) (ix2 k j)) (fun j => GnnSpec.rd S1x128 (V c main_v45) (ix2 0 j))
        (fun j k => GnnSpec.rd S128x128 (V c main_v38) (ix2 k j)) (fun j => GnnSpec.rd S1x128 (V c main_v48) (ix2 0 j))
        (fun n k => GnnSpec.rd S50000x128 (V c main_v21_0) (ix2 n k))
        (fun n k => (GnnSpec.rd S50000x128 (V c main_v25) (ix2 n k)
            + ∑ r : Fin 16, GnnSpec.rd S50000x16 (V c main_v11) (ix2 n r) * GnnSpec.rd S16x128 (V c main_v32) (ix2 r k))
          * GnnSpec.rd S50000x1 (V c main_v7) (ix2 n 0)) n j := by
  rw [update_final V c]
  rfl

/-- Row `n`, column `j` of the second output array: the first output's row through the next `Wh`, plus `mb`. -/
theorem reg1_out12 (c : Dev nD) (n : Fin 50000) (j : Fin 128) :
    GnnSpec.rd S50000x128 ((dat1 (F := Ideal) V c).arrAt 12 cfg1.N) (ix2 n j)
      = (∑ k : Fin 128, GnnSpec.rd S50000x128 ((dat1 (F := Ideal) V c).arrAt 11 cfg1.N) (ix2 n k)
            * GnnSpec.rd S128x128 (V c main_v42) (ix2 k j))
        + GnnSpec.rd S1x128 (V c main_v51) (ix2 0 j) := by
  rw [next_final V c, update_final V c]
  rfl

end Cert.KernelIdeal.RegVal

end
-- ==== Proof.Region2.lean ====
/-
  The third kernel region read as a whole array. Each grid point handles 2000 consecutive node rows; over the 25 points
  the output is the node update `relu(h @ Ws + bs + agg @ Wn + bn)` with `agg = (sum1 + C @ relt) · dinv` row by row (the
  weights arrive already transposed).
-/
import proofs.«412633_j14216341749899_2_alg».proof.Proof.Gen.KernelIdeal.Frame
import proofs.«412633_j14216341749899_2_alg».proof.Proof.GnnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

namespace NodeUpdate

/-! ## The two contractions' operand indices -/

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] product into zeros, read at row p, column q. -/
theorem matmul128_apply (a : FVec Ideal S2000x128 .bf16) (b : FVec Ideal S128x128 .bf16) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs16_0 (i : S2000x128.Idx) (q : dot_S2000x16_S16x128_S2000x128_1_0_0_1_n_n.contr.Idx) :
    (dot_S2000x16_S16x128_S2000x128_1_0_0_1_n_n.lhsIdx i q 0).val = (i 0).val := by
  unfold DotDims.lhsIdx
  rw [dif_neg (show ¬(0 : Fin S2000x16.rank) ∈ dot_S2000x16_S16x128_S2000x128_1_0_0_1_n_n.lhsBatch by decide), dif_pos (show (0 : Fin S2000x16.rank) ∈ dot_S2000x16_S16x128_S2000x128_1_0_0_1_n_n.lhsNonContracting by decide)]
  rfl
theorem lhs16_1 (i : S2000x128.Idx) (q : dot_S2000x16_S16x128_S2000x128_1_0_0_1_n_n.contr.Idx) :
    (dot_S2000x16_S16x128_S2000x128_1_0_0_1_n_n.lhsIdx i q 1).val = (q ⟨0, by decide⟩).val :=
  dot_S2000x16_S16x128_S2000x128_1_0_0_1_n_n.lhsIdx_val_of_single rfl i q
theorem rhs16_0 (i : S2000x128.Idx) (q : dot_S2000x16_S16x128_S2000x128_1_0_0_1_n_n.contr.Idx) :
    (dot_S2000x16_S16x128_S2000x128_1_0_0_1_n_n.rhsIdx i q 0).val = (q ⟨0, by decide⟩).val :=
  dot_S2000x16_S16x128_S2000x128_1_0_0_1_n_n.rhsIdx_val_of_single rfl i q
theorem rhs16_1 (i : S2000x128.Idx) (q : dot_S2000x16_S16x128_S2000x128_1_0_0_1_n_n.contr.Idx) :
    (dot_S2000x16_S16x128_S2000x128_1_0_0_1_n_n.rhsIdx i q 1).val = (i 1).val := by
  unfold DotDims.rhsIdx
  rw [dif_neg (show ¬(1 : Fin S16x128.rank) ∈ dot_S2000x16_S16x128_S2000x128_1_0_0_1_n_n.rhsBatch by decide), dif_pos (show (1 : Fin S16x128.rank) ∈ dot_S2000x16_S16x128_S2000x128_1_0_0_1_n_n.rhsNonContracting by decide)]
  rfl

/-- A [2000,16] × [16,128] product into zeros, read at row p, column q. -/
theorem matmul16_apply (a : FVec Ideal S2000x16 .bf16) (b : FVec Ideal S16x128 .bf16) (p : Fin 2000) (q : Fin 128) :
    matmul (F := Ideal) dot_S2000x16_S16x128_S2000x128_1_0_0_1_n_n none a b (constant (F := Ideal) S2000x128 .f32 0x00000000#32) (ix2 p q)
      = ∑ r : Fin 16, a (ix2 p r) * b (ix2 r q) := by
  simp only [matmul]
  rw [Ideal.matmul_constant_zero_apply, ← Equiv.sum_comp (ValueIdx.contrEquiv1 dot_S2000x16_S16x128_S2000x128_1_0_0_1_n_n 16 rfl rfl).symm]
  refine Finset.sum_congr rfl fun k _ => ?_
  have hk := ValueIdx.contrEquiv1_symm_val dot_S2000x16_S16x128_S2000x128_1_0_0_1_n_n 16 rfl rfl k
  have el : dot_S2000x16_S16x128_S2000x128_1_0_0_1_n_n.lhsIdx (ix2 p q) ((ValueIdx.contrEquiv1 dot_S2000x16_S16x128_S2000x128_1_0_0_1_n_n 16 rfl rfl).symm k) = ix2 p k := funext fun a => Fin.ext (by
    match a with
    | ⟨0, _⟩ => exact lhs16_0 _ _
    | ⟨1, _⟩ => exact (lhs16_1 _ _).trans hk)
  have er : dot_S2000x16_S16x128_S2000x128_1_0_0_1_n_n.rhsIdx (ix2 p q) ((ValueIdx.contrEquiv1 dot_S2000x16_S16x128_S2000x128_1_0_0_1_n_n 16 rfl rfl).symm k) = ix2 k q := funext fun a => Fin.ext (by
    match a with
    | ⟨0, _⟩ => exact (rhs16_0 _ _).trans hk
    | ⟨1, _⟩ => exact rhs16_1 _ _)
  rw [el, er]

/-! ## The two broadcasts -/

/-- A [1,128] row spread over 2000 rows reads the row's column. -/
theorem rowBroadcast_apply (x : FVec Ideal S1x128 .f32) (p : Fin 2000) (q : Fin 128) :
    broadcastTo S2000x128 x broadcasts_S1x128_S2000x128 (ix2 p q) = x (ix2 0 q) :=
  broadcastTo_apply x broadcasts_S1x128_S2000x128 (ix2 p q) (ix2 0 q) fun a => by
    match a with
    | ⟨0, _⟩ => rfl
    | ⟨1, _⟩ => rfl

/-- A [2000,1] column spread over 128 columns reads the column's row. -/
theorem colBroadcast_apply (x : FVec Ideal S2000x1 .f32) (p : Fin 2000) (q : Fin 128) :
    broadcastTo S2000x128 x broadcasts_S2000x1_S2000x128 (ix2 p q) = x (ix2 p 0) :=
  broadcastTo_apply x broadcasts_S2000x1_S2000x128 (ix2 p q) (ix2 p 0) fun a => by
    match a with
    | ⟨0, _⟩ => rfl
    | ⟨1, _⟩ => rfl

/-! ## The payload at an index -/

theorem pay_apply (v0 : Vec Ideal S2000x128 .f32) (v3 : Vec Ideal S128x128 .f32) (v7 : Vec Ideal S1x128 .f32)
    (v11 : Vec Ideal S2000x16 .f32) (v14 : Vec Ideal S16x128 .f32) (v18 : Vec Ideal S2000x128 .f32)
    (v21 : Vec Ideal S2000x1 .f32) (v26 : Vec Ideal S128x128 .f32) (v31 : Vec Ideal S1x128 .f32)
    (p : Fin 2000) (q : Fin 128) :
    k2_pay1 (F := Ideal) v0 v3 v7 v11 v14 v18 v21 v26 v31 (ix2 p q)
      = max ((((∑ k : Fin 128, v0 (ix2 p k) * v3 (ix2 k q)) + v7 (ix2 0 q))
          + ∑ k : Fin 128, ((v18 (ix2 p k) + ∑ r : Fin 16, v11 (ix2 p r) * v14 (ix2 r k)) * v21 (ix2 p 0)) * v26 (ix2 k q))
          + v31 (ix2 0 q)) 0 := by
  unfold k2_pay1
  simp only [shapeCast_self]
  simp only [maximumf_apply, addf_apply, matmul128_apply, matmul16_apply, rowBroadcast_apply, colBroadcast_apply,
    truncf_apply, mulf_apply, broadcast_apply]
  exact congrArg _ Ideal.ofBits_zero_f32

/-! ## From blocks to the array -/

theorem hz : (![0, 0] : Fin 2 → Nat) = fun _ => 0 := funext fun a => by fin_cases a <;> rfl

/-- The printed index maps, decided over the grid: the row-blocked windows sit at block row t, column block 0;
    the whole windows at block (0, 0). -/
theorem idx_facts : ∀ t : Fin cfg2.N,
    (win2_9.index t (0 : Fin 2) = t.val ∧ win2_9.index t (1 : Fin 2) = 0)
    ∧ (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

theorem t_lt (t : Fin cfg2.N) : t.val < 25 := t.isLt

/-- Row p of block t is row 2000 t + p of the array. -/
def rowOf (t : Fin cfg2.N) (p : Fin 2000) : Fin 50000 := ⟨2000 * t.val + p.val, by have := t_lt t; have := p.isLt; omega⟩

/-! ### Each window's block read off its array -/

theorem blkH_apply (c : Dev nD) (t : Fin cfg2.N) (p : Fin 2000) (k : Fin 128) :
    (iblk2 V c 0 t : Vec Ideal S2000x128 .f32) (ix2 p k) = GnnSpec.rd S50000x128 (V c main_v52_0) (ix2 (rowOf t p) k) := by
  obtain ⟨-, ⟨e0, e1⟩, -⟩ := idx_facts t
  unfold iblk2
  rw [View.read_apply]
  show V c main_v52_0 _ = V c main_v52_0 _
  congr 1
  funext a
  apply Fin.ext
  match a with
  | ⟨0, _⟩ => show win2_0.index t 0 * 2000 + 1 * p.val = 2000 * t.val + p.val; rw [e0]; omega
  | ⟨1, _⟩ => show win2_0.index t 1 * 128 + 1 * k.val = k.val; rw [e1]; omega

theorem blkSum_apply (c : Dev nD) (t : Fin cfg2.N) (p : Fin 2000) (k : Fin 128) :
    (iblk2 V c 1 t : Vec Ideal S2000x128 .f32) (ix2 p k) = GnnSpec.rd S50000x128 (V c main_v56) (ix2 (rowOf t p) k) := by
  obtain ⟨-, -, ⟨e0, e1⟩, -⟩ := idx_facts t
  unfold iblk2
  rw [View.read_apply]
  show V c main_v56 _ = V c main_v56 _
  congr 1
  funext a
  apply Fin.ext
  match a with
  | ⟨0, _⟩ => show win2_1.index t 0 * 2000 + 1 * p.val = 2000 * t.val + p.val; rw [e0]; omega
  | ⟨1, _⟩ => show win2_1.index t 1 * 128 + 1 * k.val = k.val; rw [e1]; omega

theorem blkCnt_apply (c : Dev nD) (t : Fin cfg2.N) (p : Fin 2000) (k : Fin 16) :
    (iblk2 V c 2 t : Vec Ideal S2000x16 .f32) (ix2 p k) = GnnSpec.rd S50000x16 (V c main_v11) (ix2 (rowOf t p) k) := by
  obtain ⟨-, -, -, ⟨e0, e1⟩, -⟩ := idx_facts t
  unfold iblk2
  rw [View.read_apply]
  show V c main_v11 _ = V c main_v11 _
  congr 1
  funext a
  apply Fin.ext
  match a with
  | ⟨0, _⟩ => show win2_2.index t 0 * 2000 + 1 * p.val = 2000 * t.val + p.val; rw [e0]; omega
  | ⟨1, _⟩ => show win2_2.index t 1 * 16 + 1 * k.val = k.val; rw [e1]; omega

theorem blkInv_apply (c : Dev nD) (t : Fin cfg2.N) (p : Fin 2000) (k : Fin 1) :
    (iblk2 V c 3 t : Vec Ideal S2000x1 .f32) (ix2 p k) = GnnSpec.rd S50000x1 (V c main_v7) (ix2 (rowOf t p) k) := by
  obtain ⟨-, -, -, -, ⟨e0, e1⟩, -⟩ := idx_facts t
  unfold iblk2
  rw [View.read_apply]
  show V c main_v7 _ = V c main_v7 _
  congr 1
  funext a
  apply Fin.ext
  match a with
  | ⟨0, _⟩ => show win2_3.index t 0 * 2000 + 1 * p.val = 2000 * t.val + p.val; rw [e0]; omega
  | ⟨1, _⟩ => show win2_3.index t 1 * 1 + 1 * k.val = k.val; rw [e1]; omega

theorem blkSW_apply (c : Dev nD) (t : Fin cfg2.N) (a : Fin 128) (b : Fin 128) :
    (iblk2 V c 4 t : Vec Ideal S128x128 .f32) (ix2 a b) = GnnSpec.rd S128x128 (V c main_v66) (ix2 a b) := by
  obtain ⟨-, -, -, -, -, ⟨e0, e1⟩, -⟩ := idx_facts t
  unfold iblk2
  rw [View.read_apply]
  show V c main_v66 _ = V c main_v66 _
  congr 1
  funext d
  apply Fin.ext
  match d with
  | ⟨0, _⟩ => show win2_4.index t 0 * 128 + 1 * a.val = a.val; rw [e0]; omega
  | ⟨1, _⟩ => show win2_4.index t 1 * 128 + 1 * b.val = b.val; rw [e1]; omega

theorem blkSb_apply (c : Dev nD) (t : Fin cfg2.N) (a : Fin 1) (b : Fin 128) :
    (iblk2 V c 5 t : Vec Ideal S1x128 .f32) (ix2 a b) = GnnSpec.rd S1x128 (V c main_v72) (ix2 a b) := by
  obtain ⟨-, -, -, -, -, -, ⟨e0, e1⟩, -⟩ := idx_facts t
  unfold iblk2
  rw [View.read_apply]
  show V c main_v72 _ = V c main_v72 _
  congr 1
  funext d
  apply Fin.ext
  match d with
  | ⟨0, _⟩ => show win2_5.index t 0 * 1 + 1 * a.val = a.val; rw [e0]; omega
  | ⟨1, _⟩ => show win2_5.index t 1 * 128 + 1 * b.val = b.val; rw [e1]; omega

theorem blkNW_apply (c : Dev nD) (t : Fin cfg2.N) (a : Fin 128) (b : Fin 128) :
    (iblk2 V c 6 t : Vec Ideal S128x128 .f32) (ix2 a b) = GnnSpec.rd S128x128 (V c main_v69) (ix2 a b) := by
  obtain ⟨-, -, -, -, -, -, -, ⟨e0, e1⟩, -⟩ := idx_facts t
  unfold iblk2
  rw [View.read_apply]
  show V c main_v69 _ = V c main_v69 _
  congr 1
  funext d
  apply Fin.ext
  match d with
  | ⟨0, _⟩ => show win2_6.index t 0 * 128 + 1 * a.val = a.val; rw [e0]; omega
  | ⟨1, _⟩ => show win2_6.index t 1 * 128 + 1 * b.val = b.val; rw [e1]; omega

theorem blkNb_apply (c : Dev nD) (t : Fin cfg2.N) (a : Fin 1) (b : Fin 128) :
    (iblk2 V c 7 t : Vec Ideal S1x128 .f32) (ix2 a b) = GnnSpec.rd S1x128 (V c main_v75) (ix2 a b) := by
  obtain ⟨-, -, -, -, -, -, -, -, ⟨e0, e1⟩, -⟩ := idx_facts t
  unfold iblk2
  rw [View.read_apply]
  show V c main_v75 _ = V c main_v75 _
  congr 1
  funext d
  apply Fin.ext
  match d with
  | ⟨0, _⟩ => show win2_7.index t 0 * 1 + 1 * a.val = a.val; rw [e0]; omega
  | ⟨1, _⟩ => show win2_7.index t 1 * 128 + 1 * b.val = b.val; rw [e1]; omega

theorem blkRel_apply (c : Dev nD) (t : Fin cfg2.N) (a : Fin 16) (b : Fin 128) :
    (iblk2 V c 8 t : Vec Ideal S16x128 .f32) (ix2 a b) = GnnSpec.rd S16x128 (V c main_v63) (ix2 a b) := by
  obtain ⟨-, -, -, -, -, -, -, -, -, ⟨e0, e1⟩⟩ := idx_facts t
  unfold iblk2
  rw [View.read_apply]
  show V c main_v63 _ = V c main_v63 _
  congr 1
  funext d
  apply Fin.ext
  match d with
  | ⟨0, _⟩ => show win2_8.index t 0 * 16 + 1 * a.val = a.val; rw [e0]; omega
  | ⟨1, _⟩ => show win2_8.index t 1 * 128 + 1 * b.val = b.val; rw [e1]; omega

/-- The node update over the whole arrays, by coordinates. -/
def nodeUpdate (c : Dev nD) : S50000x128.Idx → EReal := fun i =>
  GnnSpec.combine
    (fun j k => GnnSpec.rd S128x128 (V c main_v66) (ix2 k j)) (fun j => GnnSpec.rd S1x128 (V c main_v72) (ix2 0 j))
    (fun j k => GnnSpec.rd S128x128 (V c main_v69) (ix2 k j)) (fun j => GnnSpec.rd S1x128 (V c main_v75) (ix2 0 j))
    (fun n k => GnnSpec.rd S50000x128 (V c main_v52_0) (ix2 n k))
    (fun n k => (GnnSpec.rd S50000x128 (V c main_v56) (ix2 n k)
        + ∑ r : Fin 16, GnnSpec.rd S50000x16 (V c main_v11) (ix2 n r) * GnnSpec.rd S16x128 (V c main_v63) (ix2 r k))
      * GnnSpec.rd S50000x1 (V c main_v7) (ix2 n 0)) (i 0) (i 1)

/-- Read at row n, column j. -/
theorem nodeUpdate_ix2 (c : Dev nD) (n : Fin 50000) (j : Fin 128) :
    nodeUpdate V c (ix2 n j) = GnnSpec.combine
      (fun j k => GnnSpec.rd S128x128 (V c main_v66) (ix2 k j)) (fun j => GnnSpec.rd S1x128 (V c main_v72) (ix2 0 j))
      (fun j k => GnnSpec.rd S128x128 (V c main_v69) (ix2 k j)) (fun j => GnnSpec.rd S1x128 (V c main_v75) (ix2 0 j))
      (fun n k => GnnSpec.rd S50000x128 (V c main_v52_0) (ix2 n k))
      (fun n k => (GnnSpec.rd S50000x128 (V c main_v56) (ix2 n k)
          + ∑ r : Fin 16, GnnSpec.rd S50000x16 (V c main_v11) (ix2 n r) * GnnSpec.rd S16x128 (V c main_v63) (ix2 r k))
        * GnnSpec.rd S50000x1 (V c main_v7) (ix2 n 0)) n j := rfl

/-- WHAT POINT t WRITES BACK is block t of the node update. -/
theorem flushed_eq (c : Dev nD) (t : Fin cfg2.N) :
    (dat2 (F := Ideal) V c).flushed 9 t = ((cfg2.win 9).blk t).view.read (Elt Ideal) (nodeUpdate V c) := by
  show (cfg2.win 9).cut (grid2.coords t) ((dat2 V c).after 9 t) = _
  rw [after2_9]
  unfold out2_9
  rw [View.canon_unit_zero hz]
  simp only [View.ld_unit_zero (S := S2000x128) hz, View.ld_unit_zero (S := S128x128) hz, View.ld_unit_zero (S := S1x128) hz,
    View.ld_unit_zero (S := S2000x16) hz, View.ld_unit_zero (S := S16x128) hz, View.ld_unit_zero (S := S2000x1) hz]
  refine funext fun (j : S2000x128.Idx) => ?_
  obtain ⟨p, q, rfl⟩ : ∃ (p : Fin 2000) (q : Fin 128), j = ix2 p q := ⟨j 0, j 1, eq_ix2 j⟩
  show k2_pay1 (F := Ideal) (iblk2 V c 0 t) (iblk2 V c 4 t) (iblk2 V c 5 t) (iblk2 V c 2 t) (iblk2 V c 8 t) (iblk2 V c 1 t)
        (iblk2 V c 3 t) (iblk2 V c 6 t) (iblk2 V c 7 t) (ix2 p q)
      = nodeUpdate V c (((cfg2.win 9).blk t).view.emb (ix2 p q))
  refine (pay_apply (iblk2 V c 0 t) (iblk2 V c 4 t) (iblk2 V c 5 t) (iblk2 V c 2 t) (iblk2 V c 8 t) (iblk2 V c 1 t)
        (iblk2 V c 3 t) (iblk2 V c 6 t) (iblk2 V c 7 t) p q).trans ?_
  have hr : ((cfg2.win 9).blk t).view.emb (ix2 p q) = ix2 (rowOf t p) q := by
    obtain ⟨⟨e0, e1⟩, -⟩ := idx_facts t
    funext a
    apply Fin.ext
    match a with
    | ⟨0, _⟩ => show win2_9.index t 0 * 2000 + 1 * p.val = 2000 * t.val + p.val; rw [e0]; omega
    | ⟨1, _⟩ => show win2_9.index t 1 * 128 + 1 * q.val = q.val; rw [e1]; omega
  rw [hr, nodeUpdate_ix2]
  unfold GnnSpec.combine
  simp only [blkH_apply, blkSum_apply, blkCnt_apply, blkInv_apply, blkSW_apply, blkSb_apply, blkNW_apply, blkNb_apply, blkRel_apply]

/-- An index of the array is in point t's block iff each coordinate is in the block's range on its axis. -/
theorem mem_blk (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v76).slice (win2_9.rect t)).set ↔ _
  rw [View.set_slice_whole, Rect.mem_set_unit]
  exact Iff.rfl

/-- Row r of the array lies in the block of point r / 2000, which is written back. -/
theorem covered (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < 25; omega⟩, rfl⟩
  obtain ⟨⟨e0, e1⟩, -⟩ := idx_facts t
  refine ⟨t, flush2_9 t, ?_⟩
  rw [mem_blk]
  intro a
  match a with
  | ⟨0, _⟩ => show win2_9.index t 0 * 2000 ≤ (i 0).val ∧ (i 0).val < win2_9.index t 0 * 2000 + 2000; rw [e0, ht]; omega
  | ⟨1, _⟩ => show win2_9.index t 1 * 128 ≤ (i 1).val ∧ (i 1).val < win2_9.index t 1 * 128 + 128; rw [e1]; omega

/-- THE ARRAY after the 25 points is the node update. -/
theorem arrAt_eq (c : Dev nD) : (dat2 (F := Ideal) V c).arrAt 9 cfg2.N = nodeUpdate V c :=
  (dat2 V c).arrAt_eq_of_cover 9 (nodeUpdate V c) (fun t _ => flushed_eq V c t) covered

end NodeUpdate

/-- Row `n`, column `j` of the output array: the node update. -/
theorem reg2_out9 (c : Dev nD) (n : Fin 50000) (j : Fin 128) :
    GnnSpec.rd S50000x128 ((dat2 (F := Ideal) V c).arrAt 9 cfg2.N) (ix2 n j)
      = GnnSpec.combine
        (fun j k => GnnSpec.rd S128x128 (V c main_v66) (ix2 k j)) (fun j => GnnSpec.rd S1x128 (V c main_v72) (ix2 0 j))
        (fun j k => GnnSpec.rd S128x128 (V c main_v69) (ix2 k j)) (fun j => GnnSpec.rd S1x128 (V c main_v75) (ix2 0 j))
        (fun n k => GnnSpec.rd S50000x128 (V c main_v52_0) (ix2 n k))
        (fun n k => (GnnSpec.rd S50000x128 (V c main_v56) (ix2 n k)
            + ∑ r : Fin 16, GnnSpec.rd S50000x16 (V c main_v11) (ix2 n r) * GnnSpec.rd S16x128 (V c main_v63) (ix2 r k))
          * GnnSpec.rd S50000x1 (V c main_v7) (ix2 n 0)) n j := by
  rw [NodeUpdate.arrAt_eq]
  exact NodeUpdate.nodeUpdate_ix2 V c n j

end Cert.KernelIdeal.RegVal

end
-- ==== Proof.GnnInputs.lean ====
/-
  The network's inputs as plain functions, and the two-layer network written over them in both forms.

  The thirteen argument arrays are read by coordinates: node features `x[n, k]`, the input projection `inW[j, k]`, `inb[j]`,
  and per layer `l` the relation embeddings `rel[l, r, k]`, the message matrix `MW[l, j, k]` (160 columns) and bias, the
  self and neighbour matrices and biases. Edge `e` reads the node its source word names (read signed, clamped into the
  node range), carries the relation its relation word names (clamped likewise), and lands on node `n` exactly when its
  destination word, read signed, is `n`. `InRange` says the source and relation words are in range, so the clamps do nothing.
-/
import proofs.«412633_j14216341749899_2_alg».proof.Proof.GnnSpec
import Idealize.ShloMosaic.Lib.ValueIdx

noncomputable section

open scoped BigOperators

namespace Cert.GnnIn

open Idealize.ShloMosaic Idealize.ShloMosaic.ValueIdx

variable (x0 : (⟨2, ![50000, 128]⟩ : Shape).Idx → EReal) (x1 : (⟨2, ![128, 128]⟩ : Shape).Idx → EReal)
  (x2 : (⟨1, ![128]⟩ : Shape).Idx → EReal) (x3 : (⟨3, ![2, 16, 32]⟩ : Shape).Idx → EReal)
  (x4 : (⟨3, ![2, 128, 160]⟩ : Shape).Idx → EReal) (x5 : (⟨2, ![2, 128]⟩ : Shape).Idx → EReal)
  (x6 : (⟨3, ![2, 128, 128]⟩ : Shape).Idx → EReal) (x7 : (⟨2, ![2, 128]⟩ : Shape).Idx → EReal)
  (x8 : (⟨3, ![2, 128, 128]⟩ : Shape).Idx → EReal) (x9 : (⟨2, ![2, 128]⟩ : Shape).Idx → EReal)
  (x10 x11 x12 : (⟨1, ![800000]⟩ : Shape).Idx → BitVec 32)

/-- Node features by coordinates. -/
def xC : Fin 50000 → Fin 128 → EReal := fun n k => x0 (ix2 n k)
/-- The input projection's matrix, `inW[j, k]`. -/
def inW : Fin 128 → Fin 128 → EReal := fun j k => x1 (ix2 j k)
/-- The input projection's bias. -/
def inb : Fin 128 → EReal := fun j => x2 (ix1 j)
/-- Layer `l`'s relation embeddings. -/
def rel (l : Fin 2) : Fin 16 → Fin 32 → EReal := fun r k => x3 (ix3 l r k)
/-- Layer `l`'s message matrix, `MW[j, k]` with 160 columns. -/
def MW (l : Fin 2) : Fin 128 → Fin 160 → EReal := fun j k => x4 (ix3 l j k)
/-- Layer `l`'s message bias. -/
def mb (l : Fin 2) : Fin 128 → EReal := fun j => x5 (ix2 l j)
/-- Layer `l`'s self matrix. -/
def SW (l : Fin 2) : Fin 128 → Fin 128 → EReal := fun j k => x6 (ix3 l j k)
/-- Layer `l`'s self bias. -/
def sb (l : Fin 2) : Fin 128 → EReal := fun j => x7 (ix2 l j)
/-- Layer `l`'s neighbour matrix. -/
def NW (l : Fin 2) : Fin 128 → Fin 128 → EReal := fun j k => x8 (ix3 l j k)
/-- Layer `l`'s neighbour bias. -/
def nb (l : Fin 2) : Fin 128 → EReal := fun j => x9 (ix2 l j)
/-- The node edge `e` reads: its source word read signed, clamped into the node range. -/
def src (e : Fin 800000) : Fin 50000 := ⟨min (x10 (ix1 e)).toInt.toNat 49999, by omega⟩
/-- The relation edge `e` carries: its relation word read signed, clamped into the relation range. -/
def rid (e : Fin 800000) : Fin 16 := ⟨min (x12 (ix1 e)).toInt.toNat 15, by omega⟩
/-- The edges landing on node `n`: those whose destination word, read signed, is `n`. -/
def into (n : Fin 50000) : Finset (Fin 800000) :=
  Finset.univ.filter fun e : Fin 800000 => (x11 (ix1 e)).toInt = (n.val : ℤ)

/-- Source and relation words are in range. -/
def InRange : Prop :=
  (∀ e : Fin 800000, 0 ≤ (x10 (ix1 e)).toInt ∧ (x10 (ix1 e)).toInt < 50000)
    ∧ ∀ e : Fin 800000, 0 ≤ (x12 (ix1 e)).toInt ∧ (x12 (ix1 e)).toInt < 16

/-- The input projection `x @ inW.T + inb`. -/
def H0 : Fin 50000 → Fin 128 → EReal := GnnSpec.proj (xC x0) (inW x1) (inb x2)

/-- Layer `l`, per-edge form, applied to node rows `h`. -/
def layerRef (l : Fin 2) (h : Fin 50000 → Fin 128 → EReal) : Fin 50000 → Fin 128 → EReal :=
  GnnSpec.nextRef (MW x4 l) (mb x5 l) (SW x6 l) (sb x7 l) (NW x8 l) (nb x9 l) (rel x3 l) (src x10) (rid x12) (into x11) h

/-- Layer `l`, per-node form, applied to node rows `h`. -/
def layerKer (l : Fin 2) (h : Fin 50000 → Fin 128 → EReal) : Fin 50000 → Fin 128 → EReal :=
  GnnSpec.nextKer (MW x4 l) (mb x5 l) (SW x6 l) (sb x7 l) (NW x8 l) (nb x9 l) (rel x3 l) (src x10) (rid x12) (into x11) h

/-- Layer `l`'s projected rows `h @ MW[:, :128].T + mb` of node rows `h`. -/
def hwbOf (l : Fin 2) (h : Fin 50000 → Fin 128 → EReal) : Fin 50000 → Fin 128 → EReal :=
  GnnSpec.hwb (MW x4 l) (mb x5 l) h

/-- The network, per-edge form. -/
def outRef : Fin 50000 → Fin 128 → EReal :=
  layerRef x3 x4 x5 x6 x7 x8 x9 x10 x11 x12 1 (layerRef x3 x4 x5 x6 x7 x8 x9 x10 x11 x12 0 (H0 x0 x1 x2))

/-- The network, per-node form. -/
def outKer : Fin 50000 → Fin 128 → EReal :=
  layerKer x3 x4 x5 x6 x7 x8 x9 x10 x11 x12 1 (layerKer x3 x4 x5 x6 x7 x8 x9 x10 x11 x12 0 (H0 x0 x1 x2))

theorem layer_eq (l : Fin 2) (h : Fin 50000 → Fin 128 → EReal) :
    layerRef x3 x4 x5 x6 x7 x8 x9 x10 x11 x12 l h = layerKer x3 x4 x5 x6 x7 x8 x9 x10 x11 x12 l h :=
  GnnSpec.next_eq _ _ _ _ _ _ _ _ _ _ _

/-- The two forms of the network are one function. -/
theorem out_eq : outRef x0 x1 x2 x3 x4 x5 x6 x7 x8 x9 x10 x11 x12 = outKer x0 x1 x2 x3 x4 x5 x6 x7 x8 x9 x10 x11 x12 := by
  unfold outRef outKer
  rw [layer_eq, layer_eq]

end Cert.GnnIn

end
-- ==== Proof.KernelArgs.lean ====
/-
  The idealized kernel program's thirteen argument arrays at the launch, each named at its literal index type.
-/
import proofs.«412633_j14216341749899_2_alg».proof.Proof.Gen.KernelIdeal.Frame
import proofs.«412633_j14216341749899_2_alg».proof.Proof.GnnInputs

import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators

namespace Cert.KernelIdeal.HostVal

open Cert.KernelIdeal Cert.KernelIdeal.Gen
open Idealize.ShloMosaic Idealize.ShloMosaic.TcCoe Idealize.ShloMosaic.ValueIdx Idealize.SL.Sem
open Cert.GnnSpec (rd lo hi)

variable (m : (ℓ : Loc nD τ sig) → Buf (Elt Ideal) ℓ) (ρ : Dev nD → PrngReg)

/-- Node features. -/
abbrev a0 (c : Dev nD) : S50000x128.Idx → EReal := m ((c : Thread nD τ).loc main_arg0)
/-- The input projection's matrix. -/
abbrev a1 (c : Dev nD) : S128x128.Idx → EReal := m ((c : Thread nD τ).loc main_arg1)
/-- The input projection's bias. -/
abbrev a2 (c : Dev nD) : S128.Idx → EReal := m ((c : Thread nD τ).loc main_arg2)
/-- Relation embeddings, per layer. -/
abbrev a3 (c : Dev nD) : S2x16x32.Idx → EReal := m ((c : Thread nD τ).loc main_arg3)
/-- Message matrices, per layer. -/
abbrev a4 (c : Dev nD) : S2x128x160.Idx → EReal := m ((c : Thread nD τ).loc main_arg4)
/-- Message biases, per layer. -/
abbrev a5 (c : Dev nD) : S2x128.Idx → EReal := m ((c : Thread nD τ).loc main_arg5)
/-- Self matrices, per layer. -/
abbrev a6 (c : Dev nD) : S2x128x128.Idx → EReal := m ((c : Thread nD τ).loc main_arg6)
/-- Self biases, per layer. -/
abbrev a7 (c : Dev nD) : S2x128.Idx → EReal := m ((c : Thread nD τ).loc main_arg7)
/-- Neighbour matrices, per layer. -/
abbrev a8 (c : Dev nD) : S2x128x128.Idx → EReal := m ((c : Thread nD τ).loc main_arg8)
/-- Neighbour biases, per layer. -/
abbrev a9 (c : Dev nD) : S2x128.Idx → EReal := m ((c : Thread nD τ).loc main_arg9)
/-- Source words. -/
abbrev a10 (c : Dev nD) : S800000.Idx → BitVec 32 := m ((c : Thread nD τ).loc main_arg10)
/-- Destination words. -/
abbrev a11 (c : Dev nD) : S800000.Idx → BitVec 32 := m ((c : Thread nD τ).loc main_arg11)
/-- Relation words. -/
abbrev a12 (c : Dev nD) : S800000.Idx → BitVec 32 := m ((c : Thread nD τ).loc main_arg12)

end Cert.KernelIdeal.HostVal

end
-- ==== Proof.LibRows.lean ====
/-
  Two host operations read at an element, for any extents: a ROW GATHER (`table[idx]` over a rank-2 table: result row `e`
  is the table's row named by start index `e`, read signed and clamped into the table) and a ROW SCATTER-ADD onto a rank-2
  operand (`operand.at[idx].add(updates)`: element `(n, q)` of the result is the operand's plus the sum of the updates'
  `(e, q)` over the update rows `e` whose start index, read signed and not clamped, is `n`; a row landing outside the
  operand contributes nothing).
-/
import Idealize.ShloMosaic.Lib.ValueIdx
import Idealize.ShloMosaic.PureOps.Ideal

noncomputable section

open scoped BigOperators

namespace Cert.LibRows

open Idealize.ShloMosaic Idealize.ShloMosaic.ValueIdx

/-! ## The row gather -/

/-- The start-indices index a result index `(e, q)` reads, whatever the component: row `e` of the index column
    (the result's one batch axis is axis 0, which reads the start indices' axis 0; the index vector's axis holds the
    component, and a start index has one). -/
theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

/-- Axis 0 of the operand index: the start index of row `e`, read signed and clamped into the table (the axis is
    collapsed, slice size 1: no batching and no offset coordinate). -/
theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

/-- Axis 1 of the operand index: the result's column (the start index map does not name the axis, it is not a
    batching axis, and it is the one kept axis, read by the result's one offset axis). -/
theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

/-- THE ROW GATHER: the dimension numbers are the printed ones of `table[idx]` over a rank-2 table with the start
    indices an [E × 1] column (each hypothesis holds of a printed record by `rfl`). -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

/-! ## The row scatter-add -/

/-- The scatter-indices index an update index `(e, q')` reads, whatever the component: row `e` of the index column
    (the updates' one scatter axis is axis 0, which reads the scatter indices' axis 0). -/
theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- On axis 0 the window starts at the index word of row `e`, read signed and not clamped. -/
theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

/-- On axis 1 it starts at 0: the map does not name that axis. -/
theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

/-- Axis 0 is the inserted axis: no window coordinate there. -/
theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

/-- Axis 1 is the one kept axis, read by the updates' one window axis: its coordinate is the update's column. -/
theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

/-- WHERE AN UPDATE LANDS: update `(e, q')` lands at `(n, q)` exactly when its row's index word, read signed, is `n`
    and the columns agree. On axis 0 the landing coordinate is the index word (start) plus 0 (no window coordinate),
    in range exactly when it is some `n` below `N`; on axis 1 it is 0 plus `q'`, always in range. -/
theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>
      -- in range on both axes: compare the landing index with (n, q) coordinate by coordinate
      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

/-- THE ROW SCATTER-ADD at the ideal instance: the dimension numbers are the printed ones of a segment sum over rows
    (each hypothesis holds of a printed record by `rfl`). -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by
  -- every update index is (row, column): the landing criterion read at it
  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this
  -- an update landing at (n, q) sits in column q
  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1
  -- so the updates landing at (n, q) are the (e, q) over the rows e whose index word reads n: re-index by the row
  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.KHost0.lean ====
/-
  What the first kernel region finds at entry: the host operations before it, read at an index. The transposed weights and
  reshaped biases by coordinates; the reciprocal degree normaliser; the per-node relation counts.
-/
import proofs.«412633_j14216341749899_2_alg».proof.Proof.Gen.KernelIdeal.Frame
import proofs.«412633_j14216341749899_2_alg».proof.Proof.GnnInputs
import proofs.«412633_j14216341749899_2_alg».proof.Proof.KernelArgs
import proofs.«412633_j14216341749899_2_alg».proof.Proof.LibRows
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators

namespace Cert.KernelIdeal.HostVal

open Cert.KernelIdeal Cert.KernelIdeal.Gen
open Idealize.ShloMosaic Idealize.ShloMosaic.TcCoe Idealize.ShloMosaic.ValueIdx Idealize.SL.Sem
open Cert.GnnSpec (rd lo hi)

variable (m : (ℓ : Loc nD τ sig) → Buf (Elt Ideal) ℓ) (ρ : Dev nD → PrngReg)

/-! # Auxiliaries -/

namespace Aux0

/-- A reference none of a stretch's operations writes keeps its contents. -/
local macro "not_written" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The arguments before the last host stretch: as launched -/

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by not_written hostOps0_1
    _ = W0 m ρ c (Proc.devRef .tc main_arg0) := by not_written hostOps0
    _ = m ((c : Thread nD τ).loc main_arg0) := rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by not_written hostOps0_1
    _ = W0 m ρ c (Proc.devRef .tc main_arg1) := by not_written hostOps0
    _ = m ((c : Thread nD τ).loc main_arg1) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by not_written hostOps0_1
    _ = W0 m ρ c (Proc.devRef .tc main_arg2) := by not_written hostOps0
    _ = m ((c : Thread nD τ).loc main_arg2) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by not_written hostOps0_1
    _ = W0 m ρ c (Proc.devRef .tc main_arg4) := by not_written hostOps0
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by not_written hostOps0_1
    _ = W0 m ρ c (Proc.devRef .tc main_arg5) := by not_written hostOps0
    _ = m ((c : Thread nD τ).loc main_arg5) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := by not_written hostOps0_1
    _ = W0 m ρ c (Proc.devRef .tc main_arg11) := by not_written hostOps0
    _ = m ((c : Thread nD τ).loc main_arg11) := rfl

/-! ## The last host stretch's layout results, over any contents before it -/

section Layout
variable (V : Valuation τ sig (Elt Ideal))

theorem ops2_v16 : (StableHlo.after hostOps0_2 V (Proc.devRef .tc main_v16) : S128x128.Idx → EReal)
    = transpose S128x128 [1, 0] (V (Proc.devRef .tc main_arg1)) transposes_S128x128_S128x128_1_0 := by
  after_results <;> rfl

theorem ops2_v17 : (StableHlo.after hostOps0_2 V (Proc.devRef .tc main_v17) : S1x128.Idx → EReal)
    = shapeCast S1x128 (V (Proc.devRef .tc main_arg2) : S128.Idx → EReal) shapeCasts_S128_S1x128 := by
  after_results <;> rfl

theorem ops2_v15 : (StableHlo.after hostOps0_2 V (Proc.devRef .tc main_v15) : S128x128.Idx → EReal)
    = transpose S128x128 [1, 0]
        (extractStridedSlice S128x128 ![0, 0]
          (shapeCast S128x160
            (extractStridedSlice S1x128x160 ![0, 0, 0] (V (Proc.devRef .tc main_arg4) : S2x128x160.Idx → EReal)
              slices_S2x128x160_S1x128x160_0_0_0)
            shapeCasts_S1x128x160_S128x160)
          slices_S128x160_S128x128_0_0)
        transposes_S128x128_S128x128_1_0 := by
  after_results <;> rfl

theorem ops2_v20 : (StableHlo.after hostOps0_2 V (Proc.devRef .tc main_v20) : S1x128.Idx → EReal)
    = shapeCast S1x128
        (shapeCast S128
          (extractStridedSlice S1x128 ![0, 0] (V (Proc.devRef .tc main_arg5) : S2x128.Idx → EReal) slices_S2x128_S1x128_0_0)
          shapeCasts_S1x128_S128)
        shapeCasts_S128_S1x128 := by
  after_results <;> rfl

end Layout

/-- Layer 0's message block read at `(k, j)`: the slice of the first layer, as a matrix, its first 128 columns, transposed. -/
theorem read_v15 (x4 : S2x128x160.Idx → EReal) (k j : Fin 128) :
    transpose S128x128 [1, 0]
        (extractStridedSlice S128x128 ![0, 0]
          (shapeCast S128x160
            (extractStridedSlice S1x128x160 ![0, 0, 0] x4 slices_S2x128x160_S1x128x160_0_0_0)
            shapeCasts_S1x128x160_S128x160)
          slices_S128x160_S128x128_0_0)
        transposes_S128x128_S128x128_1_0 (ix2 k j)
      = x4 (ix3 0 j (lo k)) := by
  refine (transpose_ix2_apply _ transposes_S128x128_S128x128_1_0 k j).trans ?_
  refine (extractStridedSlice_apply ![0, 0] _ slices_S128x160_S128x128_0_0 (ix2 j k) (ix2 j (lo k)) (fun a => match a with
    | ⟨0, _⟩ => by show j.val = 0 + j.val; omega
    | ⟨1, _⟩ => by show k.val = 0 + k.val; omega)).trans ?_
  refine (shapeCast_1ab_ab_apply _ shapeCasts_S1x128x160_S128x160 j (lo k)).trans ?_
  exact extractStridedSlice_apply ![0, 0, 0] x4 slices_S2x128x160_S1x128x160_0_0_0 (ix3 0 j (lo k)) (ix3 0 j (lo k)) (fun a => match a with
    | ⟨0, _⟩ => by show (0 : Nat) = 0 + 0; omega
    | ⟨1, _⟩ => by show j.val = 0 + j.val; omega
    | ⟨2, _⟩ => by show k.val = 0 + k.val; omega)

/-- Layer 0's message bias read at `(0, j)`: the first row, flattened, then a row again. -/
theorem read_v20 (x5 : S2x128.Idx → EReal) (j : Fin 128) :
    shapeCast S1x128
        (shapeCast S128 (extractStridedSlice S1x128 ![0, 0] x5 slices_S2x128_S1x128_0_0) shapeCasts_S1x128_S128)
        shapeCasts_S128_S1x128 (ix2 0 j)
      = x5 (ix2 0 j) := by
  refine (shapeCast_a_1a_apply _ shapeCasts_S128_S1x128 0 j).trans ?_
  refine (shapeCast_1a_a_apply _ shapeCasts_S1x128_S128 j).trans ?_
  exact extractStridedSlice_apply ![0, 0] x5 slices_S2x128_S1x128_0_0 (ix2 0 j) (ix2 0 j) (fun a => match a with
    | ⟨0, _⟩ => by show (0 : Nat) = 0 + 0; omega
    | ⟨1, _⟩ => by show j.val = 0 + j.val; omega)

/-! ## The arrays region 0 is entered from -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by not_written hostOps0_2
    _ = m ((c : Thread nD τ).loc main_arg0) := W2_arg0 m ρ c

theorem W3_v16 (c : Dev nD) : (W3 m ρ c (Proc.devRef .tc main_v16) : S128x128.Idx → EReal)
    = transpose S128x128 [1, 0] (a1 m c) transposes_S128x128_S128x128_1_0 := by
  have e := ops2_v16 (W2 m ρ c)
  rw [W2_arg1 m ρ c] at e
  exact e

theorem W3_v17 (c : Dev nD) : (W3 m ρ c (Proc.devRef .tc main_v17) : S1x128.Idx → EReal)
    = shapeCast S1x128 (a2 m c) shapeCasts_S128_S1x128 := by
  have e := ops2_v17 (W2 m ρ c)
  rw [W2_arg2 m ρ c] at e
  exact e

theorem W3_v15 (c : Dev nD) : (W3 m ρ c (Proc.devRef .tc main_v15) : S128x128.Idx → EReal)
    = transpose S128x128 [1, 0]
        (extractStridedSlice S128x128 ![0, 0]
          (shapeCast S128x160
            (extractStridedSlice S1x128x160 ![0, 0, 0] (a4 m c) slices_S2x128x160_S1x128x160_0_0_0)
            shapeCasts_S1x128x160_S128x160)
          slices_S128x160_S128x128_0_0)
        transposes_S128x128_S128x128_1_0 := by
  have e := ops2_v15 (W2 m ρ c)
  rw [W2_arg4 m ρ c] at e
  exact e

theorem W3_v20 (c : Dev nD) : (W3 m ρ c (Proc.devRef .tc main_v20) : S1x128.Idx → EReal)
    = shapeCast S1x128
        (shapeCast S128 (extractStridedSlice S1x128 ![0, 0] (a5 m c) slices_S2x128_S1x128_0_0) shapeCasts_S1x128_S128)
        shapeCasts_S128_S1x128 := by
  have e := ops2_v20 (W2 m ρ c)
  rw [W2_arg5 m ρ c] at e
  exact e

/-! ## The degree normaliser -/

/-- The word of `1.0` is the real one. -/
theorem ofBits_one_f32 : Ideal.ofBits .f32 0x3F800000#32 = 1 := IdealRules.sign_bit.ideal_onePat .f32

section Stretch0
variable (V : Valuation τ sig (Elt Ideal))

/-- The normaliser's term over the destination words. -/
def v7Term (x11 : S800000.Idx → BitVec 32) : S50000x1.Idx → EReal :=
  Host.divf (F := Ideal) (φ := .f32)
    (broadcastInDim S50000x1 ![] bcast_S_S50000x1 (constant (F := Ideal) S_ .f32 0x3F800000#32))
    (maximumf (F := Ideal) (φ := .f32)
      (Host.scatterAdd (F := Ideal) (φ := .f32) scatter_S50000x1_S800000x1_S800000x1_1_0_0_1
        (broadcastInDim S50000x1 ![] bcast_S_S50000x1 (constant (F := Ideal) S_ .f32 0x00000000#32))
        (broadcastInDim S800000x1 ![0] bcast_S800000_S800000x1_0 x11)
        (broadcastInDim S800000x1 ![] bcast_S_S800000x1 (constant (F := Ideal) S_ .f32 0x3F800000#32)))
      (broadcastInDim S50000x1 ![] bcast_S_S50000x1 (constant (F := Ideal) S_ .f32 0x3F800000#32)))

theorem ops0_v7 : (StableHlo.after hostOps0 V (Proc.devRef .tc main_v7) : S50000x1.Idx → EReal)
    = v7Term (V (Proc.devRef .tc main_arg11)) := by
  unfold v7Term
  after_results <;> rfl

end Stretch0

/-- A scalar broadcast reads the scalar. -/
theorem bcast0_apply {α : Type} {t : Shape} (h : S_.BroadcastsInDim t ![]) (v : S_.Idx → α) (j : t.Idx) :
    broadcastInDim t ![] h v j = v ix0 :=
  broadcastInDim_apply ![] h v j ix0 (fun a => a.elim0)

/-- A broadcast float constant is the constant function of the word's value. -/
theorem bcast0_const {t : Shape} (h : S_.BroadcastsInDim t ![]) (b : BitVec 32) :
    broadcastInDim t ![] h (constant (F := Ideal) S_ .f32 b) = fun _ => Ideal.ofBits .f32 b :=
  funext fun j => bcast0_apply h _ j

/-- The edge words as a column read, at `(e, 0)`, the word of edge `e`. -/
theorem bcast_col_apply {α : Type} (x : S800000.Idx → α) (e : Fin 800000) (u : Fin 1) :
    broadcastInDim S800000x1 ![0] bcast_S800000_S800000x1_0 x (ix2 e u) = x (ix1 e) :=
  broadcastInDim_apply ![0] bcast_S800000_S800000x1_0 x (ix2 e u) (ix1 e) (fun a => match a with
    | ⟨0, _⟩ => by show e.val = if (800000 : Nat) = 1 then 0 else e.val; rw [if_neg (by decide)])

/-- The same as one function. -/
theorem bcast_col_eq {α : Type} (x : S800000.Idx → α) :
    broadcastInDim S800000x1 ![0] bcast_S800000_S800000x1_0 x = fun i => x (ix1 (i 0)) :=
  funext fun i => (congrArg (broadcastInDim S800000x1 ![0] bcast_S800000_S800000x1_0 x) (eq_ix2 i)).trans
    (bcast_col_apply x (i 0) (i 1))

/-- The host's quotient at an index, at the ideal instance. -/
theorem hostDivf_apply {s : Shape} {φ : FTy} (a b : FVec Ideal s φ) (i : s.Idx) :
    Host.divf a b i = Ideal.div (a i) (b i) := rfl

/-- The normaliser's term at node `n`: one over the larger of the in-degree and one. -/
theorem read_v7 (x11 : S800000.Idx → BitVec 32) (n : Fin 50000) :
    v7Term x11 (ix2 n 0) = GnnSpec.dinv (GnnIn.into x11) n := by
  unfold v7Term
  rw [bcast0_const bcast_S_S50000x1, bcast0_const bcast_S_S50000x1, bcast0_const bcast_S_S800000x1, bcast_col_eq,
    ofBits_one_f32, Ideal.ofBits_zero_f32]
  refine (hostDivf_apply _ _ _).trans ?_
  rw [maximumf_apply, LibRows.scatterAdd_rows_apply scatter_S50000x1_S800000x1_S800000x1_1_0_0_1 rfl rfl rfl rfl]
  rfl

/-- The normaliser before region 0: written by the first stretch, kept by the other two. -/
theorem W3_v7 (c : Dev nD) : W3 m ρ c (Proc.devRef .tc main_v7) = v7Term (a11 m c) :=
  calc W3 m ρ c (Proc.devRef .tc main_v7)
    _ = W2 m ρ c (Proc.devRef .tc main_v7) := by not_written hostOps0_2
    _ = W1 m ρ c (Proc.devRef .tc main_v7) := by not_written hostOps0_1
    _ = v7Term (a11 m c) := ops0_v7 (W0 m ρ c)

/-! ## The relation counts -/

section Stretch1
variable (V : Valuation τ sig (Elt Ideal))

/-- The one-hot rows' term over the relation words. -/
def v8Term (x12 : S800000.Idx → BitVec 32) : S800000x16.Idx → EReal :=
  uitofp (F := Ideal) .f32
    (cmpi .eq
      (broadcastInDim S800000x16 ![0, 1] bcast_S800000x1_S800000x16_0_1
        (broadcastInDim S800000x1 ![0] bcast_S800000_S800000x1_0 x12))
      (broadcastInDim S800000x16 ![0, 1] bcast_S1x16_S800000x16_0_1 (iotaInDim S1x16 32 1)))

theorem ops1_v8 : (StableHlo.after hostOps0_1 V (Proc.devRef .tc main_v8) : S800000x16.Idx → EReal)
    = v8Term (V (Proc.devRef .tc main_arg12)) := by
  unfold v8Term
  after_results <;> rfl

/-- The relation counts' term over the destination words and the one-hot rows. -/
def v11Term (x11 : S800000.Idx → BitVec 32) (u : S800000x16.Idx → EReal) : S50000x16.Idx → EReal :=
  Host.scatterAdd (F := Ideal) (φ := .f32) scatter_S50000x16_S800000x1_S800000x16_1_0_0_1
    (broadcastInDim S50000x16 ![] bcast_S_S50000x16 (constant (F := Ideal) S_ .f32 0x00000000#32))
    (broadcastInDim S800000x1 ![0] bcast_S800000_S800000x1_0 x11)
    u

theorem ops2_v11 : (StableHlo.after hostOps0_2 V (Proc.devRef .tc main_v11) : S50000x16.Idx → EReal)
    = v11Term (V (Proc.devRef .tc main_arg11)) (V (Proc.devRef .tc main_v8)) := by
  unfold v11Term
  after_results <;> rfl

end Stretch1

/-- A column laid along the rows of a 16-wide rectangle reads, at `(e, r)`, the column at `(e, 0)`. -/
theorem bcast_rows16_apply {α : Type} (v : S800000x1.Idx → α) (e : Fin 800000) (r : Fin 16) :
    broadcastInDim S800000x16 ![0, 1] bcast_S800000x1_S800000x16_0_1 v (ix2 e r) = v (ix2 e 0) :=
  broadcastInDim_apply ![0, 1] bcast_S800000x1_S800000x16_0_1 v (ix2 e r) (ix2 e 0) (fun a => match a with
    | ⟨0, _⟩ => by show e.val = if (800000 : Nat) = 1 then 0 else e.val; rw [if_neg (by decide)]
    | ⟨1, _⟩ => by show (0 : Nat) = if (1 : Nat) = 1 then 0 else r.val; rw [if_pos rfl])

/-- A row laid down the columns of an 800000-tall rectangle reads, at `(e, r)`, the row at `(0, r)`. -/
theorem bcast_cols16_apply {α : Type} (v : S1x16.Idx → α) (e : Fin 800000) (r : Fin 16) :
    broadcastInDim S800000x16 ![0, 1] bcast_S1x16_S800000x16_0_1 v (ix2 e r) = v (ix2 0 r) :=
  broadcastInDim_apply ![0, 1] bcast_S1x16_S800000x16_0_1 v (ix2 e r) (ix2 0 r) (fun a => match a with
    | ⟨0, _⟩ => by show (0 : Nat) = if (1 : Nat) = 1 then 0 else e.val; rw [if_pos rfl]
    | ⟨1, _⟩ => by show r.val = if (16 : Nat) = 1 then 0 else r.val; rw [if_neg (by decide)])

/-- An unsigned conversion at an index. -/
theorem uitofp_apply {s : Shape} {w : Nat} (x : IVec s w) (i : s.Idx) :
    (uitofp (F := Ideal) .f32 x : FVec Ideal s .f32) i = FloatOps.uitofp .f32 (x i) := rfl

/-- A word comparison at an index. -/
theorem cmpi_apply {s : Shape} {w : Nat} (p : CmpIPredicate) (x y : IVec s w) (i : s.Idx) :
    cmpi p x y i = IntOp.cmpi p (x i) (y i) := rfl

/-- A one-bit word read unsigned is one where the bit is set and zero where it is not. -/
theorem uitofp_bit (b : BitVec 1) : (FloatOps.uitofp .f32 b : Ideal .f32) = if b = 1#1 then (1 : EReal) else 0 := by
  rcases BitVec.eq_zero_or_eq_one b with rfl | rfl
  · show (((0#1 : BitVec 1).toNat : ℝ) : EReal) = _
    rw [if_neg (by decide)]; simp
  · show (((1#1 : BitVec 1).toNat : ℝ) : EReal) = _
    rw [if_pos rfl]; simp

/-- A word in the relation range is the word of `r` exactly when its clamped reading is `r`. -/
theorem word_eq_iff (w : BitVec 32) (h0 : 0 ≤ w.toInt) (h1 : w.toInt < 16) (r : Fin 16) :
    w = BitVec.ofNat 32 r.val ↔ (⟨min w.toInt.toNat 15, by omega⟩ : Fin 16) = r := by
  have hr : (BitVec.ofNat 32 r.val).toInt = (r.val : ℤ) :=
    StableHlo.Predicate.toInt_ofNat_small r.val (by have := r.isLt; omega)
  constructor
  · intro h
    apply Fin.ext
    show min w.toInt.toNat 15 = r.val
    rw [h, hr]
    have := r.isLt
    omega
  · intro h
    apply BitVec.eq_of_toInt_eq
    rw [hr]
    have h' : min w.toInt.toNat 15 = r.val := congrArg Fin.val h
    omega

/-- The one-hot rows at `(e, r)`: one where edge `e` carries relation `r`. -/
theorem read_v8 (x12 : S800000.Idx → BitVec 32) (e : Fin 800000) (r : Fin 16)
    (h0 : 0 ≤ (x12 (ix1 e)).toInt) (h1 : (x12 (ix1 e)).toInt < 16) :
    v8Term x12 (ix2 e r) = if GnnIn.rid x12 e = r then (1 : EReal) else 0 := by
  unfold v8Term
  rw [uitofp_apply, cmpi_apply, bcast_rows16_apply, bcast_col_apply, bcast_cols16_apply, uitofp_bit]
  exact if_congr (StableHlo.Predicate.cmpi_eq_iff.trans (word_eq_iff _ h0 h1 r)) rfl rfl

/-- The relation counts' term at `(n, r)`. -/
theorem read_v11 (x11 x12 : S800000.Idx → BitVec 32)
    (hr : ∀ e : Fin 800000, 0 ≤ (x12 (ix1 e)).toInt ∧ (x12 (ix1 e)).toInt < 16) (n : Fin 50000) (r : Fin 16) :
    v11Term x11 (v8Term x12) (ix2 n r) = GnnSpec.cntRel (GnnIn.rid x12) (GnnIn.into x11) n r := by
  unfold v11Term
  rw [bcast0_const bcast_S_S50000x16, bcast_col_eq, Ideal.ofBits_zero_f32,
    LibRows.scatterAdd_rows_apply scatter_S50000x16_S800000x1_S800000x16_1_0_0_1 rfl rfl rfl rfl]
  unfold GnnSpec.cntRel GnnIn.into
  show (0 : EReal) + ∑ e ∈ Finset.univ.filter (fun e : Fin 800000 => (x11 (ix1 e)).toInt = (n.val : ℤ)), v8Term x12 (ix2 e r) = _
  rw [Finset.sum_congr rfl fun e _ => read_v8 x12 e r (hr e).1 (hr e).2]

/-- The one-hot rows before the last stretch. -/
theorem W2_v8 (c : Dev nD) : W2 m ρ c (Proc.devRef .tc main_v8) = v8Term (a12 m c) :=
  (ops1_v8 (W1 m ρ c)).trans (congrArg v8Term
    (show W1 m ρ c (Proc.devRef .tc main_arg12) = W0 m ρ c (Proc.devRef .tc main_arg12) by not_written hostOps0))

/-- The relation counts before region 0. -/
theorem W3_v11 (c : Dev nD) : W3 m ρ c (Proc.devRef .tc main_v11) = v11Term (a11 m c) (v8Term (a12 m c)) := by
  have e := ops2_v11 (W2 m ρ c)
  rw [W2_arg11 m ρ c, W2_v8 m ρ c] at e
  exact e

end Aux0

open Aux0

/-! # The contents region 0 is entered from -/

/-- The node features are as launched. -/
theorem V3_arg0 (c : Dev nD) : rd S50000x128 (V3 m ρ c main_arg0) = a0 m c :=
  W3_arg0 m ρ c

/-- The input matrix transposed: entry `(k, j)` is `inW[j, k]`. -/
theorem V3_v16 (c : Dev nD) (k j : Fin 128) : rd S128x128 (V3 m ρ c main_v16) (ix2 k j) = a1 m c (ix2 j k) :=
  (congrFun (W3_v16 m ρ c) (ix2 k j)).trans (transpose_ix2_apply (a1 m c) transposes_S128x128_S128x128_1_0 k j)

/-- The input bias as a row. -/
theorem V3_v17 (c : Dev nD) (j : Fin 128) : rd S1x128 (V3 m ρ c main_v17) (ix2 0 j) = a2 m c (ix1 j) :=
  (congrFun (W3_v17 m ρ c) (ix2 0 j)).trans (shapeCast_a_1a_apply (a2 m c) shapeCasts_S128_S1x128 0 j)

/-- Layer 0's first 128 message columns, transposed: entry `(k, j)` is `MW[0, j, k]`. -/
theorem V3_v15 (c : Dev nD) (k j : Fin 128) : rd S128x128 (V3 m ρ c main_v15) (ix2 k j) = a4 m c (ix3 0 j (lo k)) :=
  (congrFun (W3_v15 m ρ c) (ix2 k j)).trans (read_v15 (a4 m c) k j)

/-- Layer 0's message bias as a row. -/
theorem V3_v20 (c : Dev nD) (j : Fin 128) : rd S1x128 (V3 m ρ c main_v20) (ix2 0 j) = a5 m c (ix2 0 j) :=
  (congrFun (W3_v20 m ρ c) (ix2 0 j)).trans (read_v20 (a5 m c) j)

/-- The reciprocal degree normaliser of node `n`. -/
theorem V3_v7 (c : Dev nD) (n : Fin 50000) :
    rd S50000x1 (V3 m ρ c main_v7) (ix2 n 0) = GnnSpec.dinv (GnnIn.into (a11 m c)) n :=
  (congrFun (W3_v7 m ρ c) (ix2 n 0)).trans (read_v7 (a11 m c) n)

/-- How many in-edges of node `n` carry relation `r` (the relation words in range). -/
theorem V3_v11 (c : Dev nD) (hr : ∀ e : Fin 800000, 0 ≤ (a12 m c (ix1 e)).toInt ∧ (a12 m c (ix1 e)).toInt < 16)
    (n : Fin 50000) (r : Fin 16) :
    rd S50000x16 (V3 m ρ c main_v11) (ix2 n r) = GnnSpec.cntRel (GnnIn.rid (a12 m c)) (GnnIn.into (a11 m c)) n r :=
  (congrFun (W3_v11 m ρ c) (ix2 n r)).trans (read_v11 (a11 m c) (a12 m c) hr n r)

end Cert.KernelIdeal.HostVal

end
-- ==== Proof.KHost1.lean ====
/-
  What the second kernel region finds at entry: the previous region's outputs, the host operations between, read at an index.
  The neighbour sum of the previous region's projected rows; the layer's transposed weights, bias rows and relation table by
  coordinates; the reciprocal normaliser and relation counts carried unchanged from before the first region.
-/
import proofs.«412633_j14216341749899_2_alg».proof.Proof.Gen.KernelIdeal.Frame
import proofs.«412633_j14216341749899_2_alg».proof.Proof.GnnInputs
import proofs.«412633_j14216341749899_2_alg».proof.Proof.KernelArgs
import proofs.«412633_j14216341749899_2_alg».proof.Proof.LibRows
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators

namespace Cert.KernelIdeal.HostVal

open Cert.KernelIdeal Cert.KernelIdeal.Gen
open Idealize.ShloMosaic Idealize.ShloMosaic.TcCoe Idealize.ShloMosaic.ValueIdx Idealize.SL.Sem
open Cert.GnnSpec (rd lo hi)

variable (m : (ℓ : Loc nD τ sig) → Buf (Elt Ideal) ℓ) (ρ : Dev nD → PrngReg)

namespace Aux1

/-! ## The layer parameters' layout chains, read at coordinates (any element type, the array a variable) -/

section Layout
variable {α : Type}

/-- Layer `0` of a stack of two square matrices, transposed: entry `(k, j)` is the stack's `(0, j, k)`. -/
theorem layer0_transposed_apply (x : S2x128x128.Idx → α) (k j : Fin 128) :
    transpose S128x128 [1, 0]
        (shapeCast S128x128 (extractStridedSlice S1x128x128 ![0, 0, 0] x slices_S2x128x128_S1x128x128_0_0_0)
          shapeCasts_S1x128x128_S128x128)
        transposes_S128x128_S128x128_1_0 (ix2 k j)
      = x (ix3 0 j k) := by
  refine (transpose_apply [1, 0] _ transposes_S128x128_S128x128_1_0 (ix2 k j) (ix2 j k)
    (fun b => match b with
      | ⟨0, _⟩ => rfl
      | ⟨1, _⟩ => rfl)).trans ?_
  refine (shapeCast_apply _ shapeCasts_S1x128x128_S128x128 (ix2 j k) (ix3 0 j k) ?_).trans ?_
  · rewrite [Shape.rowMajor_val_three, Shape.rowMajor_val_two]
    show (0 * 128 + j.val) * 128 + k.val = j.val * 128 + k.val
    omega
  · exact extractStridedSlice_apply ![0, 0, 0] x slices_S2x128x128_S1x128x128_0_0_0 (ix3 0 j k) (ix3 0 j k)
      (fun a => match a with
        | ⟨0, _⟩ => by show (0 : ℕ) = 0 + 0; omega
        | ⟨1, _⟩ => by show j.val = 0 + j.val; omega
        | ⟨2, _⟩ => by show k.val = 0 + k.val; omega)

/-- Row `0` of a two-row table, flattened and stood up again as a one-row table. -/
theorem row0_apply (x : S2x128.Idx → α) (j : Fin 128) :
    shapeCast S1x128
        (shapeCast S128 (extractStridedSlice S1x128 ![0, 0] x slices_S2x128_S1x128_0_0) shapeCasts_S1x128_S128)
        shapeCasts_S128_S1x128 (ix2 0 j)
      = x (ix2 0 j) := by
  refine (shapeCast_apply _ shapeCasts_S128_S1x128 (ix2 0 j) (ix1 j) ?_).trans ?_
  · rewrite [Shape.rowMajor_val_one, Shape.rowMajor_val_two]
    show j.val = 0 * 128 + j.val
    omega
  refine (shapeCast_apply _ shapeCasts_S1x128_S128 (ix1 j) (ix2 0 j) ?_).trans ?_
  · rewrite [Shape.rowMajor_val_one, Shape.rowMajor_val_two]
    show 0 * 128 + j.val = j.val
    omega
  · exact extractStridedSlice_apply ![0, 0] x slices_S2x128_S1x128_0_0 (ix2 0 j) (ix2 0 j)
      (fun a => match a with
        | ⟨0, _⟩ => by show (0 : ℕ) = 0 + 0; omega
        | ⟨1, _⟩ => by show j.val = 0 + j.val; omega)

/-- Row `1` of a two-row table, flattened and stood up again as a one-row table. -/
theorem row1_apply (x : S2x128.Idx → α) (j : Fin 128) :
    shapeCast S1x128
        (shapeCast S128 (extractStridedSlice S1x128 ![1, 0] x slices_S2x128_S1x128_1_0) shapeCasts_S1x128_S128)
        shapeCasts_S128_S1x128 (ix2 0 j)
      = x (ix2 1 j) := by
  refine (shapeCast_apply _ shapeCasts_S128_S1x128 (ix2 0 j) (ix1 j) ?_).trans ?_
  · rewrite [Shape.rowMajor_val_one, Shape.rowMajor_val_two]
    show j.val = 0 * 128 + j.val
    omega
  refine (shapeCast_apply _ shapeCasts_S1x128_S128 (ix1 j) (ix2 0 j) ?_).trans ?_
  · rewrite [Shape.rowMajor_val_one, Shape.rowMajor_val_two]
    show 0 * 128 + j.val = j.val
    omega
  · exact extractStridedSlice_apply ![1, 0] x slices_S2x128_S1x128_1_0 (ix2 0 j) (ix2 1 j)
      (fun a => match a with
        | ⟨0, _⟩ => by show (1 : ℕ) = 1 + 0; omega
        | ⟨1, _⟩ => by show j.val = 0 + j.val; omega)

end Layout

section Layout2
variable {α : Type}

/-- Layer `1`'s first 128 message columns, transposed: entry `(k, j)` is the stack's `(1, j, k)`. -/
theorem layer1_lo_transposed_apply (x : S2x128x160.Idx → α) (k j : Fin 128) :
    transpose S128x128 [1, 0]
        (extractStridedSlice S128x128 ![0, 0]
          (shapeCast S128x160 (extractStridedSlice S1x128x160 ![1, 0, 0] x slices_S2x128x160_S1x128x160_1_0_0)
            shapeCasts_S1x128x160_S128x160)
          slices_S128x160_S128x128_0_0)
        transposes_S128x128_S128x128_1_0 (ix2 k j)
      = x (ix3 1 j (lo k)) := by
  refine (transpose_apply [1, 0] _ transposes_S128x128_S128x128_1_0 (ix2 k j) (ix2 j k)
    (fun b => match b with
      | ⟨0, _⟩ => rfl
      | ⟨1, _⟩ => rfl)).trans ?_
  refine (extractStridedSlice_apply ![0, 0] _ slices_S128x160_S128x128_0_0 (ix2 j k) (ix2 j (lo k))
    (fun a => match a with
      | ⟨0, _⟩ => by show j.val = 0 + j.val; omega
      | ⟨1, _⟩ => by show k.val = 0 + k.val; omega)).trans ?_
  refine (shapeCast_apply _ shapeCasts_S1x128x160_S128x160 (ix2 j (lo k)) (ix3 0 j (lo k)) ?_).trans ?_
  · rewrite [Shape.rowMajor_val_three, Shape.rowMajor_val_two]
    show (0 * 128 + j.val) * 160 + k.val = j.val * 160 + k.val
    omega
  · exact extractStridedSlice_apply ![1, 0, 0] x slices_S2x128x160_S1x128x160_1_0_0 (ix3 0 j (lo k)) (ix3 1 j (lo k))
      (fun a => match a with
        | ⟨0, _⟩ => by show (1 : ℕ) = 1 + 0; omega
        | ⟨1, _⟩ => by show j.val = 0 + j.val; omega
        | ⟨2, _⟩ => by show k.val = 0 + k.val; omega)

/-- Layer `0`'s last 32 message columns, transposed: entry `(k, j)` is the stack's `(0, j, 128 + k)`. -/
theorem layer0_hi_transposed_apply (x : S2x128x160.Idx → α) (k : Fin 32) (j : Fin 128) :
    transpose S32x128 [1, 0]
        (extractStridedSlice S128x32 ![0, 128]
          (shapeCast S128x160 (extractStridedSlice S1x128x160 ![0, 0, 0] x slices_S2x128x160_S1x128x160_0_0_0)
            shapeCasts_S1x128x160_S128x160)
          slices_S128x160_S128x32_0_128)
        transposes_S128x32_S32x128_1_0 (ix2 k j)
      = x (ix3 0 j (hi k)) := by
  refine (transpose_apply [1, 0] _ transposes_S128x32_S32x128_1_0 (ix2 k j) (ix2 j k)
    (fun b => match b with
      | ⟨0, _⟩ => rfl
      | ⟨1, _⟩ => rfl)).trans ?_
  refine (extractStridedSlice_apply ![0, 128] _ slices_S128x160_S128x32_0_128 (ix2 j k) (ix2 j (hi k))
    (fun a => match a with
      | ⟨0, _⟩ => by show j.val = 0 + j.val; omega
      | ⟨1, _⟩ => by show 128 + k.val = 128 + k.val; rfl)).trans ?_
  refine (shapeCast_apply _ shapeCasts_S1x128x160_S128x160 (ix2 j (hi k)) (ix3 0 j (hi k)) ?_).trans ?_
  · rewrite [Shape.rowMajor_val_three, Shape.rowMajor_val_two]
    show (0 * 128 + j.val) * 160 + (128 + k.val) = j.val * 160 + (128 + k.val)
    omega
  · exact extractStridedSlice_apply ![0, 0, 0] x slices_S2x128x160_S1x128x160_0_0_0 (ix3 0 j (hi k)) (ix3 0 j (hi k))
      (fun a => match a with
        | ⟨0, _⟩ => by show (0 : ℕ) = 0 + 0; omega
        | ⟨1, _⟩ => by show j.val = 0 + j.val; omega
        | ⟨2, _⟩ => by show 128 + k.val = 0 + (128 + k.val); omega)

/-- Layer `0`'s relation embeddings as a 16 × 32 table. -/
theorem rel0_apply (x : S2x16x32.Idx → α) (r : Fin 16) (k : Fin 32) :
    shapeCast S16x32 (extractStridedSlice S1x16x32 ![0, 0, 0] x slices_S2x16x32_S1x16x32_0_0_0) shapeCasts_S1x16x32_S16x32 (ix2 r k)
      = x (ix3 0 r k) := by
  refine (shapeCast_apply _ shapeCasts_S1x16x32_S16x32 (ix2 r k) (ix3 0 r k) ?_).trans ?_
  · rewrite [Shape.rowMajor_val_three, Shape.rowMajor_val_two]
    show (0 * 16 + r.val) * 32 + k.val = r.val * 32 + k.val
    omega
  · exact extractStridedSlice_apply ![0, 0, 0] x slices_S2x16x32_S1x16x32_0_0_0 (ix3 0 r k) (ix3 0 r k)
      (fun a => match a with
        | ⟨0, _⟩ => by show (0 : ℕ) = 0 + 0; omega
        | ⟨1, _⟩ => by show r.val = 0 + r.val; omega
        | ⟨2, _⟩ => by show k.val = 0 + k.val; omega)

end Layout2

/-- The 16 × 32 by 32 × 128 product on the extended reals: entry `(r, j)` is the sum over the 32 shared coordinates. -/
theorem dot16_apply (l : FVec Ideal S16x32 .f32) (r : FVec Ideal S32x128 .f32) (i : Fin 16) (j : Fin 128) :
    (Host.dotGeneral (F := Ideal) (φ₁ := .f32) (φ₂ := .f32) dot_S16x32_S32x128_S16x128_1_0_0_1_n_n none l r :
        S16x128.Idx → EReal) (ix2 i j)
      = ∑ k : Fin 32, l (ix2 i k) * r (ix2 k j) := by
  simp only [Host.dotGeneral]
  rw [Ideal.dotGeneral_apply,
    ← Equiv.sum_comp (ValueIdx.contrEquiv1 dot_S16x32_S32x128_S16x128_1_0_0_1_n_n 32 rfl rfl).symm]
  refine Finset.sum_congr rfl fun k _ => ?_
  have hk := ValueIdx.contrEquiv1_symm_val dot_S16x32_S32x128_S16x128_1_0_0_1_n_n 32 rfl rfl k
  have el : dot_S16x32_S32x128_S16x128_1_0_0_1_n_n.lhsIdx (ix2 i j)
      ((ValueIdx.contrEquiv1 dot_S16x32_S32x128_S16x128_1_0_0_1_n_n 32 rfl rfl).symm k) = ix2 i k :=
    funext fun a => Fin.ext (by
      match a with
      | ⟨0, _⟩ =>
        show (dot_S16x32_S32x128_S16x128_1_0_0_1_n_n.lhsIdx (ix2 i j) _ 0).val = i.val
        unfold DotDims.lhsIdx
        rw [dif_neg (show ¬(0 : Fin S16x32.rank) ∈ dot_S16x32_S32x128_S16x128_1_0_0_1_n_n.lhsBatch by decide),
          dif_pos (show (0 : Fin S16x32.rank) ∈ dot_S16x32_S32x128_S16x128_1_0_0_1_n_n.lhsNonContracting by decide)]
        rfl
      | ⟨1, _⟩ => exact (dot_S16x32_S32x128_S16x128_1_0_0_1_n_n.lhsIdx_val_of_single rfl (ix2 i j) _).trans hk)
  have er : dot_S16x32_S32x128_S16x128_1_0_0_1_n_n.rhsIdx (ix2 i j)
      ((ValueIdx.contrEquiv1 dot_S16x32_S32x128_S16x128_1_0_0_1_n_n 32 rfl rfl).symm k) = ix2 k j :=
    funext fun a => Fin.ext (by
      match a with
      | ⟨0, _⟩ => exact (dot_S16x32_S32x128_S16x128_1_0_0_1_n_n.rhsIdx_val_of_single rfl (ix2 i j) _).trans hk
      | ⟨1, _⟩ =>
        show (dot_S16x32_S32x128_S16x128_1_0_0_1_n_n.rhsIdx (ix2 i j) _ 1).val = j.val
        unfold DotDims.rhsIdx
        rw [dif_neg (show ¬(1 : Fin S32x128.rank) ∈ dot_S16x32_S32x128_S16x128_1_0_0_1_n_n.rhsBatch by decide),
          dif_pos (show (1 : Fin S32x128.rank) ∈ dot_S16x32_S32x128_S16x128_1_0_0_1_n_n.rhsNonContracting by decide)]
        rfl)
  rw [el, er]

/-! ## The row take and the neighbour sum, as functions of the source words, the destination words and the table -/

/-- The source words as a column of row numbers: a negative word is moved up by the node count. -/
def takeIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- Which row numbers name a row of the table: the conjunction, over the column's one entry per row, of the two bounds. -/
def takeOk (a : IVec S800000 32) : IVec S800000 1 :=
  Host.reduce IntOp.andi
    (andi (cmpi .sge (takeIdx a) (broadcastInDim S800000x1 ![] bcast_S_S800000x1 (constantI S_ 32 0#32)))
      (cmpi .sle (takeIdx a)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The taken rows: the table's row at each row number in range, the quiet not-a-number word's value elsewhere. -/
def taken (x : S50000x128.Idx → EReal) (a : IVec S800000 32) : S800000x128.Idx → EReal :=
  select (broadcastInDim S800000x128 ![0] bcast_S800000_S800000x128_0 (takeOk a))
    (Host.gather gather_S50000x128_S800000x1_S800000x128_1_0_n_n_0_1_1128 x (takeIdx a))
    (broadcastInDim S800000x128 ![] bcast_S_S800000x128 (constant (F := Ideal) S_ .f32 0x7FC00000#32))

/-- A word that reads non-negative is not below zero. -/
theorem slt_zero_of_nonneg {w : BitVec 32} (h : 0 ≤ w.toInt) : IntOp.cmpi .slt w 0#32 = 0#1 := by
  have e : w.slt 0#32 = false := by
    rw [BitVec.slt, decide_eq_false_iff_not, not_lt]
    exact h
  show BitVec.ofBool (w.slt 0#32) = 0#1
  rw [e]
  rfl

/-- A word that reads non-negative is at least zero. -/
theorem sge_zero_of_nonneg {w : BitVec 32} (h : 0 ≤ w.toInt) : IntOp.cmpi .sge w 0#32 = 1#1 := by
  have e : (0#32 : BitVec 32).sle w = true := by
    rw [BitVec.sle, decide_eq_true_eq]
    exact h
  show BitVec.ofBool ((0#32 : BitVec 32).sle w) = 1#1
  rw [e]
  rfl

/-- A word that reads below the node count is at most the last node's number. -/
theorem sle_last_of_lt {w : BitVec 32} (h : w.toInt < 50000) : IntOp.cmpi .sle w 49999#32 = 1#1 := by
  have e : w.sle 49999#32 = true := by
    rw [BitVec.sle, decide_eq_true_eq]
    have : (49999#32 : BitVec 32).toInt = 49999 := by decide
    omega
  show BitVec.ofBool (w.sle 49999#32) = 1#1
  rw [e]
  rfl

/-- Where the source word reads non-negative the row number is the word itself. -/
theorem takeIdx_apply (a : IVec S800000 32) (i : S800000x1.Idx) (h : 0 ≤ (a (ix1 (i 0))).toInt) :
    takeIdx a i = a (ix1 (i 0)) := by
  unfold takeIdx
  refine (broadcastInDim_apply _ bcast_S800000_S800000x1_0 _ i (ix1 (i 0)) (fun b => match b with
    | ⟨0, _⟩ => by show (i 0).val = if (800000 : ℕ) = 1 then 0 else (i 0).val; rw [if_neg (by decide)])).trans ?_
  show Scalar.select (IntOp.cmpi .slt (a (ix1 (i 0))) 0#32) _ (a (ix1 (i 0))) = a (ix1 (i 0))
  rw [slt_zero_of_nonneg h]
  exact select_zero _ _

/-- A left fold of the conjunction from one over words that are all one is one. -/
theorem foldl_andi_one {ι : Type} (f : ι → BitVec 1) :
    ∀ l : List ι, (∀ n ∈ l, f n = 1#1) → l.foldl (fun r n => IntOp.andi r (f n)) 1#1 = 1#1
  | [], _ => rfl
  | n :: l, h => by
    rw [List.foldl_cons, h n List.mem_cons_self]
    exact foldl_andi_one f l fun k hk => h k (List.mem_cons_of_mem _ hk)

/-- With every source word in range every row number names a row. -/
theorem takeOk_eq_one (a : IVec S800000 32)
    (hs : ∀ e : Fin 800000, 0 ≤ (a (ix1 e)).toInt ∧ (a (ix1 e)).toInt < 50000) (j : S800000.Idx) :
    takeOk a j = 1#1 := by
  unfold takeOk
  rw [Host.reduce_eq_foldl]
  refine foldl_andi_one _ _ fun i _ => ?_
  show IntOp.andi (IntOp.cmpi .sge (takeIdx a i) 0#32) (IntOp.cmpi .sle (takeIdx a i) 49999#32) = 1#1
  rw [takeIdx_apply a i (hs (i 0)).1, sge_zero_of_nonneg (hs (i 0)).1, sle_last_of_lt (hs (i 0)).2]
  rfl

/-- With every source word in range the taken row `e` is the table's row `src e`. -/
theorem taken_apply (x : S50000x128.Idx → EReal) (a : IVec S800000 32)
    (hs : ∀ e : Fin 800000, 0 ≤ (a (ix1 e)).toInt ∧ (a (ix1 e)).toInt < 50000) (e : Fin 800000) (j : Fin 128) :
    taken x a (ix2 e j) = x (ix2 (GnnIn.src a e) j) := by
  unfold taken
  rw [select_apply]
  have hm : broadcastInDim S800000x128 ![0] bcast_S800000_S800000x128_0 (takeOk a) (ix2 e j) = 1#1 :=
    (broadcastInDim_apply _ bcast_S800000_S800000x128_0 (takeOk a) (ix2 e j) (ix1 e) (fun b => match b with
      | ⟨0, _⟩ => by show e.val = if (800000 : ℕ) = 1 then 0 else e.val; rw [if_neg (by decide)])).trans
      (takeOk_eq_one a hs (ix1 e))
  rw [hm, select_one,
    Cert.LibRows.gather_rows_apply gather_S50000x128_S800000x1_S800000x128_1_0_n_n_0_1_1128 rfl rfl rfl rfl rfl x
      (takeIdx a) e j (by decide)]
  have hi : takeIdx a (ix2 e (0 : Fin 1)) = a (ix1 e) := takeIdx_apply a (ix2 e (0 : Fin 1)) (hs e).1
  refine congrArg x (congrArg (fun r : Fin 50000 => ix2 r j) (Fin.ext ?_))
  show min (takeIdx a (ix2 e (0 : Fin 1))).toInt.toNat (50000 - 1) = min (a (ix1 e)).toInt.toNat 49999
  rw [hi]

/-- The neighbour sum: onto zeros, over the edges whose destination word reads `n`, the table's row `src e`. -/
theorem scatter_taken_apply (x : S50000x128.Idx → EReal) (a10 a11 : IVec S800000 32)
    (hs : ∀ e : Fin 800000, 0 ≤ (a10 (ix1 e)).toInt ∧ (a10 (ix1 e)).toInt < 50000) (n : Fin 50000) (j : Fin 128) :
    (Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 a11) (taken x a10) : S50000x128.Idx → EReal) (ix2 n j)
      = 0 + ∑ e ∈ GnnIn.into a11 n, x (ix2 (GnnIn.src a10 e) j) := by
  rw [Cert.LibRows.scatterAdd_rows_apply scatter_S50000x128_S800000x1_S800000x128_1_0_0_1 rfl rfl rfl rfl]
  have h0 : broadcastInDim S50000x128 ![] bcast_S_S50000x128 (constant (F := Ideal) S_ .f32 0x00000000#32) (ix2 n j)
      = (0 : EReal) := Ideal.ofBits_zero_f32
  have hd : ∀ e : Fin 800000,
      broadcastInDim S800000x1 ![0] bcast_S800000_S800000x1_0 a11 (ix2 e (0 : Fin 1)) = a11 (ix1 e) := fun e =>
    broadcastInDim_apply _ bcast_S800000_S800000x1_0 a11 (ix2 e (0 : Fin 1)) (ix1 e) (fun b => match b with
      | ⟨0, _⟩ => by show e.val = if (800000 : ℕ) = 1 then 0 else e.val; rw [if_neg (by decide)])
  rw [h0]
  refine congrArg (fun s : EReal => 0 + s) ?_
  unfold GnnIn.into
  refine Finset.sum_congr (Finset.filter_congr fun e _ => by rw [hd e]) fun e _ => taken_apply x a10 hs e j

/-- Contents moved to a typed reference's buffer type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- At a literal reference whose type is the value type by computation, reading at the value type changes nothing. -/
theorem ofBuf_v22 (v : (Proc.devRef (τ := τ) .tc main_v22).ty.Contents (Elt Ideal)) :
    (StableHlo.TRef.of main_v22 : StableHlo.TRef sig ⟨S800000x128, .f32⟩).ofBuf v = v := rfl
theorem ofBuf_v21_1 (v : (Proc.devRef (τ := τ) .tc main_v21_1).ty.Contents (Elt Ideal)) :
    (StableHlo.TRef.of main_v21_1 : StableHlo.TRef sig ⟨S50000x128, .f32⟩).ofBuf v = v := rfl
theorem ofBuf_arg10 (v : (Proc.devRef (τ := τ) .tc main_arg10).ty.Contents (Elt Ideal)) :
    (StableHlo.TRef.of main_arg10 : StableHlo.TRef sig ⟨S800000, .i32⟩).ofBuf v = v := rfl

/-- After the take's stretch, from any contents: the taken rows of the contents' table at the contents' source words
    (each read at its value type). -/
theorem after_take_v22 (V : Valuation τ sig (Elt Ideal)) :
    (StableHlo.TRef.of main_v22 : StableHlo.TRef sig ⟨S800000x128, .f32⟩).ofBuf
        (StableHlo.after hostOps1 V (Proc.devRef .tc main_v22))
      = taken ((StableHlo.TRef.of main_v21_1 : StableHlo.TRef sig ⟨S50000x128, .f32⟩).ofBuf (V (Proc.devRef .tc main_v21_1)))
          ((StableHlo.TRef.of main_arg10 : StableHlo.TRef sig ⟨S800000, .i32⟩).ofBuf (V (Proc.devRef .tc main_arg10))) := by
  unfold taken takeOk takeIdx
  after_results_simp
  simp only [ofBuf_toBuf]
/-- After the scatter's stretch, from any contents: the row scatter-add of the contents' taken rows, onto zeros, at the
    contents' destination words. -/
theorem after_scatter_v25 (V : Valuation τ sig (Elt Ideal)) :
    (StableHlo.after hostOps1_1 V (Proc.devRef .tc main_v25) : S50000x128.Idx → EReal)
      = Host.scatterAdd (F := Ideal) (φ := .f32) scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_arg11)))
          (V (Proc.devRef .tc main_v22)) := by
  after_results_simp

/-- Membership in no operation's writes, for every operation of a literal stretch. -/
local macro "unwritten " ops:ident : tactic =>
  `(tactic| exact List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- A buffer that is none of the first region's arrays and that no operation before the region writes holds, at the
    region's exit, what the launch gave it. -/
theorem W4_of_launch (c : Dev nD) (b : Ref sig .tc) (h : ∀ w, Pipeline.arrRef spec0 w ≠ b)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W4 m ρ c (Proc.devRef .tc b) = m ((c : Thread nD τ).loc b) :=
  calc W4 m ρ c (Proc.devRef .tc b)
    _ = W3 m ρ c (Proc.devRef .tc b) := W4_of_ne m ρ c b h
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- A buffer that no operation of a host stretch writes holds after the stretch what it held before. -/
local macro "kept_across " ops:ident : tactic =>
  `(tactic| exact StableHlo.after_of_forall_not_mem _ _ (by unwritten $ops:ident))

/-! ## The arguments the two stretches read, at the first region's exit: as launched -/

theorem W4_arg3 (c : Dev nD) : (W4 m ρ c (Proc.devRef .tc main_arg3) : S2x16x32.Idx → EReal) = a3 m c :=
  W4_of_launch m ρ c main_arg3 (by decide) (by unwritten hostOps0_2) (by unwritten hostOps0_1) (by unwritten hostOps0)

theorem W4_arg4 (c : Dev nD) : (W4 m ρ c (Proc.devRef .tc main_arg4) : S2x128x160.Idx → EReal) = a4 m c :=
  W4_of_launch m ρ c main_arg4 (by decide) (by unwritten hostOps0_2) (by unwritten hostOps0_1) (by unwritten hostOps0)

theorem W4_arg5 (c : Dev nD) : (W4 m ρ c (Proc.devRef .tc main_arg5) : S2x128.Idx → EReal) = a5 m c :=
  W4_of_launch m ρ c main_arg5 (by decide) (by unwritten hostOps0_2) (by unwritten hostOps0_1) (by unwritten hostOps0)

theorem W4_arg6 (c : Dev nD) : (W4 m ρ c (Proc.devRef .tc main_arg6) : S2x128x128.Idx → EReal) = a6 m c :=
  W4_of_launch m ρ c main_arg6 (by decide) (by unwritten hostOps0_2) (by unwritten hostOps0_1) (by unwritten hostOps0)

theorem W4_arg7 (c : Dev nD) : (W4 m ρ c (Proc.devRef .tc main_arg7) : S2x128.Idx → EReal) = a7 m c :=
  W4_of_launch m ρ c main_arg7 (by decide) (by unwritten hostOps0_2) (by unwritten hostOps0_1) (by unwritten hostOps0)

theorem W4_arg8 (c : Dev nD) : (W4 m ρ c (Proc.devRef .tc main_arg8) : S2x128x128.Idx → EReal) = a8 m c :=
  W4_of_launch m ρ c main_arg8 (by decide) (by unwritten hostOps0_2) (by unwritten hostOps0_1) (by unwritten hostOps0)

theorem W4_arg9 (c : Dev nD) : (W4 m ρ c (Proc.devRef .tc main_arg9) : S2x128.Idx → EReal) = a9 m c :=
  W4_of_launch m ρ c main_arg9 (by decide) (by unwritten hostOps0_2) (by unwritten hostOps0_1) (by unwritten hostOps0)

theorem W4_arg10 (c : Dev nD) : (W4 m ρ c (Proc.devRef .tc main_arg10) : S800000.Idx → BitVec 32) = a10 m c :=
  W4_of_launch m ρ c main_arg10 (by decide) (by unwritten hostOps0_2) (by unwritten hostOps0_1) (by unwritten hostOps0)

theorem W5_arg11 (c : Dev nD) : (W5 m ρ c (Proc.devRef .tc main_arg11) : S800000.Idx → BitVec 32) = a11 m c :=
  calc W5 m ρ c (Proc.devRef .tc main_arg11)
    _ = W4 m ρ c (Proc.devRef .tc main_arg11) := StableHlo.after_of_forall_not_mem _ _ (by unwritten hostOps1)
    _ = a11 m c :=
      W4_of_launch m ρ c main_arg11 (by decide) (by unwritten hostOps0_2) (by unwritten hostOps0_1) (by unwritten hostOps0)

/-! ## Each buffer the second region is entered from -/

theorem v21_0 (c : Dev nD) :
    rd S50000x128 (V6 m ρ c main_v21_0) = rd S50000x128 ((dat0 (F := Ideal) (V3 m ρ) c).arrAt 5 cfg0.N) :=
  calc W6 m ρ c (Proc.devRef .tc main_v21_0)
    _ = W5 m ρ c (Proc.devRef .tc main_v21_0) := by kept_across hostOps1_1
    _ = W4 m ρ c (Proc.devRef .tc main_v21_0) := by kept_across hostOps1
    _ = (dat0 (F := Ideal) (V3 m ρ) c).arrAt 5 cfg0.N := W4_arr m ρ c 5

theorem v11 (c : Dev nD) : rd S50000x16 (V6 m ρ c main_v11) = rd S50000x16 (V3 m ρ c main_v11) :=
  calc W6 m ρ c (Proc.devRef .tc main_v11)
    _ = W5 m ρ c (Proc.devRef .tc main_v11) := by kept_across hostOps1_1
    _ = W4 m ρ c (Proc.devRef .tc main_v11) := by kept_across hostOps1
    _ = W3 m ρ c (Proc.devRef .tc main_v11) := W4_of_ne m ρ c main_v11 (by decide)

theorem v7 (c : Dev nD) : rd S50000x1 (V6 m ρ c main_v7) = rd S50000x1 (V3 m ρ c main_v7) :=
  calc W6 m ρ c (Proc.devRef .tc main_v7)
    _ = W5 m ρ c (Proc.devRef .tc main_v7) := by kept_across hostOps1_1
    _ = W4 m ρ c (Proc.devRef .tc main_v7) := by kept_across hostOps1
    _ = W3 m ρ c (Proc.devRef .tc main_v7) := W4_of_ne m ρ c main_v7 (by decide)

theorem v25 (c : Dev nD) (hs : ∀ e : Fin 800000, 0 ≤ (a10 m c (ix1 e)).toInt ∧ (a10 m c (ix1 e)).toInt < 50000)
    (n : Fin 50000) (j : Fin 128) :
    rd S50000x128 (V6 m ρ c main_v25) (ix2 n j)
      = 0 + ∑ e ∈ GnnIn.into (a11 m c) n,
          rd S50000x128 ((dat0 (F := Ideal) (V3 m ρ) c).arrAt 6 cfg0.N) (ix2 (GnnIn.src (a10 m c) e) j) := by
  have e22 : (W5 m ρ c (Proc.devRef .tc main_v22) : S800000x128.Idx → EReal)
      = taken ((dat0 (F := Ideal) (V3 m ρ) c).arrAt 6 cfg0.N) (a10 m c) :=
    calc (W5 m ρ c (Proc.devRef .tc main_v22) : S800000x128.Idx → EReal)
      _ = (StableHlo.TRef.of main_v22 : StableHlo.TRef sig ⟨S800000x128, .f32⟩).ofBuf
            (StableHlo.after hostOps1 (W4 m ρ c) (Proc.devRef .tc main_v22)) := (ofBuf_v22 _).symm
      _ = taken
            ((StableHlo.TRef.of main_v21_1 : StableHlo.TRef sig ⟨S50000x128, .f32⟩).ofBuf
              (W4 m ρ c (Proc.devRef .tc main_v21_1)))
            ((StableHlo.TRef.of main_arg10 : StableHlo.TRef sig ⟨S800000, .i32⟩).ofBuf
              (W4 m ρ c (Proc.devRef .tc main_arg10))) := after_take_v22 (W4 m ρ c)
      _ = taken (W4 m ρ c (Proc.devRef .tc main_v21_1)) (W4 m ρ c (Proc.devRef .tc main_arg10)) :=
        congrArg₂ taken (ofBuf_v21_1 _) (ofBuf_arg10 _)
      _ = taken ((dat0 (F := Ideal) (V3 m ρ) c).arrAt 6 cfg0.N) (a10 m c) :=
        congrArg₂ taken (W4_arr m ρ c 6) (W4_arg10 m ρ c)
  have e25 := after_scatter_v25 (W5 m ρ c)
  rw [W5_arg11, e22] at e25
  show (StableHlo.after hostOps1_1 (W5 m ρ c) (Proc.devRef .tc main_v25) : S50000x128.Idx → EReal) (ix2 n j) = _
  rw [e25]
  exact scatter_taken_apply _ (a10 m c) (a11 m c) hs n j

theorem v35 (c : Dev nD) (k j : Fin 128) : rd S128x128 (V6 m ρ c main_v35) (ix2 k j) = a6 m c (ix3 0 j k) := by
  have e : (W6 m ρ c (Proc.devRef .tc main_v35) : _)
      = transpose S128x128 [1, 0]
          (shapeCast S128x128
            (extractStridedSlice S1x128x128 ![0, 0, 0] (W4 m ρ c (Proc.devRef .tc main_arg6)) slices_S2x128x128_S1x128x128_0_0_0)
            shapeCasts_S1x128x128_S128x128)
          transposes_S128x128_S128x128_1_0 := by
    show StableHlo.after hostOps1_1 (W5 m ρ c) (Proc.devRef .tc main_v35) = _
    after_results
    rfl
  show (W6 m ρ c (Proc.devRef .tc main_v35) : _) _ = _
  rw [e, W4_arg6]
  exact layer0_transposed_apply (a6 m c) k j

theorem v38 (c : Dev nD) (k j : Fin 128) : rd S128x128 (V6 m ρ c main_v38) (ix2 k j) = a8 m c (ix3 0 j k) := by
  have e : (W6 m ρ c (Proc.devRef .tc main_v38) : _)
      = transpose S128x128 [1, 0]
          (shapeCast S128x128
            (extractStridedSlice S1x128x128 ![0, 0, 0] (W4 m ρ c (Proc.devRef .tc main_arg8)) slices_S2x128x128_S1x128x128_0_0_0)
            shapeCasts_S1x128x128_S128x128)
          transposes_S128x128_S128x128_1_0 := by
    show StableHlo.after hostOps1_1 (W5 m ρ c) (Proc.devRef .tc main_v38) = _
    after_results
    rfl
  show (W6 m ρ c (Proc.devRef .tc main_v38) : _) _ = _
  rw [e, W4_arg8]
  exact layer0_transposed_apply (a8 m c) k j

theorem v45 (c : Dev nD) (j : Fin 128) : rd S1x128 (V6 m ρ c main_v45) (ix2 0 j) = a7 m c (ix2 0 j) := by
  have e : (W6 m ρ c (Proc.devRef .tc main_v45) : _)
      = shapeCast S1x128
          (shapeCast S128 (extractStridedSlice S1x128 ![0, 0] (W4 m ρ c (Proc.devRef .tc main_arg7)) slices_S2x128_S1x128_0_0)
            shapeCasts_S1x128_S128)
          shapeCasts_S128_S1x128 := by
    show StableHlo.after hostOps1_1 (W5 m ρ c) (Proc.devRef .tc main_v45) = _
    after_results
    rfl
  show (W6 m ρ c (Proc.devRef .tc main_v45) : _) _ = _
  rw [e, W4_arg7]
  exact row0_apply (a7 m c) j

theorem v48 (c : Dev nD) (j : Fin 128) : rd S1x128 (V6 m ρ c main_v48) (ix2 0 j) = a9 m c (ix2 0 j) := by
  have e : (W6 m ρ c (Proc.devRef .tc main_v48) : _)
      = shapeCast S1x128
          (shapeCast S128 (extractStridedSlice S1x128 ![0, 0] (W4 m ρ c (Proc.devRef .tc main_arg9)) slices_S2x128_S1x128_0_0)
            shapeCasts_S1x128_S128)
          shapeCasts_S128_S1x128 := by
    show StableHlo.after hostOps1_1 (W5 m ρ c) (Proc.devRef .tc main_v48) = _
    after_results
    rfl
  show (W6 m ρ c (Proc.devRef .tc main_v48) : _) _ = _
  rw [e, W4_arg9]
  exact row0_apply (a9 m c) j

theorem v51 (c : Dev nD) (j : Fin 128) : rd S1x128 (V6 m ρ c main_v51) (ix2 0 j) = a5 m c (ix2 1 j) := by
  have e : (W6 m ρ c (Proc.devRef .tc main_v51) : _)
      = shapeCast S1x128
          (shapeCast S128 (extractStridedSlice S1x128 ![1, 0] (W4 m ρ c (Proc.devRef .tc main_arg5)) slices_S2x128_S1x128_1_0)
            shapeCasts_S1x128_S128)
          shapeCasts_S128_S1x128 := by
    show StableHlo.after hostOps1_1 (W5 m ρ c) (Proc.devRef .tc main_v51) = _
    after_results
    rfl
  show (W6 m ρ c (Proc.devRef .tc main_v51) : _) _ = _
  rw [e, W4_arg5]
  exact row1_apply (a5 m c) j

theorem v42 (c : Dev nD) (k j : Fin 128) : rd S128x128 (V6 m ρ c main_v42) (ix2 k j) = a4 m c (ix3 1 j (lo k)) := by
  have e : (W6 m ρ c (Proc.devRef .tc main_v42) : _)
      = transpose S128x128 [1, 0]
          (extractStridedSlice S128x128 ![0, 0]
            (shapeCast S128x160
              (extractStridedSlice S1x128x160 ![1, 0, 0] (W4 m ρ c (Proc.devRef .tc main_arg4)) slices_S2x128x160_S1x128x160_1_0_0)
              shapeCasts_S1x128x160_S128x160)
            slices_S128x160_S128x128_0_0)
          transposes_S128x128_S128x128_1_0 := by
    show StableHlo.after hostOps1_1 (W5 m ρ c) (Proc.devRef .tc main_v42) = _
    after_results
    rfl
  show (W6 m ρ c (Proc.devRef .tc main_v42) : _) _ = _
  rw [e, W4_arg4]
  exact layer1_lo_transposed_apply (a4 m c) k j

theorem v32 (c : Dev nD) (r : Fin 16) (j : Fin 128) :
    rd S16x128 (V6 m ρ c main_v32) (ix2 r j) = ∑ k : Fin 32, a3 m c (ix3 0 r k) * a4 m c (ix3 0 j (hi k)) := by
  have e : (W6 m ρ c (Proc.devRef .tc main_v32) : S16x128.Idx → EReal)
      = Host.dotGeneral (F := Ideal) (φ₁ := .f32) (φ₂ := .f32) dot_S16x32_S32x128_S16x128_1_0_0_1_n_n none
          (shapeCast S16x32
            (extractStridedSlice S1x16x32 ![0, 0, 0] (W4 m ρ c (Proc.devRef .tc main_arg3)) slices_S2x16x32_S1x16x32_0_0_0)
            shapeCasts_S1x16x32_S16x32)
          (transpose S32x128 [1, 0]
            (extractStridedSlice S128x32 ![0, 128]
              (shapeCast S128x160
                (extractStridedSlice S1x128x160 ![0, 0, 0] (W4 m ρ c (Proc.devRef .tc main_arg4)) slices_S2x128x160_S1x128x160_0_0_0)
                shapeCasts_S1x128x160_S128x160)
              slices_S128x160_S128x32_0_128)
            transposes_S128x32_S32x128_1_0) := by
    show StableHlo.after hostOps1_1 (W5 m ρ c) (Proc.devRef .tc main_v32) = _
    after_results
    rfl
  show (W6 m ρ c (Proc.devRef .tc main_v32) : S16x128.Idx → EReal) (ix2 r j) = _
  rw [e, W4_arg3, W4_arg4]
  refine (dot16_apply _ _ r j).trans ?_
  refine Finset.sum_congr rfl fun k _ => ?_
  rw [rel0_apply, layer0_hi_transposed_apply]

end Aux1

/-- The node rows are the previous region's first output array. -/
theorem V6_v21_0 (c : Dev nD) :
    rd S50000x128 (V6 m ρ c main_v21_0) = rd S50000x128 ((dat0 (F := Ideal) (V3 m ρ) c).arrAt 5 cfg0.N) :=
  Aux1.v21_0 m ρ c

/-- The neighbour sum: onto zeros, the previous region's second output row `src e` summed over the edges landing on `n`
    (the source words in range). -/
theorem V6_v25 (c : Dev nD) (hs : ∀ e : Fin 800000, 0 ≤ (a10 m c (ix1 e)).toInt ∧ (a10 m c (ix1 e)).toInt < 50000)
    (n : Fin 50000) (j : Fin 128) :
    rd S50000x128 (V6 m ρ c main_v25) (ix2 n j)
      = 0 + ∑ e ∈ GnnIn.into (a11 m c) n,
          rd S50000x128 ((dat0 (F := Ideal) (V3 m ρ) c).arrAt 6 cfg0.N) (ix2 (GnnIn.src (a10 m c) e) j) :=
  Aux1.v25 m ρ c hs n j

/-- The relation counts are carried unchanged from before the first region. -/
theorem V6_v11 (c : Dev nD) : rd S50000x16 (V6 m ρ c main_v11) = rd S50000x16 (V3 m ρ c main_v11) :=
  Aux1.v11 m ρ c

/-- So is the reciprocal normaliser. -/
theorem V6_v7 (c : Dev nD) : rd S50000x1 (V6 m ρ c main_v7) = rd S50000x1 (V3 m ρ c main_v7) :=
  Aux1.v7 m ρ c

/-- The self matrix transposed: entry `(k, j)` is `SW[0, j, k]`. -/
theorem V6_v35 (c : Dev nD) (k j : Fin 128) : rd S128x128 (V6 m ρ c main_v35) (ix2 k j) = a6 m c (ix3 0 j k) :=
  Aux1.v35 m ρ c k j

/-- The self bias as a row. -/
theorem V6_v45 (c : Dev nD) (j : Fin 128) : rd S1x128 (V6 m ρ c main_v45) (ix2 0 j) = a7 m c (ix2 0 j) :=
  Aux1.v45 m ρ c j

/-- The neighbour matrix transposed: entry `(k, j)` is `NW[0, j, k]`. -/
theorem V6_v38 (c : Dev nD) (k j : Fin 128) : rd S128x128 (V6 m ρ c main_v38) (ix2 k j) = a8 m c (ix3 0 j k) :=
  Aux1.v38 m ρ c k j

/-- The neighbour bias as a row. -/
theorem V6_v48 (c : Dev nD) (j : Fin 128) : rd S1x128 (V6 m ρ c main_v48) (ix2 0 j) = a9 m c (ix2 0 j) :=
  Aux1.v48 m ρ c j

/-- The relation table: relation `r`'s embedding through the layer's last 32 message columns. -/
theorem V6_v32 (c : Dev nD) (r : Fin 16) (j : Fin 128) :
    rd S16x128 (V6 m ρ c main_v32) (ix2 r j) = ∑ k : Fin 32, a3 m c (ix3 0 r k) * a4 m c (ix3 0 j (hi k)) :=
  Aux1.v32 m ρ c r j

/-- The next layer's first 128 message columns, transposed: entry `(k, j)` is `MW[1, j, k]`. -/
theorem V6_v42 (c : Dev nD) (k j : Fin 128) : rd S128x128 (V6 m ρ c main_v42) (ix2 k j) = a4 m c (ix3 1 j (lo k)) :=
  Aux1.v42 m ρ c k j

/-- The next layer's message bias as a row. -/
theorem V6_v51 (c : Dev nD) (j : Fin 128) : rd S1x128 (V6 m ρ c main_v51) (ix2 0 j) = a5 m c (ix2 1 j) :=
  Aux1.v51 m ρ c j

end Cert.KernelIdeal.HostVal

end
-- ==== Proof.KHost2.lean ====
/-
  What the third kernel region finds at entry: the previous region's outputs, the host operations between, read at an index.
  The neighbour sum of the previous region's projected rows; the layer's transposed weights, bias rows and relation table by
  coordinates; the reciprocal normaliser and relation counts carried unchanged from before the first region.
-/
import proofs.«412633_j14216341749899_2_alg».proof.Proof.Gen.KernelIdeal.Frame
import proofs.«412633_j14216341749899_2_alg».proof.Proof.GnnInputs
import proofs.«412633_j14216341749899_2_alg».proof.Proof.KernelArgs
import proofs.«412633_j14216341749899_2_alg».proof.Proof.LibRows
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators

/-! # Auxiliary facts: layout chains, the contraction, the row take and segment sum, the carried buffers -/

namespace Cert.KernelIdeal.HostVal.Aux2

open Cert.KernelIdeal Cert.KernelIdeal.Gen Cert.KernelIdeal.HostVal
open Idealize.ShloMosaic Idealize.ShloMosaic.TcCoe Idealize.ShloMosaic.ValueIdx Idealize.SL.Sem
open Cert.GnnSpec (rd lo hi)

/-- A buffer that none of a stretch's operations writes keeps its contents across the stretch. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The layout chains read at coordinates, over any arrays -/

/-- Layer 1's plane of a stack of two square matrices, transposed: entry `(k, j)` is the stack's `(1, j, k)`. -/
theorem plane1_T_apply (x : S2x128x128.Idx → EReal) (k j : Fin 128) :
    transpose S128x128 [1, 0]
        (shapeCast S128x128 (extractStridedSlice S1x128x128 ![1, 0, 0] x slices_S2x128x128_S1x128x128_1_0_0)
          shapeCasts_S1x128x128_S128x128)
        transposes_S128x128_S128x128_1_0 (ix2 k j)
      = x (ix3 1 j k) := by
  refine (transpose_apply [1, 0] _ transposes_S128x128_S128x128_1_0 (ix2 k j) (ix2 j k) (fun b => match b with
    | ⟨0, _⟩ => rfl
    | ⟨1, _⟩ => rfl)).trans ?_
  refine (shapeCast_apply _ shapeCasts_S1x128x128_S128x128 (ix2 j k) (ix3 (0 : Fin 1) j k) (by
    rewrite [Shape.rowMajor_val_three, Shape.rowMajor_val_two]
    show (0 * 128 + j.val) * 128 + k.val = j.val * 128 + k.val
    omega)).trans ?_
  exact extractStridedSlice_apply ![1, 0, 0] x slices_S2x128x128_S1x128x128_1_0_0 (ix3 (0 : Fin 1) j k) (ix3 1 j k)
    (fun a => match a with
      | ⟨0, _⟩ => by show (1 : Nat) = 1 + 0; omega
      | ⟨1, _⟩ => by show j.val = 0 + j.val; omega
      | ⟨2, _⟩ => by show k.val = 0 + k.val; omega)

/-- Layer 1's row of a stack of two rows, flattened and set back as a one-row matrix: entry `(0, j)` is the stack's `(1, j)`. -/
theorem row1_apply (x : S2x128.Idx → EReal) (j : Fin 128) :
    shapeCast S1x128
        (shapeCast S128 (extractStridedSlice S1x128 ![1, 0] x slices_S2x128_S1x128_1_0) shapeCasts_S1x128_S128)
        shapeCasts_S128_S1x128 (ix2 (0 : Fin 1) j)
      = x (ix2 1 j) := by
  refine (shapeCast_apply _ shapeCasts_S128_S1x128 (ix2 (0 : Fin 1) j) (ix1 j) (by
    rewrite [Shape.rowMajor_val_one, Shape.rowMajor_val_two]
    show j.val = 0 * 128 + j.val
    omega)).trans ?_
  refine (shapeCast_apply _ shapeCasts_S1x128_S128 (ix1 j) (ix2 (0 : Fin 1) j) (by
    rewrite [Shape.rowMajor_val_two, Shape.rowMajor_val_one]
    show 0 * 128 + j.val = j.val
    omega)).trans ?_
  exact extractStridedSlice_apply ![1, 0] x slices_S2x128_S1x128_1_0 (ix2 (0 : Fin 1) j) (ix2 1 j)
    (fun a => match a with
      | ⟨0, _⟩ => by show (1 : Nat) = 1 + 0; omega
      | ⟨1, _⟩ => by show j.val = 0 + j.val; omega)

/-! ## The relation table's contraction -/

/-- Layer 1's plane of the relation embeddings: entry `(r, k)` is the stack's `(1, r, k)`. -/
theorem rel1_apply (x : S2x16x32.Idx → EReal) (r : Fin 16) (k : Fin 32) :
    shapeCast S16x32 (extractStridedSlice S1x16x32 ![1, 0, 0] x slices_S2x16x32_S1x16x32_1_0_0)
        shapeCasts_S1x16x32_S16x32 (ix2 r k)
      = x (ix3 1 r k) := by
  refine (shapeCast_apply _ shapeCasts_S1x16x32_S16x32 (ix2 r k) (ix3 (0 : Fin 1) r k) (by
    rewrite [Shape.rowMajor_val_three, Shape.rowMajor_val_two]
    show (0 * 16 + r.val) * 32 + k.val = r.val * 32 + k.val
    omega)).trans ?_
  exact extractStridedSlice_apply ![1, 0, 0] x slices_S2x16x32_S1x16x32_1_0_0 (ix3 (0 : Fin 1) r k) (ix3 1 r k)
    (fun a => match a with
      | ⟨0, _⟩ => by show (1 : Nat) = 1 + 0; omega
      | ⟨1, _⟩ => by show r.val = 0 + r.val; omega
      | ⟨2, _⟩ => by show k.val = 0 + k.val; omega)

/-- Layer 1's message matrix, its last 32 columns, transposed: entry `(k, j)` is the stack's `(1, j, 128 + k)`. -/
theorem msgHi_T_apply (x : S2x128x160.Idx → EReal) (k : Fin 32) (j : Fin 128) :
    transpose S32x128 [1, 0]
        (extractStridedSlice S128x32 ![0, 128]
          (shapeCast S128x160 (extractStridedSlice S1x128x160 ![1, 0, 0] x slices_S2x128x160_S1x128x160_1_0_0)
            shapeCasts_S1x128x160_S128x160)
          slices_S128x160_S128x32_0_128)
        transposes_S128x32_S32x128_1_0 (ix2 k j)
      = x (ix3 1 j (hi k)) := by
  refine (transpose_apply [1, 0] _ transposes_S128x32_S32x128_1_0 (ix2 k j) (ix2 j k) (fun b => match b with
    | ⟨0, _⟩ => rfl
    | ⟨1, _⟩ => rfl)).trans ?_
  refine (extractStridedSlice_apply ![0, 128] _ slices_S128x160_S128x32_0_128 (ix2 j k) (ix2 j (hi k))
    (fun a => match a with
      | ⟨0, _⟩ => by show j.val = 0 + j.val; omega
      | ⟨1, _⟩ => by show 128 + k.val = 128 + k.val; rfl)).trans ?_
  refine (shapeCast_apply _ shapeCasts_S1x128x160_S128x160 (ix2 j (hi k)) (ix3 (0 : Fin 1) j (hi k)) (by
    rewrite [Shape.rowMajor_val_three, Shape.rowMajor_val_two]
    show (0 * 128 + j.val) * 160 + (128 + k.val) = j.val * 160 + (128 + k.val)
    omega)).trans ?_
  exact extractStridedSlice_apply ![1, 0, 0] x slices_S2x128x160_S1x128x160_1_0_0 (ix3 (0 : Fin 1) j (hi k)) (ix3 1 j (hi k))
    (fun a => match a with
      | ⟨0, _⟩ => by show (1 : Nat) = 1 + 0; omega
      | ⟨1, _⟩ => by show j.val = 0 + j.val; omega
      | ⟨2, _⟩ => by show 128 + k.val = 0 + (128 + k.val); omega)

/-- A [16 × 32] by [32 × 128] product at the ideal instance, entry `(r, j)`: the sum over the 32 contracted positions. -/
theorem dot_16_32_128_apply (l : FVec Ideal S16x32 .f32) (rr : FVec Ideal S32x128 .f32) (r : Fin 16) (j : Fin 128) :
    (Host.dotGeneral dot_S16x32_S32x128_S16x128_1_0_0_1_n_n none l rr : FVec Ideal S16x128 .f32) (ix2 r j)
      = ∑ k : Fin 32, l (ix2 r k) * rr (ix2 k j) := by
  simp only [Host.dotGeneral]
  rw [Ideal.dotGeneral_apply, ← Equiv.sum_comp (ValueIdx.contrEquiv1 dot_S16x32_S32x128_S16x128_1_0_0_1_n_n 32 rfl rfl).symm]
  refine Finset.sum_congr rfl fun k _ => ?_
  have hk := ValueIdx.contrEquiv1_symm_val dot_S16x32_S32x128_S16x128_1_0_0_1_n_n 32 rfl rfl k
  have l0 : ∀ q, (dot_S16x32_S32x128_S16x128_1_0_0_1_n_n.lhsIdx (ix2 r j) q 0).val = r.val := fun q => by
    unfold DotDims.lhsIdx
    rw [dif_neg (show ¬(0 : Fin S16x32.rank) ∈ dot_S16x32_S32x128_S16x128_1_0_0_1_n_n.lhsBatch by decide),
      dif_pos (show (0 : Fin S16x32.rank) ∈ dot_S16x32_S32x128_S16x128_1_0_0_1_n_n.lhsNonContracting by decide)]
    rfl
  have r1 : ∀ q, (dot_S16x32_S32x128_S16x128_1_0_0_1_n_n.rhsIdx (ix2 r j) q 1).val = j.val := fun q => by
    unfold DotDims.rhsIdx
    rw [dif_neg (show ¬(1 : Fin S32x128.rank) ∈ dot_S16x32_S32x128_S16x128_1_0_0_1_n_n.rhsBatch by decide),
      dif_pos (show (1 : Fin S32x128.rank) ∈ dot_S16x32_S32x128_S16x128_1_0_0_1_n_n.rhsNonContracting by decide)]
    rfl
  have el : dot_S16x32_S32x128_S16x128_1_0_0_1_n_n.lhsIdx (ix2 r j)
      ((ValueIdx.contrEquiv1 dot_S16x32_S32x128_S16x128_1_0_0_1_n_n 32 rfl rfl).symm k) = ix2 r k :=
    funext fun a => Fin.ext (by
      match a with
      | ⟨0, _⟩ => exact l0 _
      | ⟨1, _⟩ => exact (dot_S16x32_S32x128_S16x128_1_0_0_1_n_n.lhsIdx_val_of_single rfl _ _).trans hk)
  have er : dot_S16x32_S32x128_S16x128_1_0_0_1_n_n.rhsIdx (ix2 r j)
      ((ValueIdx.contrEquiv1 dot_S16x32_S32x128_S16x128_1_0_0_1_n_n 32 rfl rfl).symm k) = ix2 k j :=
    funext fun a => Fin.ext (by
      match a with
      | ⟨0, _⟩ => exact (dot_S16x32_S32x128_S16x128_1_0_0_1_n_n.rhsIdx_val_of_single rfl _ _).trans hk
      | ⟨1, _⟩ => exact r1 _)
  rw [el, er]

/-! ## The row take and the segment sum, over any arrays -/

/-- The source words made nonnegative (a negative word moved up by the table's height), as a column. -/
def takeIdx (A : S800000.Idx → BitVec 32) : S800000x1.Idx → BitVec 32 :=
  broadcastInDim S800000x1 ![0] bcast_S800000_S800000x1_0
    (select (cmpi .slt A (broadcastInDim S800000 ![] bcast_S_S800000 (constantI S_ 32 0#32)))
      (addi A (broadcastInDim S800000 ![] bcast_S_S800000 (constantI S_ 32 50000#32))) A)

/-- Per edge, whether the moved source word lies inside the table: the conjunction over the index column's one entry. -/
def takeMask (A : S800000.Idx → BitVec 32) : S800000.Idx → BitVec 1 :=
  Host.reduce IntOp.andi
    (andi (cmpi .sge (takeIdx A) (broadcastInDim S800000x1 ![] bcast_S_S800000x1 (constantI S_ 32 0#32)))
      (cmpi .sle (takeIdx A)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The rows of a table taken at the source words: the gathered row where the word is inside the table, a fill value elsewhere. -/
def takeRows (T : S50000x128.Idx → EReal) (A : S800000.Idx → BitVec 32) : S800000x128.Idx → EReal :=
  select (broadcastInDim S800000x128 ![0] bcast_S800000_S800000x128_0 (takeMask A))
    (Host.gather gather_S50000x128_S800000x1_S800000x128_1_0_n_n_0_1_1128 T (takeIdx A))
    (broadcastInDim S800000x128 ![] bcast_S_S800000x128 (constant (F := Ideal) S_ .f32 0x7FC00000#32))

/-- A nonnegative word is not below zero. -/
theorem slt_zero_bit (a : BitVec 32) (h : 0 ≤ a.toInt) : IntOp.cmpi .slt a 0#32 = 0#1 := by
  show BitVec.ofBool (a.slt 0#32) = 0#1
  have hb : a.slt 0#32 = false := by
    rw [BitVec.slt_eq_decide, BitVec.toInt_zero]
    exact decide_eq_false (by omega)
  rw [hb]
  rfl

/-- A nonnegative word is at least zero. -/
theorem sge_zero_bit (a : BitVec 32) (h : 0 ≤ a.toInt) : IntOp.cmpi .sge a 0#32 = 1#1 := by
  show BitVec.ofBool ((0#32 : BitVec 32).sle a) = 1#1
  have hb : (0#32 : BitVec 32).sle a = true := by
    rw [BitVec.sle_eq_decide, BitVec.toInt_zero]
    exact decide_eq_true h
  rw [hb]
  rfl

/-- A word below the table's height is at most the last row. -/
theorem sle_last_bit (a : BitVec 32) (h : a.toInt < 50000) : IntOp.cmpi .sle a 49999#32 = 1#1 := by
  show BitVec.ofBool (a.sle 49999#32) = 1#1
  have h9 : (49999#32 : BitVec 32).toInt = 49999 := by decide
  have hb : a.sle 49999#32 = true := by
    rw [BitVec.sle_eq_decide, h9]
    exact decide_eq_true (by omega)
  rw [hb]
  rfl

/-- A conjunction of one-bit words, folded from 1 over a list of 1s, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A conjunction-reduce from 1 of an array of 1s is 1 everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun i _ => hx i

section InRange
variable (A : S800000.Idx → BitVec 32)
  (hs : ∀ e : Fin 800000, 0 ≤ (A (ix1 e)).toInt ∧ (A (ix1 e)).toInt < 50000)
include hs

/-- In range, the moved source word is the source word. -/
theorem takeIdx_apply (e : Fin 800000) : takeIdx A (ix2 e (0 : Fin 1)) = A (ix1 e) := by
  unfold takeIdx
  refine (broadcastInDim_apply ![0] bcast_S800000_S800000x1_0 _ (ix2 e (0 : Fin 1)) (ix1 e) (fun a => match a with
    | ⟨0, _⟩ => by show e.val = if (800000 : Nat) = 1 then 0 else e.val; rw [if_neg (by decide)])).trans ?_
  show Scalar.select (IntOp.cmpi .slt (A (ix1 e)) 0#32) (IntOp.addi (A (ix1 e)) 50000#32) (A (ix1 e)) = A (ix1 e)
  rw [slt_zero_bit _ (hs e).1, select_zero]

/-- In range, every edge's mask bit is set. -/
theorem takeMask_apply (e : Fin 800000) : takeMask A (ix1 e) = 1#1 := by
  unfold takeMask
  refine reduce_andi_ones _ _ _ _ _ rfl fun i => ?_
  obtain ⟨p, q, rfl⟩ : ∃ p q, i = ix2 p q := ⟨i 0, i 1, eq_ix2 i⟩
  obtain rfl : q = 0 := Subsingleton.elim _ _
  show IntOp.andi (IntOp.cmpi .sge (takeIdx A (ix2 p (0 : Fin 1))) 0#32)
      (IntOp.cmpi .sle (takeIdx A (ix2 p (0 : Fin 1))) 49999#32) = 1#1
  rw [takeIdx_apply A hs p, sge_zero_bit _ (hs p).1, sle_last_bit _ (hs p).2]
  rfl

/-- In range, edge `e`'s taken row is the table's row `src e`. -/
theorem takeRows_apply (T : S50000x128.Idx → EReal) (e : Fin 800000) (j : Fin 128) :
    takeRows T A (ix2 e j) = T (ix2 (GnnIn.src A e) j) := by
  unfold takeRows
  have hm : broadcastInDim S800000x128 ![0] bcast_S800000_S800000x128_0 (takeMask A) (ix2 e j) = 1#1 :=
    (broadcastInDim_apply ![0] bcast_S800000_S800000x128_0 _ (ix2 e j) (ix1 e) (fun a => match a with
      | ⟨0, _⟩ => by show e.val = if (800000 : Nat) = 1 then 0 else e.val; rw [if_neg (by decide)])).trans
      (takeMask_apply A hs e)
  rw [select_apply, hm, select_one,
    LibRows.gather_rows_apply _ rfl rfl rfl rfl rfl T (takeIdx A) e j (by decide)]
  refine congrArg (fun r : Fin 50000 => T (ix2 r j)) (Fin.ext ?_)
  show min (takeIdx A (ix2 e (0 : Fin 1))).toInt.toNat (50000 - 1) = (GnnIn.src A e).val
  rw [takeIdx_apply A hs e]
  rfl

end InRange

/-- The segment sum of the taken rows, onto zeros: at `(n, j)`, zero plus the table's rows `src e` at column `j` summed over
    the edges whose destination word, read signed, is `n`. -/
theorem segSum_apply (T : S50000x128.Idx → EReal) (A B : S800000.Idx → BitVec 32)
    (hs : ∀ e : Fin 800000, 0 ≤ (A (ix1 e)).toInt ∧ (A (ix1 e)).toInt < 50000) (n : Fin 50000) (j : Fin 128) :
    (Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 B)
        (takeRows T A) : S50000x128.Idx → EReal) (ix2 n j)
      = 0 + ∑ e ∈ GnnIn.into B n, T (ix2 (GnnIn.src A e) j) := by
  rw [LibRows.scatterAdd_rows_apply _ rfl rfl rfl rfl]
  have hB : ∀ e : Fin 800000, broadcastInDim S800000x1 ![0] bcast_S800000_S800000x1_0 B (ix2 e (0 : Fin 1)) = B (ix1 e) := fun e =>
    broadcastInDim_apply ![0] bcast_S800000_S800000x1_0 _ (ix2 e (0 : Fin 1)) (ix1 e) (fun a => match a with
      | ⟨0, _⟩ => by show e.val = if (800000 : Nat) = 1 then 0 else e.val; rw [if_neg (by decide)])
  have h0 : broadcastInDim S50000x128 ![] bcast_S_S50000x128 (constant (F := Ideal) S_ .f32 0x00000000#32) (ix2 n j) = (0 : EReal) :=
    Ideal.ofBits_zero_f32
  rw [h0]
  refine congrArg (fun z : EReal => 0 + z) ?_
  unfold GnnIn.into
  simp only [hB]
  exact Finset.sum_congr rfl fun e _ => takeRows_apply A hs T e j

/-! ## The take stretch from any contents: its first nineteen operations, then its last four -/

/-- The contents after a list of operations followed by another are those after the second from those after the first. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

section TakeStretch
variable (V : Valuation τ sig (Elt Ideal))

/-- After the first nineteen operations the mask buffer holds the per-edge mask of the source words. -/
theorem take_head_v12 :
    (StableHlo.after (List.take 19 hostOps2) V (Proc.devRef .tc main_call2_v12) : S800000.Idx → BitVec 1)
      = takeMask (V (Proc.devRef .tc main_arg10)) := by
  simp only [hostOps2, List.take_succ_cons, List.take_zero]
  after_results_simp
  simp only [StableHlo.TRef.ofBuf, StableHlo.TRef.toBuf, cast_eq]
  rfl

/-- After the first nineteen operations the gathered buffer holds the table's rows at the moved source words. -/
theorem take_head_v13 :
    (StableHlo.after (List.take 19 hostOps2) V (Proc.devRef .tc main_call2_v13) : S800000x128.Idx → EReal)
      = Host.gather gather_S50000x128_S800000x1_S800000x128_1_0_n_n_0_1_1128
          (V (Proc.devRef .tc main_v52_1) : S50000x128.Idx → EReal) (takeIdx (V (Proc.devRef .tc main_arg10))) := by
  simp only [hostOps2, List.take_succ_cons, List.take_zero]
  after_results_simp
  simp only [StableHlo.TRef.ofBuf, StableHlo.TRef.toBuf, cast_eq]
  rfl

/-- The last four operations, from any contents: the select of the gathered buffer against the fill value by the
    broadcast mask buffer. -/
theorem take_tail (G : Valuation τ sig (Elt Ideal)) :
    (StableHlo.after (List.drop 19 hostOps2) G (Proc.devRef .tc main_v53) : S800000x128.Idx → EReal)
      = select (broadcastInDim S800000x128 ![0] bcast_S800000_S800000x128_0
            (G (Proc.devRef .tc main_call2_v12) : S800000.Idx → BitVec 1))
          (G (Proc.devRef .tc main_call2_v13) : S800000x128.Idx → EReal)
          (broadcastInDim S800000x128 ![] bcast_S_S800000x128 (constant (F := Ideal) S_ .f32 0x7FC00000#32)) := by
  simp only [hostOps2, List.drop_succ_cons, List.drop_zero]
  after_results_simp
  rfl

/-- The take stretch leaves, in its result buffer, the rows of the table buffer taken at the source words. -/
theorem take_rows :
    (StableHlo.after hostOps2 V (Proc.devRef .tc main_v53) : S800000x128.Idx → EReal)
      = takeRows (V (Proc.devRef .tc main_v52_1)) (V (Proc.devRef .tc main_arg10)) := by
  have hsplit : StableHlo.after hostOps2 V
      = StableHlo.after (List.drop 19 hostOps2) (StableHlo.after (List.take 19 hostOps2) V) := by
    rw [← after_append, List.take_append_drop]
  rw [hsplit, take_tail, take_head_v12, take_head_v13]
  rfl

end TakeStretch

variable (m : (ℓ : Loc nD τ sig) → Buf (Elt Ideal) ℓ) (ρ : Dev nD → PrngReg)

/-! ## The argument arrays are as launched when the two stretches read them -/

theorem W8_arg3 (c : Dev nD) : W8 m ρ c (Proc.devRef .tc main_arg3) = m ((c : Thread nD τ).loc main_arg3) := by
  have h10 : W10 m ρ c (Proc.devRef .tc main_arg3) = W9 m ρ c (Proc.devRef .tc main_arg3) := W10_of_ne m ρ c main_arg3 (by decide)
  have h9 : W9 m ρ c (Proc.devRef .tc main_arg3) = W8 m ρ c (Proc.devRef .tc main_arg3) := by keeps hostOps2_1
  exact (h10.trans h9).symm.trans (W10_main_arg3 m ρ c)

theorem W8_arg4 (c : Dev nD) : W8 m ρ c (Proc.devRef .tc main_arg4) = m ((c : Thread nD τ).loc main_arg4) := by
  have h10 : W10 m ρ c (Proc.devRef .tc main_arg4) = W9 m ρ c (Proc.devRef .tc main_arg4) := W10_of_ne m ρ c main_arg4 (by decide)
  have h9 : W9 m ρ c (Proc.devRef .tc main_arg4) = W8 m ρ c (Proc.devRef .tc main_arg4) := by keeps hostOps2_1
  exact (h10.trans h9).symm.trans (W10_main_arg4 m ρ c)

theorem W8_arg6 (c : Dev nD) : W8 m ρ c (Proc.devRef .tc main_arg6) = m ((c : Thread nD τ).loc main_arg6) := by
  have h10 : W10 m ρ c (Proc.devRef .tc main_arg6) = W9 m ρ c (Proc.devRef .tc main_arg6) := W10_of_ne m ρ c main_arg6 (by decide)
  have h9 : W9 m ρ c (Proc.devRef .tc main_arg6) = W8 m ρ c (Proc.devRef .tc main_arg6) := by keeps hostOps2_1
  exact (h10.trans h9).symm.trans (W10_main_arg6 m ρ c)

theorem W8_arg7 (c : Dev nD) : W8 m ρ c (Proc.devRef .tc main_arg7) = m ((c : Thread nD τ).loc main_arg7) := by
  have h10 : W10 m ρ c (Proc.devRef .tc main_arg7) = W9 m ρ c (Proc.devRef .tc main_arg7) := W10_of_ne m ρ c main_arg7 (by decide)
  have h9 : W9 m ρ c (Proc.devRef .tc main_arg7) = W8 m ρ c (Proc.devRef .tc main_arg7) := by keeps hostOps2_1
  exact (h10.trans h9).symm.trans (W10_main_arg7 m ρ c)

theorem W8_arg8 (c : Dev nD) : W8 m ρ c (Proc.devRef .tc main_arg8) = m ((c : Thread nD τ).loc main_arg8) := by
  have h10 : W10 m ρ c (Proc.devRef .tc main_arg8) = W9 m ρ c (Proc.devRef .tc main_arg8) := W10_of_ne m ρ c main_arg8 (by decide)
  have h9 : W9 m ρ c (Proc.devRef .tc main_arg8) = W8 m ρ c (Proc.devRef .tc main_arg8) := by keeps hostOps2_1
  exact (h10.trans h9).symm.trans (W10_main_arg8 m ρ c)

theorem W8_arg9 (c : Dev nD) : W8 m ρ c (Proc.devRef .tc main_arg9) = m ((c : Thread nD τ).loc main_arg9) := by
  have h10 : W10 m ρ c (Proc.devRef .tc main_arg9) = W9 m ρ c (Proc.devRef .tc main_arg9) := W10_of_ne m ρ c main_arg9 (by decide)
  have h9 : W9 m ρ c (Proc.devRef .tc main_arg9) = W8 m ρ c (Proc.devRef .tc main_arg9) := by keeps hostOps2_1
  exact (h10.trans h9).symm.trans (W10_main_arg9 m ρ c)

theorem W8_arg11 (c : Dev nD) : W8 m ρ c (Proc.devRef .tc main_arg11) = m ((c : Thread nD τ).loc main_arg11) := by
  have h10 : W10 m ρ c (Proc.devRef .tc main_arg11) = W9 m ρ c (Proc.devRef .tc main_arg11) := W10_of_ne m ρ c main_arg11 (by decide)
  have h9 : W9 m ρ c (Proc.devRef .tc main_arg11) = W8 m ρ c (Proc.devRef .tc main_arg11) := by keeps hostOps2_1
  exact (h10.trans h9).symm.trans (W10_main_arg11 m ρ c)

theorem W7_arg10 (c : Dev nD) : W7 m ρ c (Proc.devRef .tc main_arg10) = m ((c : Thread nD τ).loc main_arg10) := by
  have h10 : W10 m ρ c (Proc.devRef .tc main_arg10) = W9 m ρ c (Proc.devRef .tc main_arg10) := W10_of_ne m ρ c main_arg10 (by decide)
  have h9 : W9 m ρ c (Proc.devRef .tc main_arg10) = W8 m ρ c (Proc.devRef .tc main_arg10) := by keeps hostOps2_1
  have h8 : W8 m ρ c (Proc.devRef .tc main_arg10) = W7 m ρ c (Proc.devRef .tc main_arg10) := by keeps hostOps2
  exact (h10.trans (h9.trans h8)).symm.trans (W10_main_arg10 m ρ c)

/-! ## The buffers region 2 is entered from -/

theorem v52_0 (c : Dev nD) :
    rd S50000x128 (V9 m ρ c main_v52_0) = rd S50000x128 ((dat1 (F := Ideal) (V6 m ρ) c).arrAt 11 cfg1.N) := by
  show W9 m ρ c (Proc.devRef .tc main_v52_0) = _
  have h1 : W9 m ρ c (Proc.devRef .tc main_v52_0) = W8 m ρ c (Proc.devRef .tc main_v52_0) := by keeps hostOps2_1
  have h2 : W8 m ρ c (Proc.devRef .tc main_v52_0) = W7 m ρ c (Proc.devRef .tc main_v52_0) := by keeps hostOps2
  exact h1.trans (h2.trans (W7_arr m ρ c 11))

theorem v56 (c : Dev nD) (hs : ∀ e : Fin 800000, 0 ≤ (a10 m c (ix1 e)).toInt ∧ (a10 m c (ix1 e)).toInt < 50000)
    (n : Fin 50000) (j : Fin 128) :
    rd S50000x128 (V9 m ρ c main_v56) (ix2 n j)
      = 0 + ∑ e ∈ GnnIn.into (a11 m c) n,
          rd S50000x128 ((dat1 (F := Ideal) (V6 m ρ) c).arrAt 12 cfg1.N) (ix2 (GnnIn.src (a10 m c) e) j) := by
  have e : (W9 m ρ c (Proc.devRef .tc main_v56) : S50000x128.Idx → EReal)
      = Host.scatterAdd (F := Ideal) (φ := .f32) scatter_S50000x128_S800000x1_S800000x128_1_0_0_1
          (broadcastInDim S50000x128 ![] bcast_S_S50000x128 (constant (F := Ideal) S_ .f32 0x00000000#32))
          (broadcastInDim S800000x1 ![0] bcast_S800000_S800000x1_0 (W8 m ρ c (Proc.devRef .tc main_arg11)))
          (W8 m ρ c (Proc.devRef .tc main_v53)) := by
    show StableHlo.after hostOps2_1 (W8 m ρ c) (Proc.devRef .tc main_v56) = _
    after_results_simp
  have e53 : (W8 m ρ c (Proc.devRef .tc main_v53) : S800000x128.Idx → EReal)
      = takeRows (W7 m ρ c (Proc.devRef .tc main_v52_1)) (W7 m ρ c (Proc.devRef .tc main_arg10)) :=
    take_rows (W7 m ρ c)
  have h12 : (W7 m ρ c (Proc.devRef .tc main_v52_1) : S50000x128.Idx → EReal)
      = ((dat1 (F := Ideal) (V6 m ρ) c).arrAt 12 cfg1.N : S50000x128.Idx → EReal) := W7_arr m ρ c 12
  show (W9 m ρ c (Proc.devRef .tc main_v56) : S50000x128.Idx → EReal) (ix2 n j) = _
  rw [e, e53, W8_arg11, W7_arg10, h12]
  exact segSum_apply _ _ _ hs n j

theorem v11 (c : Dev nD) : rd S50000x16 (V9 m ρ c main_v11) = rd S50000x16 (V3 m ρ c main_v11) := by
  show W9 m ρ c (Proc.devRef .tc main_v11) = W3 m ρ c (Proc.devRef .tc main_v11)
  have h9 : W9 m ρ c (Proc.devRef .tc main_v11) = W8 m ρ c (Proc.devRef .tc main_v11) := by keeps hostOps2_1
  have h8 : W8 m ρ c (Proc.devRef .tc main_v11) = W7 m ρ c (Proc.devRef .tc main_v11) := by keeps hostOps2
  have h7 : W7 m ρ c (Proc.devRef .tc main_v11) = W6 m ρ c (Proc.devRef .tc main_v11) :=
    (W7_arr m ρ c 2).trans (((dat1 (V6 m ρ) c).arrAt_in 2 rfl _).trans (A_eq1 (V6 m ρ) c 2))
  have h6 : W6 m ρ c (Proc.devRef .tc main_v11) = W5 m ρ c (Proc.devRef .tc main_v11) := by keeps hostOps1_1
  have h5 : W5 m ρ c (Proc.devRef .tc main_v11) = W4 m ρ c (Proc.devRef .tc main_v11) := by keeps hostOps1
  exact h9.trans (h8.trans (h7.trans (h6.trans (h5.trans (W4_of_ne m ρ c main_v11 (by decide))))))

theorem v7 (c : Dev nD) : rd S50000x1 (V9 m ρ c main_v7) = rd S50000x1 (V3 m ρ c main_v7) := by
  show W9 m ρ c (Proc.devRef .tc main_v7) = W3 m ρ c (Proc.devRef .tc main_v7)
  have h9 : W9 m ρ c (Proc.devRef .tc main_v7) = W8 m ρ c (Proc.devRef .tc main_v7) := by keeps hostOps2_1
  have h8 : W8 m ρ c (Proc.devRef .tc main_v7) = W7 m ρ c (Proc.devRef .tc main_v7) := by keeps hostOps2
  have h7 : W7 m ρ c (Proc.devRef .tc main_v7) = W6 m ρ c (Proc.devRef .tc main_v7) :=
    (W7_arr m ρ c 3).trans (((dat1 (V6 m ρ) c).arrAt_in 3 rfl _).trans (A_eq1 (V6 m ρ) c 3))
  have h6 : W6 m ρ c (Proc.devRef .tc main_v7) = W5 m ρ c (Proc.devRef .tc main_v7) := by keeps hostOps1_1
  have h5 : W5 m ρ c (Proc.devRef .tc main_v7) = W4 m ρ c (Proc.devRef .tc main_v7) := by keeps hostOps1
  exact h9.trans (h8.trans (h7.trans (h6.trans (h5.trans (W4_of_ne m ρ c main_v7 (by decide))))))

theorem v66 (c : Dev nD) (k j : Fin 128) : rd S128x128 (V9 m ρ c main_v66) (ix2 k j) = a6 m c (ix3 1 j k) := by
  have e : (W9 m ρ c (Proc.devRef .tc main_v66) : S128x128.Idx → EReal)
      = transpose S128x128 [1, 0]
        (shapeCast S128x128 (extractStridedSlice S1x128x128 ![1, 0, 0] (W8 m ρ c (Proc.devRef .tc main_arg6) : S2x128x128.Idx → EReal) slices_S2x128x128_S1x128x128_1_0_0)
          shapeCasts_S1x128x128_S128x128)
        transposes_S128x128_S128x128_1_0 := by
    show StableHlo.after hostOps2_1 (W8 m ρ c) (Proc.devRef .tc main_v66) = _
    after_results_simp
    rfl
  show (W9 m ρ c (Proc.devRef .tc main_v66) : S128x128.Idx → EReal) (ix2 k j) = _
  rw [e, W8_arg6]
  exact plane1_T_apply _ k j

theorem v72 (c : Dev nD) (j : Fin 128) : rd S1x128 (V9 m ρ c main_v72) (ix2 0 j) = a7 m c (ix2 1 j) := by
  have e : (W9 m ρ c (Proc.devRef .tc main_v72) : S1x128.Idx → EReal)
      = shapeCast S1x128
          (shapeCast S128 (extractStridedSlice S1x128 ![1, 0] (W8 m ρ c (Proc.devRef .tc main_arg7) : S2x128.Idx → EReal) slices_S2x128_S1x128_1_0)
            shapeCasts_S1x128_S128)
          shapeCasts_S128_S1x128 := by
    show StableHlo.after hostOps2_1 (W8 m ρ c) (Proc.devRef .tc main_v72) = _
    after_results_simp
    rfl
  show (W9 m ρ c (Proc.devRef .tc main_v72) : S1x128.Idx → EReal) (ix2 0 j) = _
  rw [e, W8_arg7]
  exact row1_apply _ j

theorem v69 (c : Dev nD) (k j : Fin 128) : rd S128x128 (V9 m ρ c main_v69) (ix2 k j) = a8 m c (ix3 1 j k) := by
  have e : (W9 m ρ c (Proc.devRef .tc main_v69) : S128x128.Idx → EReal)
      = transpose S128x128 [1, 0]
        (shapeCast S128x128 (extractStridedSlice S1x128x128 ![1, 0, 0] (W8 m ρ c (Proc.devRef .tc main_arg8) : S2x128x128.Idx → EReal) slices_S2x128x128_S1x128x128_1_0_0)
          shapeCasts_S1x128x128_S128x128)
        transposes_S128x128_S128x128_1_0 := by
    show StableHlo.after hostOps2_1 (W8 m ρ c) (Proc.devRef .tc main_v69) = _
    after_results_simp
    rfl
  show (W9 m ρ c (Proc.devRef .tc main_v69) : S128x128.Idx → EReal) (ix2 k j) = _
  rw [e, W8_arg8]
  exact plane1_T_apply _ k j

theorem v75 (c : Dev nD) (j : Fin 128) : rd S1x128 (V9 m ρ c main_v75) (ix2 0 j) = a9 m c (ix2 1 j) := by
  have e : (W9 m ρ c (Proc.devRef .tc main_v75) : S1x128.Idx → EReal)
      = shapeCast S1x128
          (shapeCast S128 (extractStridedSlice S1x128 ![1, 0] (W8 m ρ c (Proc.devRef .tc main_arg9) : S2x128.Idx → EReal) slices_S2x128_S1x128_1_0)
            shapeCasts_S1x128_S128)
          shapeCasts_S128_S1x128 := by
    show StableHlo.after hostOps2_1 (W8 m ρ c) (Proc.devRef .tc main_v75) = _
    after_results_simp
    rfl
  show (W9 m ρ c (Proc.devRef .tc main_v75) : S1x128.Idx → EReal) (ix2 0 j) = _
  rw [e, W8_arg9]
  exact row1_apply _ j

theorem v63 (c : Dev nD) (r : Fin 16) (j : Fin 128) :
    rd S16x128 (V9 m ρ c main_v63) (ix2 r j) = ∑ k : Fin 32, a3 m c (ix3 1 r k) * a4 m c (ix3 1 j (hi k)) := by
  have e : (W9 m ρ c (Proc.devRef .tc main_v63) : S16x128.Idx → EReal)
      = Host.dotGeneral (F := Ideal) (φ₁ := .f32) (φ₂ := .f32) dot_S16x32_S32x128_S16x128_1_0_0_1_n_n none
          (shapeCast S16x32 (extractStridedSlice S1x16x32 ![1, 0, 0] (W8 m ρ c (Proc.devRef .tc main_arg3) : S2x16x32.Idx → EReal) slices_S2x16x32_S1x16x32_1_0_0)
            shapeCasts_S1x16x32_S16x32)
          (transpose S32x128 [1, 0]
            (extractStridedSlice S128x32 ![0, 128]
              (shapeCast S128x160 (extractStridedSlice S1x128x160 ![1, 0, 0] (W8 m ρ c (Proc.devRef .tc main_arg4) : S2x128x160.Idx → EReal) slices_S2x128x160_S1x128x160_1_0_0)
                shapeCasts_S1x128x160_S128x160)
              slices_S128x160_S128x32_0_128)
            transposes_S128x32_S32x128_1_0) := by
    show StableHlo.after hostOps2_1 (W8 m ρ c) (Proc.devRef .tc main_v63) = _
    after_results_simp
    rfl
  show (W9 m ρ c (Proc.devRef .tc main_v63) : S16x128.Idx → EReal) (ix2 r j) = _
  rw [e, W8_arg3, W8_arg4]
  refine (dot_16_32_128_apply _ _ r j).trans ?_
  refine Finset.sum_congr rfl fun k _ => ?_
  rw [rel1_apply, msgHi_T_apply]

end Cert.KernelIdeal.HostVal.Aux2

/-! # What region 2 is entered from -/

namespace Cert.KernelIdeal.HostVal

open Cert.KernelIdeal Cert.KernelIdeal.Gen
open Idealize.ShloMosaic Idealize.ShloMosaic.TcCoe Idealize.ShloMosaic.ValueIdx Idealize.SL.Sem
open Cert.GnnSpec (rd lo hi)

variable (m : (ℓ : Loc nD τ sig) → Buf (Elt Ideal) ℓ) (ρ : Dev nD → PrngReg)

/-- The node rows are the previous region's first output array. -/
theorem V9_v52_0 (c : Dev nD) :
    rd S50000x128 (V9 m ρ c main_v52_0) = rd S50000x128 ((dat1 (F := Ideal) (V6 m ρ) c).arrAt 11 cfg1.N) :=
  Aux2.v52_0 m ρ c

/-- The neighbour sum: onto zeros, the previous region's second output row `src e` summed over the edges landing on `n`
    (the source words in range). -/
theorem V9_v56 (c : Dev nD) (hs : ∀ e : Fin 800000, 0 ≤ (a10 m c (ix1 e)).toInt ∧ (a10 m c (ix1 e)).toInt < 50000)
    (n : Fin 50000) (j : Fin 128) :
    rd S50000x128 (V9 m ρ c main_v56) (ix2 n j)
      = 0 + ∑ e ∈ GnnIn.into (a11 m c) n,
          rd S50000x128 ((dat1 (F := Ideal) (V6 m ρ) c).arrAt 12 cfg1.N) (ix2 (GnnIn.src (a10 m c) e) j) :=
  Aux2.v56 m ρ c hs n j

/-- The relation counts are carried unchanged from before the first region. -/
theorem V9_v11 (c : Dev nD) : rd S50000x16 (V9 m ρ c main_v11) = rd S50000x16 (V3 m ρ c main_v11) :=
  Aux2.v11 m ρ c

/-- So is the reciprocal normaliser. -/
theorem V9_v7 (c : Dev nD) : rd S50000x1 (V9 m ρ c main_v7) = rd S50000x1 (V3 m ρ c main_v7) :=
  Aux2.v7 m ρ c

/-- The self matrix transposed: entry `(k, j)` is `SW[1, j, k]`. -/
theorem V9_v66 (c : Dev nD) (k j : Fin 128) : rd S128x128 (V9 m ρ c main_v66) (ix2 k j) = a6 m c (ix3 1 j k) :=
  Aux2.v66 m ρ c k j

/-- The self bias as a row. -/
theorem V9_v72 (c : Dev nD) (j : Fin 128) : rd S1x128 (V9 m ρ c main_v72) (ix2 0 j) = a7 m c (ix2 1 j) :=
  Aux2.v72 m ρ c j

/-- The neighbour matrix transposed: entry `(k, j)` is `NW[1, j, k]`. -/
theorem V9_v69 (c : Dev nD) (k j : Fin 128) : rd S128x128 (V9 m ρ c main_v69) (ix2 k j) = a8 m c (ix3 1 j k) :=
  Aux2.v69 m ρ c k j

/-- The neighbour bias as a row. -/
theorem V9_v75 (c : Dev nD) (j : Fin 128) : rd S1x128 (V9 m ρ c main_v75) (ix2 0 j) = a9 m c (ix2 1 j) :=
  Aux2.v75 m ρ c j

/-- The relation table: relation `r`'s embedding through the layer's last 32 message columns. -/
theorem V9_v63 (c : Dev nD) (r : Fin 16) (j : Fin 128) :
    rd S16x128 (V9 m ρ c main_v63) (ix2 r j) = ∑ k : Fin 32, a3 m c (ix3 1 r k) * a4 m c (ix3 1 j (hi k)) :=
  Aux2.v63 m ρ c r j

end Cert.KernelIdeal.HostVal

end
-- ==== Proof.KernelValue.lean ====
/-
  The idealized kernel program's result array, read at an element, is the two-layer network in its per-node form.

  Region by region: the first region leaves the input projection `H0` and its rows through layer 0's first 128 message
  columns; the host stretch after it sums those projected rows over each node's in-edges; the second region combines
  that sum, the relation counts times the relation table, and the reciprocal degree into the layer-0 update and projects
  it through layer 1's columns; the third region does the same for layer 1.
-/
import proofs.«412633_j14216341749899_2_alg».proof.Proof.Region0
import proofs.«412633_j14216341749899_2_alg».proof.Proof.Region1
import proofs.«412633_j14216341749899_2_alg».proof.Proof.Region2
import proofs.«412633_j14216341749899_2_alg».proof.Proof.KHost0
import proofs.«412633_j14216341749899_2_alg».proof.Proof.KHost1
import proofs.«412633_j14216341749899_2_alg».proof.Proof.KHost2

set_option maxRecDepth 16384

noncomputable section

open scoped BigOperators

namespace Cert.KernelIdeal.KerVal

open Cert.KernelIdeal Cert.KernelIdeal.Gen Cert.KernelIdeal.HostVal Cert.KernelIdeal.RegVal
open Idealize.ShloMosaic Idealize.ShloMosaic.TcCoe Idealize.ShloMosaic.ValueIdx Idealize.SL.Sem
open Cert.GnnSpec (rd lo hi)

variable (m : (ℓ : Loc nD τ sig) → Buf (Elt Ideal) ℓ) (ρ : Dev nD → PrngReg)

/-- The input projection of this program's arguments. -/
abbrev H0 (c : Dev nD) : Fin 50000 → Fin 128 → EReal := GnnIn.H0 (a0 m c) (a1 m c) (a2 m c)

/-- Layer `l`, per-node form, over this program's arguments. -/
abbrev layer (c : Dev nD) (l : Fin 2) (h : Fin 50000 → Fin 128 → EReal) : Fin 50000 → Fin 128 → EReal :=
  GnnIn.layerKer (a3 m c) (a4 m c) (a5 m c) (a6 m c) (a7 m c) (a8 m c) (a9 m c) (a10 m c) (a11 m c) (a12 m c) l h

/-- Layer `l`'s projected rows over this program's arguments. -/
abbrev proj (c : Dev nD) (l : Fin 2) (h : Fin 50000 → Fin 128 → EReal) : Fin 50000 → Fin 128 → EReal :=
  GnnIn.hwbOf (a4 m c) (a5 m c) l h

/-- The first region's first output is the input projection. -/
theorem h0_eq (c : Dev nD) (n k : _) :
    rd S50000x128 ((dat0 (F := Ideal) (V3 m ρ) c).arrAt 5 cfg0.N) (ix2 n k) = H0 m c n k := by
  rw [reg0_out5, V3_arg0 m ρ c]
  simp only [V3_v16 m ρ c, V3_v17 m ρ c]
  rfl

/-- The first region's second output is the projection's rows through layer 0's first 128 message columns. -/
theorem hwb0_eq (c : Dev nD) (n j : _) :
    rd S50000x128 ((dat0 (F := Ideal) (V3 m ρ) c).arrAt 6 cfg0.N) (ix2 n j) = proj m c 0 (H0 m c) n j := by
  rw [reg0_out6]
  simp only [h0_eq m ρ c, V3_v15 m ρ c, V3_v20 m ρ c]
  rfl

/-- The second region's first output is layer 0 applied to the projection. -/
theorem h1_eq (c : Dev nD) (hr : GnnIn.InRange (a10 m c) (a12 m c)) (n j : _) :
    rd S50000x128 ((dat1 (F := Ideal) (V6 m ρ) c).arrAt 11 cfg1.N) (ix2 n j) = layer m c 0 (H0 m c) n j := by
  rw [reg1_out11, V6_v21_0 m ρ c, V6_v11 m ρ c, V6_v7 m ρ c]
  simp only [V6_v35 m ρ c, V6_v45 m ρ c, V6_v38 m ρ c, V6_v48 m ρ c, V6_v32 m ρ c, V6_v25 m ρ c hr.1, h0_eq m ρ c,
    hwb0_eq m ρ c, V3_v7 m ρ c, V3_v11 m ρ c hr.2]
  rfl

/-- The second region's second output is layer 0's result through layer 1's first 128 message columns. -/
theorem hwb1_eq (c : Dev nD) (hr : GnnIn.InRange (a10 m c) (a12 m c)) (n j : _) :
    rd S50000x128 ((dat1 (F := Ideal) (V6 m ρ) c).arrAt 12 cfg1.N) (ix2 n j)
      = proj m c 1 (layer m c 0 (H0 m c)) n j := by
  rw [reg1_out12]
  simp only [h1_eq m ρ c hr, V6_v42 m ρ c, V6_v51 m ρ c]
  rfl

/-- The third region's output is layer 1 applied to layer 0's result. -/
theorem h2_eq (c : Dev nD) (hr : GnnIn.InRange (a10 m c) (a12 m c)) (n j : _) :
    rd S50000x128 ((dat2 (F := Ideal) (V9 m ρ) c).arrAt 9 cfg2.N) (ix2 n j)
      = layer m c 1 (layer m c 0 (H0 m c)) n j := by
  rw [reg2_out9, V9_v52_0 m ρ c, V9_v11 m ρ c, V9_v7 m ρ c]
  simp only [V9_v66 m ρ c, V9_v72 m ρ c, V9_v69 m ρ c, V9_v75 m ρ c, V9_v63 m ρ c, V9_v56 m ρ c hr.1, h1_eq m ρ c hr,
    hwb1_eq m ρ c hr, V3_v7 m ρ c, V3_v11 m ρ c hr.2]
  rfl

/-- The result array at the last boundary, read at `(n, j)`: the network in its per-node form. -/
theorem kernel_value (c : Dev nD) (hr : GnnIn.InRange (a10 m c) (a12 m c)) (n : Fin 50000) (j : Fin 128) :
    rd S50000x128 (W10 m ρ c (Proc.devRef .tc main_v76)) (ix2 n j)
      = GnnIn.outKer (a0 m c) (a1 m c) (a2 m c) (a3 m c) (a4 m c) (a5 m c) (a6 m c) (a7 m c) (a8 m c) (a9 m c)
          (a10 m c) (a11 m c) (a12 m c) n j := by
  have e : rd S50000x128 (W10 m ρ c (Proc.devRef .tc main_v76))
      = rd S50000x128 ((dat2 (F := Ideal) (V9 m ρ) c).arrAt 9 cfg2.N) := W10_arr m ρ c 9
  rw [e, h2_eq m ρ c hr]
  rfl

end Cert.KernelIdeal.KerVal

end
-- ==== Proof.RefLayer0.lean ====
/-
  The reference's input projection and first layer, read at an element: the projection is `x @ inW.T + inb`; the first
  layer's result at node `n`, column `j` is the per-edge form of the layer (layer 0's parameters) applied to the projection.

  The layer is read stage by stage, innermost first: the degree normaliser (ones scattered onto zero, at least one);
  the source and relation words the two row gathers read (a word in range is not wrapped, and the gather's clamp is the
  specification's); the gathered rows; the two row blocks side by side (an edge's 160-wide message input); the transposed
  message matrix and the broadcast bias; the message; the messages scattered onto zero (the segment sum); the quotient by
  the degree; and the update (two contractions against transposed parameter slices, three sums, a maximum against zero).
-/
import proofs.«412633_j14216341749899_2_alg».proof.Proof.Gen.ReferenceIdeal.Read
import proofs.«412633_j14216341749899_2_alg».proof.Proof.GnnInputs
import proofs.«412633_j14216341749899_2_alg».proof.Proof.LibRows
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.IdealHost

set_option maxRecDepth 16384

noncomputable section

open scoped BigOperators

namespace Cert.ReferenceIdeal.RefVal0

open Cert.ReferenceIdeal Cert.ReferenceIdeal.Gen Cert.ReferenceIdeal.Read
open Idealize.ShloMosaic Idealize.ShloMosaic.TcCoe Idealize.ShloMosaic.ValueIdx Idealize.SL.Sem
open Cert.GnnSpec (rd lo hi)

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S2x16x32, .f32⟩ : BufTy).Contents (Elt Ideal))
  (x4 : (⟨S2x128x160, .f32⟩ : BufTy).Contents (Elt Ideal)) (x5 : (⟨S2x128, .f32⟩ : BufTy).Contents (Elt Ideal))
  (x6 : (⟨S2x128x128, .f32⟩ : BufTy).Contents (Elt Ideal)) (x7 : (⟨S2x128, .f32⟩ : BufTy).Contents (Elt Ideal))
  (x8 : (⟨S2x128x128, .f32⟩ : BufTy).Contents (Elt Ideal)) (x9 : (⟨S2x128, .f32⟩ : BufTy).Contents (Elt Ideal))
  (x10 x11 x12 : (⟨S800000, .i32⟩ : BufTy).Contents (Elt Ideal))

/-- The input projection at `(n, j)`. -/
theorem ref_h0 (n : Fin 50000) (j : Fin 128) :
    rd S50000x128 (val_main_v4 (F := Ideal) x0 x1 x2) (ix2 n j) = GnnIn.H0 x0 x1 x2 n j := by
  show val_main_v4 (F := Ideal) x0 x1 x2 (ix2 n j) = _
  rw [val_main_v4_apply, val_main_v1_apply, val_main_v3_apply, val_main_v2_apply]
  simp only [val_main_v0_apply]
  unfold GnnIn.H0 GnnSpec.proj GnnIn.xC GnnIn.inW GnnIn.inb
  have e1 : ∀ k : Fin 128, lidx_main_v1 (ix2 n j) k = ix2 n k := fun k =>
    funext fun a => Fin.ext (by match a with | ⟨0, _⟩ => rfl | ⟨1, _⟩ => rfl)
  have e2 : ∀ k : Fin 128, idx_main_v0 (ridx_main_v1 (ix2 n j) k) = ix2 j k := fun k =>
    funext fun a => Fin.ext (by match a with | ⟨0, _⟩ => rfl | ⟨1, _⟩ => rfl)
  have e3 : idx_main_v2 (idx_main_v3 (ix2 n j)) = ix1 j :=
    funext fun a => Fin.ext (by match a with | ⟨0, _⟩ => rfl)
  simp only [e1, e2, e3]
  rfl

/-- A signed comparison "below zero" of a word that is not negative gives the bit 0. -/
theorem slt_zero_of_nonneg (w : BitVec 32) (h : 0 ≤ w.toInt) : IntOp.cmpi .slt w 0#32 = 0#1 := by
  have h0 : w.slt 0#32 = false := by
    rw [Bool.eq_false_iff]
    intro hh
    rw [BitVec.slt_iff_toInt_lt] at hh
    simp at hh
    omega
  show BitVec.ofBool (w.slt 0#32) = 0#1
  rw [h0]
  rfl

/-- The relation word the gather reads for edge `e`: the wrap of a negative word does nothing on a word in range. -/
theorem ridWord (hr : GnnIn.InRange x10 x12) (e : Fin 800000) :
    val_main_v18 (F := Ideal) x12 (ix2 e (0 : Fin 1)) = x12 (ix1 e) := by
  have e18 : idx_main_v18 (ix2 e (0 : Fin 1)) = ix1 e :=
    funext fun a => Fin.ext (by match a with | ⟨0, _⟩ => rfl)
  rw [val_main_v18_apply, e18, val_main_v17_apply, val_main_v14_apply, val_main_v13_apply, val_main_c_apply,
    slt_zero_of_nonneg _ (hr.2 e).1, select_zero]

/-- The source word the gather reads for edge `e`. -/
theorem srcWord (hr : GnnIn.InRange x10 x12) (e : Fin 800000) :
    val_main_v25 (F := Ideal) x10 (ix2 e (0 : Fin 1)) = x10 (ix1 e) := by
  have e25 : idx_main_v25 (ix2 e (0 : Fin 1)) = ix1 e :=
    funext fun a => Fin.ext (by match a with | ⟨0, _⟩ => rfl)
  rw [val_main_v25_apply, e25, val_main_v24_apply, val_main_v21_apply, val_main_v20_apply, val_main_c_3_apply,
    slt_zero_of_nonneg _ (hr.1 e).1, select_zero]

/-- Layer 0's relation table at `(r, k)`: the slice and reshape read `x3` at `(0, r, k)`. -/
theorem relTab0 (r : Fin 16) (k : Fin 32) :
    val_main_v12 (F := Ideal) x3 (ix2 r k) = GnnIn.rel x3 0 r k := by
  have ei : idx_main_v11 (idx_main_v12 (ix2 r k)) = ix3 (0 : Fin 2) r k :=
    funext fun a => Fin.ext (by
      have hr := r.isLt
      have hk := k.isLt
      match a with
      | ⟨0, _⟩ => rfl
      | ⟨1, _⟩ => show (r.val * 32 + k.val) / 32 % 16 = r.val; omega
      | ⟨2, _⟩ => show (r.val * 32 + k.val) % 32 = k.val; omega)
  rw [val_main_v12_apply, val_main_v11_apply, ei]
  rfl

/-- The gathered relation rows at `(e, k)`. -/
theorem relRows (hr : GnnIn.InRange x10 x12) (e : Fin 800000) (k : Fin 32) :
    val_main_v19 (F := Ideal) x3 x12 (ix2 e k) = GnnIn.rel x3 0 (GnnIn.rid x12 e) k := by
  unfold val_main_v19
  rw [LibRows.gather_rows_apply (N := 16) (C := 32) (E := 800000) (w := 32)
    gather_S16x32_S800000x1_S800000x32_1_0_n_n_0_1_132 rfl rfl rfl rfl rfl _ _ e k (by decide), relTab0]
  simp only [ridWord x10 x12 hr e]
  rfl

/-- The gathered source rows at `(e, k)`, over any table `h` of node rows. -/
theorem srcRows (hr : GnnIn.InRange x10 x12) (h : S50000x128.Idx → EReal) (e : Fin 800000) (k : Fin 128) :
    (Host.gather gather_S50000x128_S800000x1_S800000x128_1_0_n_n_0_1_1128 h (val_main_v25 (F := Ideal) x10) :
      S800000x128.Idx → EReal) (ix2 e k) = h (ix2 (GnnIn.src x10 e) k) := by
  rw [LibRows.gather_rows_apply (N := 50000) (C := 128) (E := 800000) (w := 32)
    gather_S50000x128_S800000x1_S800000x128_1_0_n_n_0_1_1128 rfl rfl rfl rfl rfl _ _ e k (by decide)]
  simp only [srcWord x10 x12 hr e]
  rfl

/-- Two row blocks of 128 and 32 columns laid side by side, read at `(e, k)`: the left block below column 128,
    the right block from there on. -/
theorem cat_apply (A : S800000x128.Idx → EReal) (B : S800000x32.Idx → EReal) (e : Fin 800000) (k : Fin 160) :
    concatenate S800000x160 1 [⟨S800000x128, A⟩, ⟨S800000x32, B⟩]
        concatenates_S800000x128_S800000x32_S800000x160_d1 (ix2 e k)
      = if hk : k.val < 128 then A (ix2 e ⟨k.val, hk⟩) else B (ix2 e ⟨k.val - 128, by omega⟩) := by
  by_cases hk : k.val < 128
  · rw [dif_pos hk]
    exact concatenate_pair_apply_left 1 A B _ (ix2 e k) rfl (ix2 e ⟨k.val, hk⟩)
      (fun b => match b with | ⟨0, _⟩ => rfl | ⟨1, _⟩ => rfl)
  · rw [dif_neg hk]
    exact concatenate_pair_apply_right 1 A B _ (ix2 e k) rfl rfl (ix2 e ⟨k.val - 128, by omega⟩)
      (fun b => match b with | ⟨0, _⟩ => fun _ => rfl | ⟨1, _⟩ => fun hb => absurd rfl hb)
      (by show (k.val - 128) + 128 = k.val; omega)

/-- Edge `e`'s 160-wide message input at column `k`. -/
theorem catRow (hr : GnnIn.InRange x10 x12) (e : Fin 800000) (k : Fin 160) :
    val_main_v27 (F := Ideal) x0 x1 x2 x3 x10 x12 (ix2 e k)
      = GnnSpec.msgIn (GnnIn.rel x3 0) (GnnIn.src x10) (GnnIn.rid x12)
          (fun n k => rd S50000x128 (val_main_v4 (F := Ideal) x0 x1 x2) (ix2 n k)) e k := by
  unfold val_main_v27 val_main_v26
  generalize val_main_v4 (F := Ideal) x0 x1 x2 = h
  rw [cat_apply]
  unfold GnnSpec.msgIn
  by_cases hk : k.val < 128
  · rw [dif_pos hk, dif_pos hk, srcRows x10 x12 hr]
  · rw [dif_neg hk, dif_neg hk, relRows x3 x10 x12 hr]

/-- Layer 0's transposed message matrix at `(k, j)` is `MW[0, j, k]`. -/
theorem msgMat0 (k : Fin 160) (j : Fin 128) :
    val_main_v30 (F := Ideal) x4 (ix2 k j) = GnnIn.MW x4 0 j k := by
  have ei : idx_main_v28 (idx_main_v29 (idx_main_v30 (ix2 k j))) = ix3 (0 : Fin 2) j k :=
    funext fun a => Fin.ext (by
      have hj := j.isLt
      have hk := k.isLt
      match a with
      | ⟨0, _⟩ => rfl
      | ⟨1, _⟩ => show (j.val * 160 + k.val) / 160 % 128 = j.val; omega
      | ⟨2, _⟩ => show (j.val * 160 + k.val) % 160 = k.val; omega)
  rw [val_main_v30_apply, val_main_v29_apply, val_main_v28_apply, ei]
  rfl

/-- Layer 0's message bias, broadcast down the edges, at `(e, j)`. -/
theorem msgBias0 (e : Fin 800000) (j : Fin 128) :
    val_main_v35 (F := Ideal) x5 (ix2 e j) = GnnIn.mb x5 0 j := by
  have ei : idx_main_v32 (idx_main_v33 (idx_main_v34 (idx_main_v35 (ix2 e j)))) = ix2 (0 : Fin 2) j :=
    funext fun a => Fin.ext (by
      have hj := j.isLt
      match a with
      | ⟨0, _⟩ => rfl
      | ⟨1, _⟩ => show j.val % 128 = j.val; omega)
  rw [val_main_v35_apply, val_main_v34_apply, val_main_v33_apply, val_main_v32_apply, ei]
  rfl

/-- Edge `e`'s message at column `j`. -/
theorem msg0 (hr : GnnIn.InRange x10 x12) (e : Fin 800000) (j : Fin 128) :
    val_main_v36 (F := Ideal) x0 x1 x2 x3 x4 x5 x10 x12 (ix2 e j)
      = GnnSpec.msgRef (GnnIn.MW x4 0) (GnnIn.mb x5 0) (GnnIn.rel x3 0) (GnnIn.src x10) (GnnIn.rid x12)
          (fun n k => rd S50000x128 (val_main_v4 (F := Ideal) x0 x1 x2) (ix2 n k)) e j := by
  have el : ∀ k : Fin 160, lidx_main_v31 (ix2 e j) k = ix2 e k := fun k =>
    funext fun a => Fin.ext (by match a with | ⟨0, _⟩ => rfl | ⟨1, _⟩ => rfl)
  have er : ∀ k : Fin 160, ridx_main_v31 (ix2 e j) k = ix2 k j := fun k =>
    funext fun a => Fin.ext (by match a with | ⟨0, _⟩ => rfl | ⟨1, _⟩ => rfl)
  rw [val_main_v36_apply, val_main_v31_apply, msgBias0]
  simp only [el, er, catRow x0 x1 x2 x3 x10 x12 hr, msgMat0]
  rfl

/-- The degree normaliser at node `n`: ones scattered onto zero, then at least one. -/
theorem deg0 (n : Fin 50000) :
    val_main_v10 (F := Ideal) x11 (ix2 n (0 : Fin 1)) = GnnSpec.deg (GnnIn.into x11) n := by
  have e7 : ∀ e : Fin 800000, idx_main_v7 (ix2 e (0 : Fin 1)) = ix1 e := fun e =>
    funext fun a => Fin.ext (by match a with | ⟨0, _⟩ => rfl)
  rw [val_main_v10_apply]
  unfold val_main_v8
  rw [LibRows.scatterAdd_rows_apply (N := 50000) (C := 1) (E := 800000) (w := 32)
    scatter_S50000x1_S800000x1_S800000x1_1_0_0_1 rfl rfl rfl rfl]
  simp only [val_main_v6_apply, val_main_v5_apply, val_main_v9_apply, val_main_v7_apply, val_main_cst_apply,
    val_main_cst_0_apply, val_main_cst_1_apply, Ideal.ofBits_def, Ideal.ofBits_zero_f32, Ideal.ofBits_one_f32, e7]
  rfl

/-- The messages landing on node `n`, summed onto zero, at column `j`. -/
theorem seg0 (hr : GnnIn.InRange x10 x12) (n : Fin 50000) (j : Fin 128) :
    val_main_v39 (F := Ideal) x0 x1 x2 x3 x4 x5 x10 x11 x12 (ix2 n j)
      = GnnSpec.segRef (GnnIn.MW x4 0) (GnnIn.mb x5 0) (GnnIn.rel x3 0) (GnnIn.src x10) (GnnIn.rid x12)
          (GnnIn.into x11) (fun n k => rd S50000x128 (val_main_v4 (F := Ideal) x0 x1 x2) (ix2 n k)) n j := by
  have e38 : ∀ e : Fin 800000, idx_main_v38 (ix2 e (0 : Fin 1)) = ix1 e := fun e =>
    funext fun a => Fin.ext (by match a with | ⟨0, _⟩ => rfl)
  unfold val_main_v39
  rw [LibRows.scatterAdd_rows_apply (N := 50000) (C := 128) (E := 800000) (w := 32)
    scatter_S50000x128_S800000x1_S800000x128_1_0_0_1 rfl rfl rfl rfl]
  simp only [val_main_v37_apply, val_main_cst_5_apply, Ideal.ofBits_def, Ideal.ofBits_zero_f32, val_main_v38_apply,
    e38, msg0 x0 x1 x2 x3 x4 x5 x10 x12 hr]
  rfl

/-- The mean aggregate at `(n, j)`. -/
theorem agg0 (hr : GnnIn.InRange x10 x12) (n : Fin 50000) (j : Fin 128) :
    val_main_v41 (F := Ideal) x0 x1 x2 x3 x4 x5 x10 x11 x12 (ix2 n j)
      = GnnSpec.aggRef (GnnIn.MW x4 0) (GnnIn.mb x5 0) (GnnIn.rel x3 0) (GnnIn.src x10) (GnnIn.rid x12)
          (GnnIn.into x11) (fun n k => rd S50000x128 (val_main_v4 (F := Ideal) x0 x1 x2) (ix2 n k)) n j := by
  have e40 : idx_main_v40 (ix2 n j) = ix2 n (0 : Fin 1) :=
    funext fun a => Fin.ext (by match a with | ⟨0, _⟩ => rfl | ⟨1, _⟩ => rfl)
  rw [val_main_v41_apply, val_main_v40_apply, e40, deg0, seg0 x0 x1 x2 x3 x4 x5 x10 x11 x12 hr]
  rfl

/-- Layer 0's transposed self matrix at `(k, j)` is `SW[0, j, k]`. -/
theorem selfMat0 (k j : Fin 128) :
    val_main_v44 (F := Ideal) x6 (ix2 k j) = GnnIn.SW x6 0 j k := by
  have ei : idx_main_v42 (idx_main_v43 (idx_main_v44 (ix2 k j))) = ix3 (0 : Fin 2) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  rw [val_main_v44_apply, val_main_v43_apply, val_main_v42_apply, ei]
  rfl

/-- Layer 0's transposed neighbour matrix at `(k, j)` is `NW[0, j, k]`. -/
theorem nbrMat0 (k j : Fin 128) :
    val_main_v53 (F := Ideal) x8 (ix2 k j) = GnnIn.NW x8 0 j k := by
  have ei : idx_main_v51 (idx_main_v52 (idx_main_v53 (ix2 k j))) = ix3 (0 : Fin 2) j k :=
    funext fun a => Fin.ext (by
      have hj := j.isLt
      have hk := k.isLt
      match a with
      | ⟨0, _⟩ => rfl
      | ⟨1, _⟩ => show (j.val * 128 + k.val) / 128 % 128 = j.val; omega
      | ⟨2, _⟩ => show (j.val * 128 + k.val) % 128 = k.val; omega)
  rw [val_main_v53_apply, val_main_v52_apply, val_main_v51_apply, ei]
  rfl

/-- Layer 0's self bias, broadcast down the nodes, at `(n, j)`. -/
theorem selfBias0 (n : Fin 50000) (j : Fin 128) :
    val_main_v49 (F := Ideal) x7 (ix2 n j) = GnnIn.sb x7 0 j := by
  have ei : idx_main_v46 (idx_main_v47 (idx_main_v48 (idx_main_v49 (ix2 n j)))) = ix2 (0 : Fin 2) j :=
    funext fun a => Fin.ext (by
      have hj := j.isLt
      match a with
      | ⟨0, _⟩ => rfl
      | ⟨1, _⟩ => show j.val % 128 = j.val; omega)
  rw [val_main_v49_apply, val_main_v48_apply, val_main_v47_apply, val_main_v46_apply, ei]
  rfl

/-- Layer 0's neighbour bias, broadcast down the nodes, at `(n, j)`. -/
theorem nbrBias0 (n : Fin 50000) (j : Fin 128) :
    val_main_v59 (F := Ideal) x9 (ix2 n j) = GnnIn.nb x9 0 j := by
  have ei : idx_main_v56 (idx_main_v57 (idx_main_v58 (idx_main_v59 (ix2 n j)))) = ix2 (0 : Fin 2) j :=
    funext fun a => Fin.ext (by
      have hj := j.isLt
      match a with
      | ⟨0, _⟩ => rfl
      | ⟨1, _⟩ => show j.val % 128 = j.val; omega)
  rw [val_main_v59_apply, val_main_v58_apply, val_main_v57_apply, val_main_v56_apply, ei]
  rfl

/-- The first layer's result at `(n, j)` (the source and relation words in range). -/
theorem ref_layer0 (hr : GnnIn.InRange x10 x12) (n : Fin 50000) (j : Fin 128) :
    rd S50000x128 (val_main_v61 (F := Ideal) x0 x1 x2 x3 x4 x5 x6 x7 x8 x9 x10 x11 x12) (ix2 n j)
      = GnnIn.layerRef x3 x4 x5 x6 x7 x8 x9 x10 x11 x12 0
          (fun n k => rd S50000x128 (val_main_v4 (F := Ideal) x0 x1 x2) (ix2 n k)) n j := by
  have el45 : ∀ k : Fin 128, lidx_main_v45 (ix2 n j) k = ix2 n k := fun k =>
    funext fun a => Fin.ext (by match a with | ⟨0, _⟩ => rfl | ⟨1, _⟩ => rfl)
  have er45 : ∀ k : Fin 128, ridx_main_v45 (ix2 n j) k = ix2 k j := fun k =>
    funext fun a => Fin.ext (by match a with | ⟨0, _⟩ => rfl | ⟨1, _⟩ => rfl)
  have el54 : ∀ k : Fin 128, lidx_main_v54 (ix2 n j) k = ix2 n k := fun k =>
    funext fun a => Fin.ext (by match a with | ⟨0, _⟩ => rfl | ⟨1, _⟩ => rfl)
  have er54 : ∀ k : Fin 128, ridx_main_v54 (ix2 n j) k = ix2 k j := fun k =>
    funext fun a => Fin.ext (by match a with | ⟨0, _⟩ => rfl | ⟨1, _⟩ => rfl)
  show val_main_v61 (F := Ideal) x0 x1 x2 x3 x4 x5 x6 x7 x8 x9 x10 x11 x12 (ix2 n j) = _
  rw [val_main_v61_apply, val_main_v60_apply, val_main_v55_apply, val_main_v50_apply, val_main_v45_apply,
    val_main_v54_apply, val_main_call0_v0_apply, val_main_call0_cst_apply, selfBias0, nbrBias0]
  simp only [el45, er45, el54, er54, selfMat0, nbrMat0, agg0 x0 x1 x2 x3 x4 x5 x10 x11 x12 hr,
    Ideal.ofBits_def, Ideal.ofBits_zero_f32]
  rfl

end Cert.ReferenceIdeal.RefVal0

end
-- ==== Proof.RefLayer1.lean ====
/-
  The reference's second layer, read at an element: its result at node `n`, column `j` is the per-edge form of the layer
  (layer 1's parameters) applied to the first layer's result.
-/
import proofs.«412633_j14216341749899_2_alg».proof.Proof.Gen.ReferenceIdeal.Read
import proofs.«412633_j14216341749899_2_alg».proof.Proof.GnnInputs
import proofs.«412633_j14216341749899_2_alg».proof.Proof.LibRows
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefVal1

open Cert.ReferenceIdeal Cert.ReferenceIdeal.Gen Cert.ReferenceIdeal.Read
open Idealize.ShloMosaic Idealize.ShloMosaic.TcCoe Idealize.ShloMosaic.ValueIdx Idealize.SL.Sem
open Cert.GnnSpec (rd lo hi)

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S2x16x32, .f32⟩ : BufTy).Contents (Elt Ideal))
  (x4 : (⟨S2x128x160, .f32⟩ : BufTy).Contents (Elt Ideal)) (x5 : (⟨S2x128, .f32⟩ : BufTy).Contents (Elt Ideal))
  (x6 : (⟨S2x128x128, .f32⟩ : BufTy).Contents (Elt Ideal)) (x7 : (⟨S2x128, .f32⟩ : BufTy).Contents (Elt Ideal))
  (x8 : (⟨S2x128x128, .f32⟩ : BufTy).Contents (Elt Ideal)) (x9 : (⟨S2x128, .f32⟩ : BufTy).Contents (Elt Ideal))
  (x10 x11 x12 : (⟨S800000, .i32⟩ : BufTy).Contents (Elt Ideal))

/-! ## Literals and index words -/

/-- The word of `1.0`. -/
theorem one_word : Ideal.ofBits .f32 0x3F800000#32 = 1 := by
  simp [Ideal.ofBits, Ideal.ieee, -EReal.coe_mul]; norm_num

/-- A signed comparison `w < 0` of a nonnegative word is the zero bit. -/
theorem slt_zero_of_nonneg (w : BitVec 32) (h : 0 ≤ w.toInt) : IntOp.cmpi .slt w 0#32 = 0#1 := by
  have hs : w.slt 0#32 = false := by
    rw [BitVec.slt]
    simpa using h
  simp only [IntOp.cmpi, hs]
  rfl

/-- The source word the gather reads for edge `e`: in range, the wrap-around select keeps the word. -/
theorem src_word (hr : GnnIn.InRange x10 x12) (e : Fin 800000) :
    val_main_v76 (F := Ideal) x10 (ix2 e (0 : Fin 1)) = x10 (ix1 e) := by
  have hi : idx_main_v76 (ix2 e (0 : Fin 1)) = ix1 e := funext fun a => by
    match a with | ⟨0, _⟩ => rfl
  rw [val_main_v76_apply, hi, val_main_v75_apply, val_main_v72_apply, val_main_v71_apply, val_main_c_8_apply,
    slt_zero_of_nonneg _ (hr.1 e).1, select_zero]

/-- The relation word the gather reads for edge `e`. -/
theorem rid_word (hr : GnnIn.InRange x10 x12) (e : Fin 800000) :
    val_main_v69 (F := Ideal) x12 (ix2 e (0 : Fin 1)) = x12 (ix1 e) := by
  have hi : idx_main_v69 (ix2 e (0 : Fin 1)) = ix1 e := funext fun a => by
    match a with | ⟨0, _⟩ => rfl
  rw [val_main_v69_apply, hi, val_main_v68_apply, val_main_v65_apply, val_main_v64_apply, val_main_c_6_apply,
    slt_zero_of_nonneg _ (hr.2 e).1, select_zero]

/-- The destination word the scatter reads for edge `e`. -/
theorem dst_word (e : Fin 800000) :
    val_main_v89 (F := Ideal) x11 (ix2 e (0 : Fin 1)) = x11 (ix1 e) := by
  have hi : idx_main_v89 (ix2 e (0 : Fin 1)) = ix1 e := funext fun a => by
    match a with | ⟨0, _⟩ => rfl
  rw [val_main_v89_apply, hi]

/-- The same word, as the degree's scatter reads it. -/
theorem dst_word_deg (e : Fin 800000) :
    val_main_v7 (F := Ideal) x11 (ix2 e (0 : Fin 1)) = x11 (ix1 e) := by
  have hi : idx_main_v7 (ix2 e (0 : Fin 1)) = ix1 e := funext fun a => by
    match a with | ⟨0, _⟩ => rfl
  rw [val_main_v7_apply, hi]

/-! ## The gathered rows and the message's input row -/

/-- The gathered source rows: edge `e`'s row is the first layer's row of the node its source word names. -/
theorem src_rows (hr : GnnIn.InRange x10 x12) (e : Fin 800000) (k : Fin 128) :
    val_main_v77 (F := Ideal) x0 x1 x2 x3 x4 x5 x6 x7 x8 x9 x10 x11 x12 (ix2 e k)
      = val_main_v61 (F := Ideal) x0 x1 x2 x3 x4 x5 x6 x7 x8 x9 x10 x11 x12 (ix2 (GnnIn.src x10 e) k) := by
  unfold val_main_v77
  generalize val_main_v61 (F := Ideal) x0 x1 x2 x3 x4 x5 x6 x7 x8 x9 x10 x11 x12 = h
  refine (LibRows.gather_rows_apply gather_S50000x128_S800000x1_S800000x128_1_0_n_n_0_1_1128 rfl rfl rfl rfl rfl h
    (val_main_v76 (F := Ideal) x10) e k (by decide)).trans ?_
  have hn : ∀ w : BitVec 32, w = x10 (ix1 e) → ∀ p,
      h (ix2 (⟨min w.toInt.toNat (50000 - 1), p⟩ : Fin 50000) k) = h (ix2 (GnnIn.src x10 e) k) := by
    intro w hw p; subst hw; rfl
  exact hn _ (src_word x10 x12 hr e) _

/-- Layer 1's relation table read by coordinates. -/
theorem rel_tab (r : Fin 16) (k : Fin 32) :
    val_main_v63 (F := Ideal) x3 (ix2 r k) = x3 (ix3 (1 : Fin 2) r k) := by
  rw [val_main_v63_apply, val_main_v62_apply]
  congr 1
  funext a
  apply Fin.ext
  have hr := r.isLt
  have hk := k.isLt
  match a with
  | ⟨0, _⟩ => rfl
  | ⟨1, _⟩ => show (r.val * 32 + k.val) / 32 % 16 = r.val; omega
  | ⟨2, _⟩ => show (r.val * 32 + k.val) % 32 = k.val; omega

/-- The gathered relation rows: edge `e`'s row is the embedding of the relation its relation word names. -/
theorem rel_rows (hr : GnnIn.InRange x10 x12) (e : Fin 800000) (k : Fin 32) :
    val_main_v70 (F := Ideal) x3 x12 (ix2 e k) = x3 (ix3 (1 : Fin 2) (GnnIn.rid x12 e) k) := by
  unfold val_main_v70
  refine (LibRows.gather_rows_apply gather_S16x32_S800000x1_S800000x32_1_0_n_n_0_1_132 rfl rfl rfl rfl rfl
    (val_main_v63 (F := Ideal) x3) (val_main_v69 (F := Ideal) x12) e k (by decide)).trans ?_
  have hn : ∀ w : BitVec 32, w = x12 (ix1 e) → ∀ p,
      val_main_v63 (F := Ideal) x3 (ix2 (⟨min w.toInt.toNat (16 - 1), p⟩ : Fin 16) k)
        = x3 (ix3 (1 : Fin 2) (GnnIn.rid x12 e) k) := by
    intro w hw p; subst hw; rw [rel_tab]; rfl
  exact hn _ (rid_word x10 x12 hr e) _

/-- The concatenated row: the source node's row, then the relation's embedding. -/
theorem cat_row (hr : GnnIn.InRange x10 x12) (e : Fin 800000) (k : Fin 160) :
    val_main_v78 (F := Ideal) x0 x1 x2 x3 x4 x5 x6 x7 x8 x9 x10 x11 x12 (ix2 e k)
      = GnnSpec.msgIn (GnnIn.rel x3 1) (GnnIn.src x10) (GnnIn.rid x12)
          (fun n k => rd S50000x128 (val_main_v61 (F := Ideal) x0 x1 x2 x3 x4 x5 x6 x7 x8 x9 x10 x11 x12) (ix2 n k)) e k := by
  unfold val_main_v78
  by_cases hk : k.val < 128
  · rw [GnnSpec.msgIn, dif_pos hk]
    refine (concatenate_pair_apply_left (1 : Fin S800000x160.rank) _ _ concatenates_S800000x128_S800000x32_S800000x160_d1
      (ix2 e k) rfl (ix2 e (⟨k.val, hk⟩ : Fin 128)) (fun b => by
        match b with
        | ⟨0, _⟩ => rfl
        | ⟨1, _⟩ => rfl)).trans ?_
    exact src_rows x0 x1 x2 x3 x4 x5 x6 x7 x8 x9 x10 x11 x12 hr e ⟨k.val, hk⟩
  · rw [GnnSpec.msgIn, dif_neg hk]
    refine (concatenate_pair_apply_right (1 : Fin S800000x160.rank) _ _ concatenates_S800000x128_S800000x32_S800000x160_d1
      (ix2 e k) rfl rfl (ix2 e (⟨k.val - 128, by have := k.isLt; omega⟩ : Fin 32)) (fun b => by
        match b with
        | ⟨0, _⟩ => exact fun _ => rfl
        | ⟨1, _⟩ => exact fun h => absurd rfl h)
      (by show k.val - 128 + 128 = k.val; omega)).trans ?_
    exact rel_rows x3 x10 x12 hr e _

/-! ## Layer 1's parameters read by coordinates -/

/-- The transposed message matrix at `(k, j)` is `MW[1, j, k]`. -/
theorem msg_mat (k : Fin 160) (j : Fin 128) :
    val_main_v81 (F := Ideal) x4 (ix2 k j) = x4 (ix3 (1 : Fin 2) j k) := by
  rw [val_main_v81_apply, val_main_v80_apply, val_main_v79_apply]
  congr 1
  funext a
  apply Fin.ext
  have hj := j.isLt
  have hk := k.isLt
  match a with
  | ⟨0, _⟩ => rfl
  | ⟨1, _⟩ => show (j.val * 160 + k.val) / 160 % 128 = j.val; omega
  | ⟨2, _⟩ => show (j.val * 160 + k.val) % 160 = k.val; omega

/-- The message bias, broadcast down the edges. -/
theorem msg_bias (n : Fin 800000) (j : Fin 128) :
    val_main_v86 (F := Ideal) x5 (ix2 n j) = x5 (ix2 (1 : Fin 2) j) := by
  rw [val_main_v86_apply, val_main_v85_apply, val_main_v84_apply, val_main_v83_apply]
  congr 1
  funext a
  apply Fin.ext
  have hj := j.isLt
  match a with
  | ⟨0, _⟩ => rfl
  | ⟨1, _⟩ => show j.val % 128 = j.val; omega

/-- The transposed self matrix at `(k, j)` is `SW[1, j, k]`. -/
theorem self_mat (k : Fin 128) (j : Fin 128) :
    val_main_v95 (F := Ideal) x6 (ix2 k j) = x6 (ix3 (1 : Fin 2) j k) := by
  rw [val_main_v95_apply, val_main_v94_apply, val_main_v93_apply]
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The self bias, broadcast down the nodes. -/
theorem self_bias (n : Fin 50000) (j : Fin 128) :
    val_main_v100 (F := Ideal) x7 (ix2 n j) = x7 (ix2 (1 : Fin 2) j) := by
  rw [val_main_v100_apply, val_main_v99_apply, val_main_v98_apply, val_main_v97_apply]
  congr 1
  funext a
  apply Fin.ext
  have hj := j.isLt
  match a with
  | ⟨0, _⟩ => rfl
  | ⟨1, _⟩ => show j.val % 128 = j.val; omega

/-- The transposed neighbour matrix at `(k, j)` is `NW[1, j, k]`. -/
theorem nbr_mat (k : Fin 128) (j : Fin 128) :
    val_main_v104 (F := Ideal) x8 (ix2 k j) = x8 (ix3 (1 : Fin 2) j k) := by
  rw [val_main_v104_apply, val_main_v103_apply, val_main_v102_apply]
  congr 1
  funext a
  apply Fin.ext
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The neighbour bias, broadcast down the nodes. -/
theorem nbr_bias (n : Fin 50000) (j : Fin 128) :
    val_main_v110 (F := Ideal) x9 (ix2 n j) = x9 (ix2 (1 : Fin 2) j) := by
  rw [val_main_v110_apply, val_main_v109_apply, val_main_v108_apply, val_main_v107_apply]
  congr 1
  funext a
  apply Fin.ext
  have hj := j.isLt
  match a with
  | ⟨0, _⟩ => rfl
  | ⟨1, _⟩ => show j.val % 128 = j.val; omega

/-! ## The message, the segment sum, the degree -/

/-- Edge `e`'s message at column `j`. -/
theorem msg_val (hr : GnnIn.InRange x10 x12) (e : Fin 800000) (j : Fin 128) :
    val_main_v87 (F := Ideal) x0 x1 x2 x3 x4 x5 x6 x7 x8 x9 x10 x11 x12 (ix2 e j)
      = GnnSpec.msgRef (GnnIn.MW x4 1) (GnnIn.mb x5 1) (GnnIn.rel x3 1) (GnnIn.src x10) (GnnIn.rid x12)
          (fun n k => rd S50000x128 (val_main_v61 (F := Ideal) x0 x1 x2 x3 x4 x5 x6 x7 x8 x9 x10 x11 x12) (ix2 n k)) e j := by
  rw [val_main_v87_apply, val_main_v82_apply, msg_bias, Ideal.addf_def]
  unfold GnnSpec.msgRef
  refine congrArg₂ (· + ·) (Finset.sum_congr rfl fun k _ => ?_) rfl
  have hl : lidx_main_v82 (ix2 e j) k = ix2 e k := funext fun a => by
    match a with
    | ⟨0, _⟩ => rfl
    | ⟨1, _⟩ => rfl
  have hri : ridx_main_v82 (ix2 e j) k = ix2 k j := funext fun a => by
    match a with
    | ⟨0, _⟩ => rfl
    | ⟨1, _⟩ => rfl
  rw [hl, hri, cat_row x0 x1 x2 x3 x4 x5 x6 x7 x8 x9 x10 x11 x12 hr, msg_mat]
  rfl

/-- The messages landing on node `n`, summed onto zeros. -/
theorem seg_val (hr : GnnIn.InRange x10 x12) (n : Fin 50000) (j : Fin 128) :
    val_main_v90 (F := Ideal) x0 x1 x2 x3 x4 x5 x6 x7 x8 x9 x10 x11 x12 (ix2 n j)
      = GnnSpec.segRef (GnnIn.MW x4 1) (GnnIn.mb x5 1) (GnnIn.rel x3 1) (GnnIn.src x10) (GnnIn.rid x12) (GnnIn.into x11)
          (fun n k => rd S50000x128 (val_main_v61 (F := Ideal) x0 x1 x2 x3 x4 x5 x6 x7 x8 x9 x10 x11 x12) (ix2 n k)) n j := by
  unfold val_main_v90
  refine (LibRows.scatterAdd_rows_apply scatter_S50000x128_S800000x1_S800000x128_1_0_0_1 rfl rfl rfl rfl
    (val_main_v88 (F := Ideal)) (val_main_v89 (F := Ideal) x11) (val_main_v87 (F := Ideal) x0 x1 x2 x3 x4 x5 x6 x7 x8 x9 x10 x11 x12) n j).trans ?_
  rw [val_main_v88_apply, val_main_cst_10_apply, Ideal.ofBits_def, Ideal.ofBits_zero_f32]
  have hf : (Finset.univ.filter fun e : Fin 800000 =>
      (val_main_v89 (F := Ideal) x11 (ix2 e (0 : Fin 1))).toInt = (n.val : ℤ)) = GnnIn.into x11 n := by
    unfold GnnIn.into
    refine Finset.filter_congr fun e _ => ?_
    rw [dst_word]
  rw [hf]
  unfold GnnSpec.segRef
  exact congrArg₂ (· + ·) rfl (Finset.sum_congr rfl fun e _ => msg_val x0 x1 x2 x3 x4 x5 x6 x7 x8 x9 x10 x11 x12 hr e j)

/-- The degree normaliser of node `n`: its in-degree counted as a sum of ones onto zero, at least one. -/
theorem deg_val (n : Fin 50000) :
    val_main_v10 (F := Ideal) x11 (ix2 n (0 : Fin 1)) = GnnSpec.deg (GnnIn.into x11) n := by
  rw [val_main_v10_apply, Ideal.maximumf_def, val_main_v9_apply, val_main_cst_1_apply, Ideal.ofBits_def, one_word]
  unfold GnnSpec.deg GnnSpec.cnt
  refine congrArg₂ max ?_ rfl
  unfold val_main_v8
  refine (LibRows.scatterAdd_rows_apply scatter_S50000x1_S800000x1_S800000x1_1_0_0_1 rfl rfl rfl rfl
    (val_main_v6 (F := Ideal)) (val_main_v7 (F := Ideal) x11) (val_main_v5 (F := Ideal)) n (0 : Fin 1)).trans ?_
  rw [val_main_v6_apply, val_main_cst_0_apply, Ideal.ofBits_def, Ideal.ofBits_zero_f32]
  have hf : (Finset.univ.filter fun e : Fin 800000 =>
      (val_main_v7 (F := Ideal) x11 (ix2 e (0 : Fin 1))).toInt = (n.val : ℤ)) = GnnIn.into x11 n := by
    unfold GnnIn.into
    refine Finset.filter_congr fun e _ => ?_
    rw [dst_word_deg]
  rw [hf]
  refine congrArg₂ (· + ·) rfl (Finset.sum_congr rfl fun e _ => ?_)
  rw [val_main_v5_apply, val_main_cst_apply, Ideal.ofBits_def, one_word]

/-! ## The aggregate and the update -/

/-- The mean of the messages landing on node `n`. -/
theorem agg_val (hr : GnnIn.InRange x10 x12) (n : Fin 50000) (k : Fin 128) :
    val_main_v92 (F := Ideal) x0 x1 x2 x3 x4 x5 x6 x7 x8 x9 x10 x11 x12 (ix2 n k)
      = GnnSpec.aggRef (GnnIn.MW x4 1) (GnnIn.mb x5 1) (GnnIn.rel x3 1) (GnnIn.src x10) (GnnIn.rid x12) (GnnIn.into x11)
          (fun n k => rd S50000x128 (val_main_v61 (F := Ideal) x0 x1 x2 x3 x4 x5 x6 x7 x8 x9 x10 x11 x12) (ix2 n k)) n k := by
  have hi : idx_main_v91 (ix2 n k) = ix2 n (0 : Fin 1) := funext fun a => by
    match a with
    | ⟨0, _⟩ => rfl
    | ⟨1, _⟩ => rfl
  rw [val_main_v92_apply, Ideal.hostDivf_def, val_main_v91_apply, hi, seg_val x0 x1 x2 x3 x4 x5 x6 x7 x8 x9 x10 x11 x12 hr, deg_val]
  rfl

/-- The second layer's result at `(n, j)` (the source and relation words in range). -/
theorem ref_layer1 (hr : GnnIn.InRange x10 x12) (n : Fin 50000) (j : Fin 128) :
    rd S50000x128 (val_main_v112 (F := Ideal) x0 x1 x2 x3 x4 x5 x6 x7 x8 x9 x10 x11 x12) (ix2 n j)
      = GnnIn.layerRef x3 x4 x5 x6 x7 x8 x9 x10 x11 x12 1
          (fun n k => rd S50000x128 (val_main_v61 (F := Ideal) x0 x1 x2 x3 x4 x5 x6 x7 x8 x9 x10 x11 x12) (ix2 n k)) n j := by
  show val_main_v112 (F := Ideal) x0 x1 x2 x3 x4 x5 x6 x7 x8 x9 x10 x11 x12 (ix2 n j) = _
  rw [val_main_v112_apply, Ideal.maximumf_def, val_main_call1_v0_apply, val_main_call1_cst_apply, Ideal.ofBits_def,
    Ideal.ofBits_zero_f32, val_main_v111_apply, Ideal.addf_def, nbr_bias, val_main_v106_apply, Ideal.addf_def,
    val_main_v101_apply, Ideal.addf_def, self_bias, val_main_v96_apply, val_main_v105_apply]
  unfold GnnIn.layerRef GnnSpec.nextRef GnnSpec.combine
  have hl : ∀ k : Fin 128, lidx_main_v96 (ix2 n j) k = ix2 n k := fun k => funext fun a => by
    match a with
    | ⟨0, _⟩ => rfl
    | ⟨1, _⟩ => rfl
  have hri : ∀ k : Fin 128, ridx_main_v96 (ix2 n j) k = ix2 k j := fun k => funext fun a => by
    match a with
    | ⟨0, _⟩ => rfl
    | ⟨1, _⟩ => rfl
  have hl' : ∀ k : Fin 128, lidx_main_v105 (ix2 n j) k = ix2 n k := fun k => funext fun a => by
    match a with
    | ⟨0, _⟩ => rfl
    | ⟨1, _⟩ => rfl
  have hri' : ∀ k : Fin 128, ridx_main_v105 (ix2 n j) k = ix2 k j := fun k => funext fun a => by
    match a with
    | ⟨0, _⟩ => rfl
    | ⟨1, _⟩ => rfl
  refine congrArg₂ max (congrArg₂ (· + ·) (congrArg₂ (· + ·) (congrArg₂ (· + ·)
    (Finset.sum_congr rfl fun k _ => ?_) rfl) (Finset.sum_congr rfl fun k _ => ?_)) rfl) rfl
  · rw [hl, hri, self_mat]
    rfl
  · rw [hl', hri', agg_val x0 x1 x2 x3 x4 x5 x6 x7 x8 x9 x10 x11 x12 hr, nbr_mat]
    rfl

end Cert.ReferenceIdeal.RefVal1

end
-- ==== Proof.RefValue.lean ====
/-
  The idealized reference program's result array, read at an element, is the two-layer network in its per-edge form.
-/
import proofs.«412633_j14216341749899_2_alg».proof.Proof.RefLayer0
import proofs.«412633_j14216341749899_2_alg».proof.Proof.RefLayer1

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem
open Cert.GnnSpec (rd)

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S2x16x32, .f32⟩ : BufTy).Contents (Elt Ideal))
  (x4 : (⟨S2x128x160, .f32⟩ : BufTy).Contents (Elt Ideal)) (x5 : (⟨S2x128, .f32⟩ : BufTy).Contents (Elt Ideal))
  (x6 : (⟨S2x128x128, .f32⟩ : BufTy).Contents (Elt Ideal)) (x7 : (⟨S2x128, .f32⟩ : BufTy).Contents (Elt Ideal))
  (x8 : (⟨S2x128x128, .f32⟩ : BufTy).Contents (Elt Ideal)) (x9 : (⟨S2x128, .f32⟩ : BufTy).Contents (Elt Ideal))
  (x10 x11 x12 : (⟨S800000, .i32⟩ : BufTy).Contents (Elt Ideal))

/-- The last stage at `(n, j)`: layer 1 of layer 0 of the input projection, each in its per-edge form. -/
theorem ref_value (hr : GnnIn.InRange x10 x12) (n : Fin 50000) (j : Fin 128) :
    rd S50000x128 (val_main_v112 (F := Ideal) x0 x1 x2 x3 x4 x5 x6 x7 x8 x9 x10 x11 x12) (ix2 n j)
      = GnnIn.outRef x0 x1 x2 x3 x4 x5 x6 x7 x8 x9 x10 x11 x12 n j := by
  have e0 : (fun (n : Fin 50000) (k : Fin 128) => rd S50000x128 (val_main_v4 (F := Ideal) x0 x1 x2) (ix2 n k))
      = GnnIn.H0 x0 x1 x2 := by
    funext n k; exact RefVal0.ref_h0 x0 x1 x2 n k
  have e1 : (fun (n : Fin 50000) (k : Fin 128) =>
        rd S50000x128 (val_main_v61 (F := Ideal) x0 x1 x2 x3 x4 x5 x6 x7 x8 x9 x10 x11 x12) (ix2 n k))
      = GnnIn.layerRef x3 x4 x5 x6 x7 x8 x9 x10 x11 x12 0 (GnnIn.H0 x0 x1 x2) := by
    funext n k; rw [RefVal0.ref_layer0 x0 x1 x2 x3 x4 x5 x6 x7 x8 x9 x10 x11 x12 hr, e0]
  rw [RefVal1.ref_layer1 x0 x1 x2 x3 x4 x5 x6 x7 x8 x9 x10 x11 x12 hr, e1]
  rfl

end Cert.ReferenceIdeal.RefVal

end
-- ==== Proof.PreDecode.lean ====
/-
  Reading the precondition: when the printed predicate of the argument arrays is all ones, every source word and every
  relation word is in range (`0 ≤ source < 50000`, `0 ≤ relation < 16`, read signed).
-/
import proofs.«412633_j14216341749899_2_alg».proof.Pre_finite_inputs
import proofs.«412633_j14216341749899_2_alg».proof.Proof.GnnInputs
import Idealize.ShloMosaic.Lib.StableHlo.Predicate
import Idealize.ShloMosaic.Lib.ReduceAll

noncomputable section

namespace Cert.PreDecode

open Idealize.ShloMosaic Idealize.ShloMosaic.ValueIdx
open Cert.Pre_finite_inputs

variable [Cert.Pre_finite_inputs.Facts]

/-- The rank-0 shape has exactly one index. -/
instance : Subsingleton S_.Idx := ⟨fun _ _ => funext fun d => d.elim0⟩

/-- One range test under an `all`: when the conjunction over every element of `lo ≤ x` and `x < hi` (both read signed,
    the bounds broadcast from scalars) reduces to one, each element lies between the bounds. -/
theorem range_of_all (x : IVec S800000 32) (lo hi : BitVec 32) (init : IVec S_ 1)
    (e : Host.reduce IntOp.andi
      (andi (cmpi .sge x (broadcastInDim S800000 ![] Facts.bcast_S_S800000 (constantI S_ 32 lo)))
        (cmpi .slt x (broadcastInDim S800000 ![] Facts.bcast_S_S800000 (constantI S_ 32 hi))))
      init Facts.reducesTo_S800000_S_d0 Facts.h_S_ ix0 = 1#1) (i : S800000.Idx) :
    lo.toInt ≤ (x i).toInt ∧ (x i).toInt < hi.toInt := by
  have hi' : IntOp.andi (IntOp.cmpi .sge (x i) lo) (IntOp.cmpi .slt (x i) hi) = 1#1 :=
    Host.reduce_andi_all _ _ _ _ _ e i
  obtain ⟨h1, h2⟩ := IntOp.andi_eq_one.1 hi'
  exact ⟨IntOp.cmpi_sge.1 h1, IntOp.cmpi_slt.1 h2⟩

/-- The precondition's two integer conjuncts, decoded. -/
theorem in_range (x0 : FVec Ideal S50000x128 .f32) (x1 : FVec Ideal S128x128 .f32) (x2 : FVec Ideal S128 .f32)
    (x3 : FVec Ideal S2x16x32 .f32) (x4 : FVec Ideal S2x128x160 .f32) (x5 : FVec Ideal S2x128 .f32)
    (x6 : FVec Ideal S2x128x128 .f32) (x7 : FVec Ideal S2x128 .f32) (x8 : FVec Ideal S2x128x128 .f32)
    (x9 : FVec Ideal S2x128 .f32) (x10 x11 x12 : IVec S800000 32)
    (h : fn (F := Ideal) x0 x1 x2 x3 x4 x5 x6 x7 x8 x9 x10 x11 x12 = fun _ => 1#1) :
    Cert.GnnIn.InRange x10 x12 := by
  -- The predicate's one word is a conjunction whose last two conjuncts are the two `all`-reduced range tests.
  have h0 : fn (F := Ideal) x0 x1 x2 x3 x4 x5 x6 x7 x8 x9 x10 x11 x12 ix0 = 1#1 := congrFun h ix0
  obtain ⟨h55, h61⟩ := IntOp.andi_eq_one.1 h0
  obtain ⟨-, h54⟩ := IntOp.andi_eq_one.1 h55
  have z : (0#32 : BitVec 32).toInt = 0 := by decide
  have a : (50000#32 : BitVec 32).toInt = 50000 := by decide
  have b : (16#32 : BitVec 32).toInt = 16 := by decide
  refine ⟨fun e => ?_, fun e => ?_⟩
  · have := range_of_all x10 0#32 50000#32 _ h54 (ix1 e)
    rwa [z, a] at this
  · have := range_of_all x12 0#32 16#32 _ h61 (ix1 e)
    rwa [z, b] at this

end Cert.PreDecode

end
-- ==== Proof.lean ====
/-
  A relational graph network of two message-passing layers over 50000 nodes and 800000 edges, computed two ways.

  The reference builds every edge's message from the 160-wide row [h[src e] | rel_emb[l][rel e]] through the layer's message
  matrix, sums the messages landing on each node, divides by the node's in-degree (at least one), and updates
  h ← relu(h @ self_W.T + self_b + agg @ neigh_W.T + neigh_b). The kernel program projects every NODE's row through the
  first 128 message columns once (adding the bias per row), sums the projected rows of each node's in-neighbours, adds the
  relation part as (per-node relation counts) @ (rel_emb[l] through the last 32 columns), multiplies by the reciprocal
  in-degree, and fuses the update with the next layer's projection; the dense stages run in three kernel regions of 25 grid
  points of 2000 node rows each.

  Over the extended reals the two are one function wherever every source word names a node and every relation word names
  a relation (0 ≤ src < 50000, 0 ≤ rel < 16: outside that range the reference's gather clamps while the kernel program's
  take fills and its one-hot vanishes): a 160-term sum splits at 128; finite sums regroup; a product distributes over a
  sum of zeros and ones; x / d = x · (1/d) for a real d ≥ 1. No finiteness of the float inputs is used.

  The frames of both kernel programs are the generated ones; the reference's frame is its generated run. The kernel
  program's run with its result named is the launch over the generated segments (KernelRun); each region's arrays are
  read block by block into whole-array functions (Region0–2), each host stretch at an index (KHost0–2), the reference's
  stages at an index (RefLayer0–1), and the layer identity is GnnSpec.
-/
import proofs.«412633_j14216341749899_2_alg».proof.Defs
import proofs.«412633_j14216341749899_2_alg».proof.Proof.Gen.Kernel
import proofs.«412633_j14216341749899_2_alg».proof.Proof.Gen.Kernel.Skeleton
import proofs.«412633_j14216341749899_2_alg».proof.Proof.Gen.Kernel.Launch
import proofs.«412633_j14216341749899_2_alg».proof.Proof.Gen.Kernel.Points
import proofs.«412633_j14216341749899_2_alg».proof.Proof.Gen.Kernel.Frame
import proofs.«412633_j14216341749899_2_alg».proof.Proof.Gen.KernelIdeal
import proofs.«412633_j14216341749899_2_alg».proof.Proof.Gen.KernelIdeal.Skeleton
import proofs.«412633_j14216341749899_2_alg».proof.Proof.Gen.KernelIdeal.Launch
import proofs.«412633_j14216341749899_2_alg».proof.Proof.Gen.KernelIdeal.Points
import proofs.«412633_j14216341749899_2_alg».proof.Proof.Gen.KernelIdeal.Frame
import proofs.«412633_j14216341749899_2_alg».proof.Proof.Gen.ReferenceIdeal
import proofs.«412633_j14216341749899_2_alg».proof.Proof.Gen.Pre_finite_inputs
import proofs.«412633_j14216341749899_2_alg».proof.Proof.Gen.ReferenceIdeal.Run
import proofs.«412633_j14216341749899_2_alg».proof.Proof.Gen.ReferenceIdeal.Read
import proofs.«412633_j14216341749899_2_alg».proof.Proof.KernelRun
import proofs.«412633_j14216341749899_2_alg».proof.Proof.KernelValue
import proofs.«412633_j14216341749899_2_alg».proof.Proof.RefValue
import proofs.«412633_j14216341749899_2_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel program's frame: generated. -/
theorem frame_k : Cert.frame_Kernel := fun m ρ _ => Cert.Kernel.Gen.frame m ρ

/-- The idealized kernel program's frame: generated. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Run from memories agreeing on the arguments, both programs end with the two-layer network at every node and column:
    the kernel program in its per-node form, the reference in its per-edge form, one function where the index words are in
    range (which the precondition says). -/
theorem algebraic : Cert.algebraic_KernelIdeal_ReferenceIdeal := by
  intro m ρ m' ρ' hpre hagree
  refine ⟨fun c => Cert.KernelIdeal.Gen.W10 m ρ c (Proc.devRef .tc Cert.KernelIdeal.main_v76),
    Cert.KernelIdeal.RunValue.run_value (F := Ideal) m ρ, ?_⟩
  refine (θ_run Cert.ReferenceIdeal.defs _ _).mono (fun r h c => ⟨(h c).1.trans ?_, (h c).2⟩)
    (Cert.ReferenceIdeal.Value.run (F := Ideal) m' ρ')
  have hr : Cert.GnnIn.InRange (Cert.KernelIdeal.HostVal.a10 m c) (Cert.KernelIdeal.HostVal.a12 m c) :=
    Cert.PreDecode.in_range _ _ _ _ _ _ _ _ _ _ _ _ _ (hpre c)
  rw [Cert.ReferenceIdeal.Read.val_main_v112_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  funext i
  obtain ⟨n, j, rfl⟩ : ∃ (n : Fin 50000) (j : Fin 128), i = ix2 n j := ⟨i 0, i 1, eq_ix2 i⟩
  refine (Cert.ReferenceIdeal.RefVal.ref_value _ _ _ _ _ _ _ _ _ _ _ _ _ hr n j).trans ?_
  rw [Cert.GnnIn.out_eq]
  exact (Cert.KernelIdeal.KerVal.kernel_value m ρ c hr n j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
